-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S401408x1 : Shape := ⟨2, ![401408, 1]⟩
abbrev S2x3211264 : Shape := ⟨2, ![2, 3211264]⟩
abbrev S1x32 : Shape := ⟨2, ![1, 32]⟩
abbrev S32 : Shape := ⟨1, ![32]⟩
abbrev S32x64 : Shape := ⟨2, ![32, 64]⟩
abbrev S64 : Shape := ⟨1, ![64]⟩
abbrev S50176x128 : Shape := ⟨2, ![50176, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S401408x1 : S_.BroadcastsInDim S401408x1 (![] : Fin 0 → Fin S401408x1.rank)
  reducesTo_S401408x1_S_d0_1 : S401408x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S50176x128 : S_.BroadcastsInDim S50176x128 (![] : Fin 0 → Fin S50176x128.rank)
  reducesTo_S50176x128_S_d0_1 : S50176x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S128x10 .f32) (main_arg9 : FVec F S10 .f32) (main_v33 : IVec S_ 1) : IVec S_ 1 :=
  let main_v34 : FVec F S128x10 .f32 := Host.absf main_arg8
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S64 .f32) (main_arg6 : FVec F S50176x128 .f32) (main_arg7 : FVec F S128 .f32) (main_arg8 : FVec F S128x10 .f32) (main_arg9 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S50176x128 .f32 := Host.absf main_arg6
  let main_cst_8 : FVec F S_ .f32 := constant S_ .f32 0x7F800000#32
  let main_v25 : FVec F S50176x128 .f32 := broadcastInDim S50176x128 ![] bcast_S_S50176x128 main_cst_8
  let main_v26 : IVec S50176x128 1 := cmpf .olt main_v24 main_v25
  let main_c_9 : IVec S_ 1 := constantI S_ 1 1#1
  let main_v27 : IVec S_ 1 := (fun x v => Host.reduce IntOp.andi x v reducesTo_S50176x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S401408x1 .f32) (main_arg1 : IVec S2x3211264 32) (main_arg2 : FVec F S1x32 .f32) (main_arg3 : FVec F S32 .f32) (main_arg4 : FVec F S32x64 .f32) (main_arg5 : FVec F S64 .f32) (main_arg6 : FVec F S50176x128 .f32) (main_arg7 : FVec F S128 .f32) (main_arg8 : FVec F S128x10 .f32) (main_arg9 : FVec F S10 .f32) : IVec S_ 1 :=
  let main_v0 : FVec F S401408x1 .f32 := Host.absf main_arg0
  let main_cst : FVec F S_ .f32 := constant S_ .f32 0x7F800000#32
  let main_v1 : FVec F S401408x1 .f32 := broadcastInDim S401408x1 ![] bcast_S_S401408x1 main_cst
  let main_v2 : IVec S401408x1 1 := cmpf .olt main_v0 main_v1
  let main_c : IVec S_ 1 := constantI S_ 1 1#1
  let main_v3 : IVec S_ 1 := (fun x v => Host.reduce IntOp.andi x v reducesTo_S401408x1_S_d0_1 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_v13 main_v16
-- ==== Kernel.lean ====
abbrev S401408x1 : Shape := ⟨2, ![401408, 1]⟩
abbrev S2x3211264 : Shape := ⟨2, ![2, 3211264]⟩
abbrev S1x32 : Shape := ⟨2, ![1, 32]⟩
abbrev S32 : Shape := ⟨1, ![32]⟩
abbrev S32x64 : Shape := ⟨2, ![32, 64]⟩
abbrev S64 : Shape := ⟨1, ![64]⟩
abbrev S50176x128 : Shape := ⟨2, ![50176, 128]⟩
abbrev S128 : Shape := ⟨1, ![128]⟩
abbrev S128x10 : Shape := ⟨2, ![128, 10]⟩
abbrev S10 : Shape := ⟨1, ![10]⟩
abbrev S1x3211264 : Shape := ⟨2, ![1, 3211264]⟩
abbrev S3211264 : Shape := ⟨1, ![3211264]⟩
abbrev S_ : Shape := ⟨0, ![]⟩
abbrev S401408 : Shape := ⟨1, ![401408]⟩
abbrev S3211264x1 : Shape := ⟨2, ![3211264, 1]⟩
abbrev S401408x32 : Shape := ⟨2, ![401408, 32]⟩
abbrev S8192x1 : Shape := ⟨2, ![8192, 1]⟩
abbrev S8192x32 : Shape := ⟨2, ![8192, 32]⟩
abbrev S3211264x32 : Shape := ⟨2, ![3211264, 32]⟩
abbrev S401408x64 : Shape := ⟨2, ![401408, 64]⟩
abbrev S8192x64 : Shape := ⟨2, ![8192, 64]⟩
abbrev S1x64 : Shape := ⟨2, ![1, 64]⟩
abbrev S512x50176 : Shape := ⟨2, ![512, 50176]⟩
abbrev S512x10 : Shape := ⟨2, ![512, 10]⟩
abbrev S256x6272 : Shape := ⟨2, ![256, 6272]⟩
abbrev S6272x128 : Shape := ⟨2, ![6272, 128]⟩
abbrev S256x10 : Shape := ⟨2, ![256, 10]⟩
abbrev S256x128 : Shape := ⟨2, ![256, 128]⟩
abbrev S1x128 : Shape := ⟨2, ![1, 128]⟩
abbrev S1x10 : Shape := ⟨2, ![1, 10]⟩

abbrev nBuf : Space → Nat
  | .hbm => 93
  | .vmem => 22
  | .smem => 0
  | _ => 0

abbrev bufTy : (tb : Table) → Fin (tcTables nBuf tb) → BufTy
  | .hbm, ⟨0, _⟩ => ⟨S401408x1, .f32⟩
  | .hbm, ⟨1, _⟩ => ⟨S2x3211264, .i32⟩
  | .hbm, ⟨2, _⟩ => ⟨S1x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S50176x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S1x3211264, .i32⟩
  | .hbm, ⟨11, _⟩ => ⟨S3211264, .i32⟩
  | .hbm, ⟨12, _⟩ => ⟨S1x3211264, .i32⟩
  | .hbm, ⟨13, _⟩ => ⟨S3211264, .i32⟩
  | .hbm, ⟨14, _⟩ => ⟨S_, .f32⟩
  | .hbm, ⟨15, _⟩ => ⟨S401408, .f32⟩
  | .hbm, ⟨16, _⟩ => ⟨S_, .i32⟩
  | .hbm, ⟨17, _⟩ => ⟨S3211264, .i32⟩
  | .hbm, ⟨18, _⟩ => ⟨S3211264, .i1⟩
  | .hbm, ⟨19, _⟩ => ⟨S_, .i32⟩
  | .hbm, ⟨20, _⟩ => ⟨S3211264, .i32⟩
  | .hbm, ⟨21, _⟩ => ⟨S3211264, .i32⟩
  | .hbm, ⟨22, _⟩ => ⟨S3211264, .i32⟩
  | .hbm, ⟨23, _⟩ => ⟨S3211264x1, .i32⟩
  | .hbm, ⟨24, _⟩ => ⟨S_, .f32⟩
  | .hbm, ⟨25, _⟩ => ⟨S3211264, .f32⟩
  | .hbm, ⟨26, _⟩ => ⟨S401408, .f32⟩
  | .hbm, ⟨27, _⟩ => ⟨S_, .f32⟩
  | .hbm, ⟨28, _⟩ => ⟨S401408, .f32⟩
  | .hbm, ⟨29, _⟩ => ⟨S401408, .f32⟩
  | .hbm, ⟨30, _⟩ => ⟨S401408, .f32⟩
  | .hbm, ⟨31, _⟩ => ⟨S_, .i32⟩
  | .hbm, ⟨32, _⟩ => ⟨S3211264, .i32⟩
  | .hbm, ⟨33, _⟩ => ⟨S3211264, .i1⟩
  | .hbm, ⟨34, _⟩ => ⟨S_, .i32⟩
  | .hbm, ⟨35, _⟩ => ⟨S3211264, .i32⟩
  | .hbm, ⟨36, _⟩ => ⟨S3211264, .i32⟩
  | .hbm, ⟨37, _⟩ => ⟨S3211264, .i32⟩
  | .hbm, ⟨38, _⟩ => ⟨S3211264x1, .i32⟩
  | .hbm, ⟨39, _⟩ => ⟨S3211264, .f32⟩
  | .hbm, ⟨40, _⟩ => ⟨S_, .i32⟩
  | .hbm, ⟨41, _⟩ => ⟨S3211264, .i32⟩
  | .hbm, ⟨42, _⟩ => ⟨S3211264, .i1⟩
  | .hbm, ⟨43, _⟩ => ⟨S_, .i32⟩
  | .hbm, ⟨44, _⟩ => ⟨S3211264, .i32⟩
  | .hbm, ⟨45, _⟩ => ⟨S3211264, .i32⟩
  | .hbm, ⟨46, _⟩ => ⟨S3211264, .i32⟩
  | .hbm, ⟨47, _⟩ => ⟨S3211264x1, .i32⟩
  | .hbm, ⟨48, _⟩ => ⟨S3211264, .f32⟩
  | .hbm, ⟨49, _⟩ => ⟨S3211264, .f32⟩
  | .hbm, ⟨50, _⟩ => ⟨S401408, .f32⟩
  | .hbm, ⟨51, _⟩ => ⟨S_, .i32⟩
  | .hbm, ⟨52, _⟩ => ⟨S3211264, .i32⟩
  | .hbm, ⟨53, _⟩ => ⟨S3211264, .i1⟩
  | .hbm, ⟨54, _⟩ => ⟨S_, .i32⟩
  | .hbm, ⟨55, _⟩ => ⟨S3211264, .i32⟩
  | .hbm, ⟨56, _⟩ => ⟨S3211264, .i32⟩
  | .hbm, ⟨57, _⟩ => ⟨S3211264, .i32⟩
  | .hbm, ⟨58, _⟩ => ⟨S3211264x1, .i32⟩
  | .hbm, ⟨59, _⟩ => ⟨S3211264x1, .f32⟩
  | .hbm, ⟨60, _⟩ => ⟨S3211264x1, .f32⟩
  | .hbm, ⟨61, _⟩ => ⟨S3211264x1, .f32⟩
  | .hbm, ⟨62, _⟩ => ⟨S_, .f32⟩
  | .hbm, ⟨63, _⟩ => ⟨S401408x1, .f32⟩
  | .hbm, ⟨64, _⟩ => ⟨S3211264x1, .i32⟩
  | .hbm, ⟨65, _⟩ => ⟨S401408x1, .f32⟩
  | .hbm, ⟨66, _⟩ => ⟨S401408x1, .f32⟩
  | .hbm, ⟨67, _⟩ => ⟨S401408x1, .f32⟩
  | .hbm, ⟨68, _⟩ => ⟨S401408x1, .f32⟩
  | .hbm, ⟨69, _⟩ => ⟨S401408x32, .f32⟩
  | .hbm, ⟨70, _⟩ => ⟨S_, .i32⟩
  | .hbm, ⟨71, _⟩ => ⟨S3211264, .i32⟩
  | .hbm, ⟨72, _⟩ => ⟨S3211264, .i1⟩
  | .hbm, ⟨73, _⟩ => ⟨S_, .i32⟩
  | .hbm, ⟨74, _⟩ => ⟨S3211264, .i32⟩
  | .hbm, ⟨75, _⟩ => ⟨S3211264, .i32⟩
  | .hbm, ⟨76, _⟩ => ⟨S3211264, .i32⟩
  | .hbm, ⟨77, _⟩ => ⟨S3211264x1, .i32⟩
  | .hbm, ⟨78, _⟩ => ⟨S3211264x32, .f32⟩
  | .hbm, ⟨79, _⟩ => ⟨S3211264x1, .f32⟩
  | .hbm, ⟨80, _⟩ => ⟨S3211264x32, .f32⟩
  | .hbm, ⟨81, _⟩ => ⟨S3211264x32, .f32⟩
  | .hbm, ⟨82, _⟩ => ⟨S_, .f32⟩
  | .hbm, ⟨83, _⟩ => ⟨S401408x32, .f32⟩
  | .hbm, ⟨84, _⟩ => ⟨S3211264x1, .i32⟩
  | .hbm, ⟨85, _⟩ => ⟨S401408x32, .f32⟩
  | .hbm, ⟨86, _⟩ => ⟨S401408x1, .f32⟩
  | .hbm, ⟨87, _⟩ => ⟨S401408x32, .f32⟩
  | .hbm, ⟨88, _⟩ => ⟨S401408x32, .f32⟩
  | .hbm, ⟨89, _⟩ => ⟨S401408x32, .f32⟩
  | .hbm, ⟨90, _⟩ => ⟨S401408x64, .f32⟩
  | .hbm, ⟨91, _⟩ => ⟨S512x50176, .f32⟩
  | .hbm, ⟨92, _⟩ => ⟨S512x10, .f32⟩
  | .local _ .vmem, ⟨0, _⟩ => ⟨S8192x1, .f32⟩
  | .local _ .vmem, ⟨1, _⟩ => ⟨S8192x1, .f32⟩
  | .local _ .vmem, ⟨2, _⟩ => ⟨S1x32, .f32⟩
  | .local _ .vmem, ⟨3, _⟩ => ⟨S32, .f32⟩
  | .local _ .vmem, ⟨4, _⟩ => ⟨S8192x32, .f32⟩
  | .local _ .vmem, ⟨5, _⟩ => ⟨S8192x32, .f32⟩
  | .local _ .vmem, ⟨6, _⟩ => ⟨S8192x32, .f32⟩
  | .local _ .vmem, ⟨7, _⟩ => ⟨S8192x32, .f32⟩
  | .local _ .vmem, ⟨8, _⟩ => ⟨S32x64, .f32⟩
  | .local _ .vmem, ⟨9, _⟩ => ⟨S64, .f32⟩
  | .local _ .vmem, ⟨10, _⟩ => ⟨S8192x64, .f32⟩
  | .local _ .vmem, ⟨11, _⟩ => ⟨S8192x64, .f32⟩
  | .local _ .vmem, ⟨12, _⟩ => ⟨S256x6272, .f32⟩
  | .local _ .vmem, ⟨13, _⟩ => ⟨S256x6272, .f32⟩
  | .local _ .vmem, ⟨14, _⟩ => ⟨S6272x128, .f32⟩
  | .local _ .vmem, ⟨15, _⟩ => ⟨S6272x128, .f32⟩
  | .local _ .vmem, ⟨16, _⟩ => ⟨S128, .f32⟩
  | .local _ .vmem, ⟨17, _⟩ => ⟨S128x10, .f32⟩
  | .local _ .vmem, ⟨18, _⟩ => ⟨S10, .f32⟩
  | .local _ .vmem, ⟨19, _⟩ => ⟨S256x10, .f32⟩
  | .local _ .vmem, ⟨20, _⟩ => ⟨S256x10, .f32⟩
  | .local _ .vmem, ⟨21, _⟩ => ⟨S256x128, .f32⟩
  | _, _ => ⟨S401408x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x6272 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S6272x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S256x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  slices_S2x3211264_S1x3211264_0_0 : S2x3211264.Slices ![0, 0] S1x3211264
  shapeCasts_S1x3211264_S3211264 : S1x3211264.ShapeCasts S3211264
  slices_S2x3211264_S1x3211264_1_0 : S2x3211264.Slices ![1, 0] S1x3211264
  bcast_S_S401408 : S_.BroadcastsInDim S401408 (![] : Fin 0 → Fin S401408.rank)
  bcast_S_S3211264 : S_.BroadcastsInDim S3211264 (![] : Fin 0 → Fin S3211264.rank)
  bcast_S3211264_S3211264x1_0 : S3211264.BroadcastsInDim S3211264x1 (![0] : Fin 1 → Fin S3211264x1.rank)
  bcast_S_S401408x1 : S_.BroadcastsInDim S401408x1 (![] : Fin 0 → Fin S401408x1.rank)
  bcast_S401408_S401408x1_0 : S401408.BroadcastsInDim S401408x1 (![0] : Fin 1 → Fin S401408x1.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x32_S1x32_0_0 : ∀ a, (![0, 0] : Fin 2 → Nat) a + S1x32.size a ≤ S1x32.size a
  h_S1x32 : 0 < S1x32.numel
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  bcast_S3211264x1_S3211264x32_0_1 : S3211264x1.BroadcastsInDim S3211264x32 (![0, 1] : Fin 2 → Fin S3211264x32.rank)
  bcast_S_S401408x32 : S_.BroadcastsInDim S401408x32 (![] : Fin 0 → Fin S401408x32.rank)
  bcast_S401408x1_S401408x32_0_1 : S401408x1.BroadcastsInDim S401408x32 (![0, 1] : Fin 2 → Fin S401408x32.rank)
  shapeCasts_S8192x32_S8192x32 : S8192x32.ShapeCasts S8192x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S401408x64_S512x50176 : S401408x64.ShapeCasts S512x50176
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x6272_S256x6272_0_0 : ∀ a, (![0, 0] : Fin 2 → Nat) a + S256x6272.size a ≤ S256x6272.size a
  h_S256x6272 : 0 < S256x6272.numel
  shapeCasts_S256x6272_S256x6272 : S256x6272.ShapeCasts S256x6272
  inb_S6272x128_S6272x128_0_0 : ∀ a, (![0, 0] : Fin 2 → Nat) a + S6272x128.size a ≤ S6272x128.size a
  h_S6272x128 : 0 < S6272x128.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S401408_S3211264x1_S3211264_n_0_0_1_wf : ScatterDims.WF S401408 S3211264x1 S3211264 [] [0] [0] 1
  gather_S401408_S3211264x1_S3211264_n_0_n_n_0_1_1_wf : GatherDims.WF S401408 S3211264x1 S3211264 [] [0] [] [0] [] 1 ![1]
  gather_S401408x1_S3211264x1_S3211264x1_1_0_n_n_0_1_11_wf : GatherDims.WF S401408x1 S3211264x1 S3211264x1 [1] [0] [] [0] [] 1 ![1, 1]
  scatter_S401408x1_S3211264x1_S3211264x1_1_0_0_1_wf : ScatterDims.WF S401408x1 S3211264x1 S3211264x1 [1] [0] [0] 1
  dot_S8192x1_S1x32_S8192x32_1_0_0_1_n_n_wf : DotDims.WF S8192x1 S1x32 S8192x32 [1] [0] [0] [1] [] []
  gather_S401408x32_S3211264x1_S3211264x32_1_0_n_n_0_1_132_wf : GatherDims.WF S401408x32 S3211264x1 S3211264x32 [1] [0] [] [0] [] 1 ![1, 32]
  scatter_S401408x32_S3211264x1_S3211264x32_1_0_0_1_wf : ScatterDims.WF S401408x32 S3211264x1 S3211264x32 [1] [0] [0] 1
  dot_S8192x32_S32x64_S8192x64_1_0_0_1_n_n_wf : DotDims.WF S8192x32 S32x64 S8192x64 [1] [0] [0] [1] [] []
  dot_S256x6272_S6272x128_S256x128_1_0_0_1_n_n_wf : DotDims.WF S256x6272 S6272x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S401408x1.size a
  hwx0_0 : ∀ i : grid0.Coords, EltTy.bits .f32 = 32 ∨ (Rect.block (s := S401408x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x32.size a ≤ S401408x32.size a
  hwx0_3 : ∀ i : grid0.Coords, EltTy.bits .f32 = 32 ∨ (Rect.block (s := S401408x32) S8192x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S401408x32.size a
  hwx1_0 : ∀ i : grid1.Coords, EltTy.bits .f32 = 32 ∨ (Rect.block (s := S401408x32) S8192x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S401408x64.size a
  hwx1_3 : ∀ i : grid1.Coords, EltTy.bits .f32 = 32 ∨ (Rect.block (s := S401408x64) S8192x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x6272.size a ≤ S512x50176.size a
  hwx2_0 : ∀ i : grid2.Coords, EltTy.bits .f32 = 32 ∨ (Rect.block (s := S512x50176) S256x6272.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6272x128.size a ≤ S50176x128.size a
  hwx2_1 : ∀ i : grid2.Coords, EltTy.bits .f32 = 32 ∨ (Rect.block (s := S50176x128) S6272x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10.size a ≤ S10.size a
  hwx2_4 : ∀ i : grid2.Coords, EltTy.bits .f32 = 32 ∨ (Rect.block (s := S10) S10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x10.size a ≤ S512x10.size a
  hwx2_5 : ∀ i : grid2.Coords, EltTy.bits .f32 = 32 ∨ (Rect.block (s := S512x10) S256x10.size (cc2_transform_5 i) (hinb2_5 i)).WholeWords (EltTy.packing .f32)

variable [Facts₀]

def scatter_S401408_S3211264x1_S3211264_n_0_0_1 : ScatterDims S401408 S3211264x1 S3211264 where
  updateWindowDims := []
  insertedWindowDims := [0]
  scatterDimsToOperandDims := [0]
  indexVectorDim := 1
  wf := scatter_S401408_S3211264x1_S3211264_n_0_0_1_wf
def gather_S401408_S3211264x1_S3211264_n_0_n_n_0_1_1 : GatherDims S401408 S3211264x1 S3211264 where
  offsetDims := []
  collapsedSliceDims := [0]
  operandBatchingDims := []
  startIndicesBatchingDims := []
  startIndexMap := [0]
  indexVectorDim := 1
  sliceSizes := ![1]
  wf := gather_S401408_S3211264x1_S3211264_n_0_n_n_0_1_1_wf
def gather_S401408x1_S3211264x1_S3211264x1_1_0_n_n_0_1_11 : GatherDims S401408x1 S3211264x1 S3211264x1 where
  offsetDims := [1]
  collapsedSliceDims := [0]
  operandBatchingDims := []
  startIndicesBatchingDims := []
  startIndexMap := [0]
  indexVectorDim := 1
  sliceSizes := ![1, 1]
  wf := gather_S401408x1_S3211264x1_S3211264x1_1_0_n_n_0_1_11_wf
def scatter_S401408x1_S3211264x1_S3211264x1_1_0_0_1 : ScatterDims S401408x1 S3211264x1 S3211264x1 where
  updateWindowDims := [1]
  insertedWindowDims := [0]
  scatterDimsToOperandDims := [0]
  indexVectorDim := 1
  wf := scatter_S401408x1_S3211264x1_S3211264x1_1_0_0_1_wf
def dot_S8192x1_S1x32_S8192x32_1_0_0_1_n_n : DotDims S8192x1 S1x32 S8192x32 where
  lhsContracting := [1]
  rhsContracting := [0]
  lhsNonContracting := [0]
  rhsNonContracting := [1]
  lhsBatch := []
  rhsBatch := []
  wf := dot_S8192x1_S1x32_S8192x32_1_0_0_1_n_n_wf
def gather_S401408x32_S3211264x1_S3211264x32_1_0_n_n_0_1_132 : GatherDims S401408x32 S3211264x1 S3211264x32 where
  offsetDims := [1]
  collapsedSliceDims := [0]
  operandBatchingDims := []
  startIndicesBatchingDims := []
  startIndexMap := [0]
  indexVectorDim := 1
  sliceSizes := ![1, 32]
  wf := gather_S401408x32_S3211264x1_S3211264x32_1_0_n_n_0_1_132_wf
def scatter_S401408x32_S3211264x1_S3211264x32_1_0_0_1 : ScatterDims S401408x32 S3211264x1 S3211264x32 where
  updateWindowDims := [1]
  insertedWindowDims := [0]
  scatterDimsToOperandDims := [0]
  indexVectorDim := 1
  wf := scatter_S401408x32_S3211264x1_S3211264x32_1_0_0_1_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S256x6272_S6272x128_S256x128_1_0_0_1_n_n : DotDims S256x6272 S6272x128 S256x128 where
  lhsContracting := [1]
  rhsContracting := [0]
  lhsNonContracting := [0]
  rhsNonContracting := [1]
  lhsBatch := []
  rhsBatch := []
  wf := dot_S256x6272_S6272x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v46) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S8192x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v64) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S256x6272.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S6272x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S256x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S401408x1 : Shape := ⟨2, ![401408, 1]⟩
abbrev S2x3211264 : Shape := ⟨2, ![2, 3211264]⟩
abbrev S1x32 : Shape := ⟨2, ![1, 32]⟩
abbrev S32 : Shape := ⟨1, ![32]⟩
abbrev S32x64 : Shape := ⟨2, ![32, 64]⟩
abbrev S64 : Shape := ⟨1, ![64]⟩
abbrev S50176x128 : Shape := ⟨2, ![50176, 128]⟩
abbrev S128 : Shape := ⟨1, ![128]⟩
abbrev S128x10 : Shape := ⟨2, ![128, 10]⟩
abbrev S10 : Shape := ⟨1, ![10]⟩
abbrev S1x3211264 : Shape := ⟨2, ![1, 3211264]⟩
abbrev S3211264 : Shape := ⟨1, ![3211264]⟩
abbrev S401408x32 : Shape := ⟨2, ![401408, 32]⟩
abbrev S_ : Shape := ⟨0, ![]⟩
abbrev S401408 : Shape := ⟨1, ![401408]⟩
abbrev S3211264x1 : Shape := ⟨2, ![3211264, 1]⟩
abbrev S3211264x32 : Shape := ⟨2, ![3211264, 32]⟩
abbrev S401408x64 : Shape := ⟨2, ![401408, 64]⟩
abbrev S3211264x64 : Shape := ⟨2, ![3211264, 64]⟩
abbrev S1x64 : Shape := ⟨2, ![1, 64]⟩
abbrev S512x50176 : Shape := ⟨2, ![512, 50176]⟩
abbrev S512x128 : Shape := ⟨2, ![512, 128]⟩
abbrev S1x128 : Shape := ⟨2, ![1, 128]⟩
abbrev S512x10 : Shape := ⟨2, ![512, 10]⟩
abbrev S1x10 : Shape := ⟨2, ![1, 10]⟩

abbrev nBuf : Space → Nat
  | .hbm => 148
  | .vmem => 0
  | .smem => 0
  | _ => 0

abbrev hbmTy0_0 (i : Nat) : BufTy := match i % 128 with
  | 0 => ⟨S401408x1, .f32⟩
  | 1 => ⟨S2x3211264, .i32⟩
  | 2 => ⟨S1x32, .f32⟩
  | 3 => ⟨S32, .f32⟩
  | 4 => ⟨S32x64, .f32⟩
  | 5 => ⟨S64, .f32⟩
  | 6 => ⟨S50176x128, .f32⟩
  | 7 => ⟨S128, .f32⟩
  | 8 => ⟨S128x10, .f32⟩
  | 9 => ⟨S10, .f32⟩
  | 10 => ⟨S1x3211264, .i32⟩
  | 11 => ⟨S3211264, .i32⟩
  | 12 => ⟨S1x3211264, .i32⟩
  | 13 => ⟨S3211264, .i32⟩
  | 14 => ⟨S401408x32, .f32⟩
  | 15 => ⟨S_, .f32⟩
  | 16 => ⟨S401408, .f32⟩
  | 17 => ⟨S_, .i32⟩
  | 18 => ⟨S3211264, .i32⟩
  | 19 => ⟨S3211264, .i1⟩
  | 20 => ⟨S_, .i32⟩
  | 21 => ⟨S3211264, .i32⟩
  | 22 => ⟨S3211264, .i32⟩
  | 23 => ⟨S3211264, .i32⟩
  | 24 => ⟨S3211264x1, .i32⟩
  | 25 => ⟨S_, .f32⟩
  | 26 => ⟨S3211264, .f32⟩
  | 27 => ⟨S401408, .f32⟩
  | 28 => ⟨S401408, .f32⟩
  | 29 => ⟨S_, .i32⟩
  | 30 => ⟨S3211264, .i32⟩
  | 31 => ⟨S3211264, .i1⟩
  | 32 => ⟨S_, .i32⟩
  | 33 => ⟨S3211264, .i32⟩
  | 34 => ⟨S3211264, .i32⟩
  | 35 => ⟨S3211264, .i32⟩
  | 36 => ⟨S3211264x1, .i32⟩
  | 37 => ⟨S3211264, .f32⟩
  | 38 => ⟨S_, .i32⟩
  | 39 => ⟨S3211264, .i32⟩
  | 40 => ⟨S3211264, .i1⟩
  | 41 => ⟨S_, .i32⟩
  | 42 => ⟨S3211264, .i32⟩
  | 43 => ⟨S3211264, .i32⟩
  | 44 => ⟨S3211264, .i32⟩
  | 45 => ⟨S3211264x1, .i32⟩
  | 46 => ⟨S3211264, .f32⟩
  | 47 => ⟨S3211264, .f32⟩
  | 48 => ⟨S_, .i32⟩
  | 49 => ⟨S3211264, .i32⟩
  | 50 => ⟨S3211264, .i1⟩
  | 51 => ⟨S_, .i32⟩
  | 52 => ⟨S3211264, .i32⟩
  | 53 => ⟨S3211264, .i32⟩
  | 54 => ⟨S3211264, .i32⟩
  | 55 => ⟨S3211264x1, .i32⟩
  | 56 => ⟨S3211264x32, .f32⟩
  | 57 => ⟨S3211264x1, .f32⟩
  | 58 => ⟨S3211264x32, .f32⟩
  | 59 => ⟨S3211264x32, .f32⟩
  | 60 => ⟨S_, .f32⟩
  | 61 => ⟨S401408x32, .f32⟩
  | 62 => ⟨S3211264x1, .i32⟩
  | 63 => ⟨S401408x32, .f32⟩
  | 64 => ⟨S401408, .f32⟩
  | 65 => ⟨S401408x1, .f32⟩
  | 66 => ⟨S401408x32, .f32⟩
  | 67 => ⟨S401408x32, .f32⟩
  | 68 => ⟨S401408x32, .f32⟩
  | 69 => ⟨S1x32, .f32⟩
  | 70 => ⟨S401408x32, .f32⟩
  | 71 => ⟨S401408x32, .f32⟩
  | 72 => ⟨S_, .f32⟩
  | 73 => ⟨S401408x32, .f32⟩
  | 74 => ⟨S401408x32, .f32⟩
  | 75 => ⟨S401408x64, .f32⟩
  | 76 => ⟨S_, .f32⟩
  | 77 => ⟨S401408, .f32⟩
  | 78 => ⟨S_, .i32⟩
  | 79 => ⟨S3211264, .i32⟩
  | 80 => ⟨S3211264, .i1⟩
  | 81 => ⟨S_, .i32⟩
  | 82 => ⟨S3211264, .i32⟩
  | 83 => ⟨S3211264, .i32⟩
  | 84 => ⟨S3211264, .i32⟩
  | 85 => ⟨S3211264x1, .i32⟩
  | 86 => ⟨S_, .f32⟩
  | 87 => ⟨S3211264, .f32⟩
  | 88 => ⟨S401408, .f32⟩
  | 89 => ⟨S401408, .f32⟩
  | 90 => ⟨S_, .i32⟩
  | 91 => ⟨S3211264, .i32⟩
  | 92 => ⟨S3211264, .i1⟩
  | 93 => ⟨S_, .i32⟩
  | 94 => ⟨S3211264, .i32⟩
  | 95 => ⟨S3211264, .i32⟩
  | 96 => ⟨S3211264, .i32⟩
  | 97 => ⟨S3211264x1, .i32⟩
  | 98 => ⟨S3211264, .f32⟩
  | 99 => ⟨S_, .i32⟩
  | 100 => ⟨S3211264, .i32⟩
  | 101 => ⟨S3211264, .i1⟩
  | 102 => ⟨S_, .i32⟩
  | 103 => ⟨S3211264, .i32⟩
  | 104 => ⟨S3211264, .i32⟩
  | 105 => ⟨S3211264, .i32⟩
  | 106 => ⟨S3211264x1, .i32⟩
  | 107 => ⟨S3211264, .f32⟩
  | 108 => ⟨S3211264, .f32⟩
  | 109 => ⟨S_, .i32⟩
  | 110 => ⟨S3211264, .i32⟩
  | 111 => ⟨S3211264, .i1⟩
  | 112 => ⟨S_, .i32⟩
  | 113 => ⟨S3211264, .i32⟩
  | 114 => ⟨S3211264, .i32⟩
  | 115 => ⟨S3211264, .i32⟩
  | 116 => ⟨S3211264x1, .i32⟩
  | 117 => ⟨S3211264x64, .f32⟩
  | 118 => ⟨S3211264x1, .f32⟩
  | 119 => ⟨S3211264x64, .f32⟩
  | 120 => ⟨S3211264x64, .f32⟩
  | 121 => ⟨S_, .f32⟩
  | 122 => ⟨S401408x64, .f32⟩
  | 123 => ⟨S3211264x1, .i32⟩
  | 124 => ⟨S401408x64, .f32⟩
  | 125 => ⟨S401408, .f32⟩
  | 126 => ⟨S401408x1, .f32⟩
  | 127 => ⟨S401408x64, .f32⟩
  | _ => ⟨S401408x1, .f32⟩

abbrev hbmTy0_1 (i : Nat) : BufTy := match i % 128 with
  | 0 => ⟨S401408x64, .f32⟩
  | 1 => ⟨S401408x64, .f32⟩
  | 2 => ⟨S1x64, .f32⟩
  | 3 => ⟨S401408x64, .f32⟩
  | 4 => ⟨S401408x64, .f32⟩
  | 5 => ⟨S_, .f32⟩
  | 6 => ⟨S401408x64, .f32⟩
  | 7 => ⟨S401408x64, .f32⟩
  | 8 => ⟨S512x50176, .f32⟩
  | 9 => ⟨S512x128, .f32⟩
  | 10 => ⟨S1x128, .f32⟩
  | 11 => ⟨S512x128, .f32⟩
  | 12 => ⟨S512x128, .f32⟩
  | 13 => ⟨S_, .f32⟩
  | 14 => ⟨S512x128, .f32⟩
  | 15 => ⟨S512x128, .f32⟩
  | 16 => ⟨S512x10, .f32⟩
  | 17 => ⟨S1x10, .f32⟩
  | 18 => ⟨S512x10, .f32⟩
  | 19 => ⟨S512x10, .f32⟩
  | _ => ⟨S401408x1, .f32⟩

abbrev hbmTy (i : Nat) : BufTy := match i / 128 with
  | 0 => hbmTy0_0 i
  | 1 => hbmTy0_1 i
  | _ => ⟨S401408x1, .f32⟩

abbrev bufTy : (tb : Table) → Fin (tcTables nBuf tb) → BufTy
  | .hbm, ⟨i, _⟩ => hbmTy i
  | _, _ => ⟨S401408x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_cst : Ref sig .tc := ⟨.hbm, 72, rfl⟩
abbrev main_call0_v0 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call1_cst : Ref sig .tc := ⟨.hbm, 133, rfl⟩
abbrev main_call1_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call2_cst : Ref sig .tc := ⟨.hbm, 141, rfl⟩
abbrev main_call2_v0 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x3211264_S1x3211264_0_0 : S2x3211264.Slices ![0, 0] S1x3211264
  shapeCasts_S1x3211264_S3211264 : S1x3211264.ShapeCasts S3211264
  slices_S2x3211264_S1x3211264_1_0 : S2x3211264.Slices ![1, 0] S1x3211264
  bcast_S_S401408 : S_.BroadcastsInDim S401408 (![] : Fin 0 → Fin S401408.rank)
  bcast_S_S3211264 : S_.BroadcastsInDim S3211264 (![] : Fin 0 → Fin S3211264.rank)
  bcast_S3211264_S3211264x1_0 : S3211264.BroadcastsInDim S3211264x1 (![0] : Fin 1 → Fin S3211264x1.rank)
  bcast_S3211264x1_S3211264x32_0_1 : S3211264x1.BroadcastsInDim S3211264x32 (![0, 1] : Fin 2 → Fin S3211264x32.rank)
  bcast_S_S401408x32 : S_.BroadcastsInDim S401408x32 (![] : Fin 0 → Fin S401408x32.rank)
  bcast_S401408_S401408x1_0 : S401408.BroadcastsInDim S401408x1 (![0] : Fin 1 → Fin S401408x1.rank)
  bcast_S401408x1_S401408x32_0_1 : S401408x1.BroadcastsInDim S401408x32 (![0, 1] : Fin 2 → Fin S401408x32.rank)
  bcast_S32_S1x32_1 : S32.BroadcastsInDim S1x32 (![1] : Fin 1 → Fin S1x32.rank)
  bcast_S1x32_S401408x32_0_1 : S1x32.BroadcastsInDim S401408x32 (![0, 1] : Fin 2 → Fin S401408x32.rank)
  bcast_S3211264x1_S3211264x64_0_1 : S3211264x1.BroadcastsInDim S3211264x64 (![0, 1] : Fin 2 → Fin S3211264x64.rank)
  bcast_S_S401408x64 : S_.BroadcastsInDim S401408x64 (![] : Fin 0 → Fin S401408x64.rank)
  bcast_S401408x1_S401408x64_0_1 : S401408x1.BroadcastsInDim S401408x64 (![0, 1] : Fin 2 → Fin S401408x64.rank)
  bcast_S64_S1x64_1 : S64.BroadcastsInDim S1x64 (![1] : Fin 1 → Fin S1x64.rank)
  bcast_S1x64_S401408x64_0_1 : S1x64.BroadcastsInDim S401408x64 (![0, 1] : Fin 2 → Fin S401408x64.rank)
  shapeCasts_S401408x64_S512x50176 : S401408x64.ShapeCasts S512x50176
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S401408x1_S1x32_S401408x32_1_0_0_1_n_n_wf : DotDims.WF S401408x1 S1x32 S401408x32 [1] [0] [0] [1] [] []
  scatter_S401408_S3211264x1_S3211264_n_0_0_1_wf : ScatterDims.WF S401408 S3211264x1 S3211264 [] [0] [0] 1
  gather_S401408_S3211264x1_S3211264_n_0_n_n_0_1_1_wf : GatherDims.WF S401408 S3211264x1 S3211264 [] [0] [] [0] [] 1 ![1]
  gather_S401408x32_S3211264x1_S3211264x32_1_0_n_n_0_1_132_wf : GatherDims.WF S401408x32 S3211264x1 S3211264x32 [1] [0] [] [0] [] 1 ![1, 32]
  scatter_S401408x32_S3211264x1_S3211264x32_1_0_0_1_wf : ScatterDims.WF S401408x32 S3211264x1 S3211264x32 [1] [0] [0] 1
  dot_S401408x32_S32x64_S401408x64_1_0_0_1_n_n_wf : DotDims.WF S401408x32 S32x64 S401408x64 [1] [0] [0] [1] [] []
  gather_S401408x64_S3211264x1_S3211264x64_1_0_n_n_0_1_164_wf : GatherDims.WF S401408x64 S3211264x1 S3211264x64 [1] [0] [] [0] [] 1 ![1, 64]
  scatter_S401408x64_S3211264x1_S3211264x64_1_0_0_1_wf : ScatterDims.WF S401408x64 S3211264x1 S3211264x64 [1] [0] [0] 1
  dot_S512x50176_S50176x128_S512x128_1_0_0_1_n_n_wf : DotDims.WF S512x50176 S50176x128 S512x128 [1] [0] [0] [1] [] []
  dot_S512x128_S128x10_S512x10_1_0_0_1_n_n_wf : DotDims.WF S512x128 S128x10 S512x10 [1] [0] [0] [1] [] []

variable [Facts₀]

def dot_S401408x1_S1x32_S401408x32_1_0_0_1_n_n : DotDims S401408x1 S1x32 S401408x32 where
  lhsContracting := [1]
  rhsContracting := [0]
  lhsNonContracting := [0]
  rhsNonContracting := [1]
  lhsBatch := []
  rhsBatch := []
  wf := dot_S401408x1_S1x32_S401408x32_1_0_0_1_n_n_wf
def scatter_S401408_S3211264x1_S3211264_n_0_0_1 : ScatterDims S401408 S3211264x1 S3211264 where
  updateWindowDims := []
  insertedWindowDims := [0]
  scatterDimsToOperandDims := [0]
  indexVectorDim := 1
  wf := scatter_S401408_S3211264x1_S3211264_n_0_0_1_wf
def gather_S401408_S3211264x1_S3211264_n_0_n_n_0_1_1 : GatherDims S401408 S3211264x1 S3211264 where
  offsetDims := []
  collapsedSliceDims := [0]
  operandBatchingDims := []
  startIndicesBatchingDims := []
  startIndexMap := [0]
  indexVectorDim := 1
  sliceSizes := ![1]
  wf := gather_S401408_S3211264x1_S3211264_n_0_n_n_0_1_1_wf
def gather_S401408x32_S3211264x1_S3211264x32_1_0_n_n_0_1_132 : GatherDims S401408x32 S3211264x1 S3211264x32 where
  offsetDims := [1]
  collapsedSliceDims := [0]
  operandBatchingDims := []
  startIndicesBatchingDims := []
  startIndexMap := [0]
  indexVectorDim := 1
  sliceSizes := ![1, 32]
  wf := gather_S401408x32_S3211264x1_S3211264x32_1_0_n_n_0_1_132_wf
def scatter_S401408x32_S3211264x1_S3211264x32_1_0_0_1 : ScatterDims S401408x32 S3211264x1 S3211264x32 where
  updateWindowDims := [1]
  insertedWindowDims := [0]
  scatterDimsToOperandDims := [0]
  indexVectorDim := 1
  wf := scatter_S401408x32_S3211264x1_S3211264x32_1_0_0_1_wf
def dot_S401408x32_S32x64_S401408x64_1_0_0_1_n_n : DotDims S401408x32 S32x64 S401408x64 where
  lhsContracting := [1]
  rhsContracting := [0]
  lhsNonContracting := [0]
  rhsNonContracting := [1]
  lhsBatch := []
  rhsBatch := []
  wf := dot_S401408x32_S32x64_S401408x64_1_0_0_1_n_n_wf
def gather_S401408x64_S3211264x1_S3211264x64_1_0_n_n_0_1_164 : GatherDims S401408x64 S3211264x1 S3211264x64 where
  offsetDims := [1]
  collapsedSliceDims := [0]
  operandBatchingDims := []
  startIndicesBatchingDims := []
  startIndexMap := [0]
  indexVectorDim := 1
  sliceSizes := ![1, 64]
  wf := gather_S401408x64_S3211264x1_S3211264x64_1_0_n_n_0_1_164_wf
def scatter_S401408x64_S3211264x1_S3211264x64_1_0_0_1 : ScatterDims S401408x64 S3211264x1 S3211264x64 where
  updateWindowDims := [1]
  insertedWindowDims := [0]
  scatterDimsToOperandDims := [0]
  indexVectorDim := 1
  wf := scatter_S401408x64_S3211264x1_S3211264x64_1_0_0_1_wf
def dot_S512x50176_S50176x128_S512x128_1_0_0_1_n_n : DotDims S512x50176 S50176x128 S512x128 where
  lhsContracting := [1]
  rhsContracting := [0]
  lhsNonContracting := [0]
  rhsNonContracting := [1]
  lhsBatch := []
  rhsBatch := []
  wf := dot_S512x50176_S50176x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KBRegion0.lean ====
/-
  Region 0 of the program: the first graph-convolution layer's projection, relu (agg · W1 + b1), tiled over the
  401408 nodes in 49 blocks of 8192 rows. At a parameter V — what the core's buffers hold when the region is
  entered — this module names the block each window shows the body at a grid point, what the body leaves in the
  output's staging buffer (its one whole-block store of the payload), the body's triple, and the pipeline's
  proof data with its obligation at every point. Nothing is carried between points: every point reads its own
  block of the aggregated features and the whole of W1 and b1, and writes its own block of the result.
-/
import proofs.«400340_j61014305407058_4_alg».proof.Proof.Gen.Kernel.Launch
import proofs.«400340_j61014305407058_4_alg».proof.Proof.Gen.Kernel.Skeleton
import proofs.«400340_j61014305407058_4_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rX : Rect S8192x1 := Rect.unit (s := S8192x1) ![0, 0] S8192x1.size inb_S8192x1_S8192x1_0_0
abbrev rW : Rect S1x32 := Rect.unit (s := S1x32) ![0, 0] S1x32.size inb_S1x32_S1x32_0_0
abbrev rB : Rect S32 := Rect.unit (s := S32) ![0] S32.size inb_S32_S32_0
abbrev rO : Rect S8192x32 := Rect.unit (s := S8192x32) ![0, 0] S8192x32.size inb_S8192x32_S8192x32_0_0

/-- What the body leaves in the output's staging buffer: relu (x · w + b) of the three blocks it loads, stored whole. -/
def outBlk (x : Vec F S8192x1 .f32) (w : Vec F S1x32 .f32) (b : Vec F S32 .f32) : Vec F S8192x32 .f32 :=
  View.canon [⟨rO, k0_pay1 (View.ld x rX) (View.ld w rW) (View.ld b rB)⟩]

/-- The one store covers the output block. -/
theorem outCover (p0 : Vec F S8192x32 .f32) (y : S8192x32.Idx) :
    ∃ pc ∈ ([⟨rO, p0⟩] : List (View.Piece (Elt F) S8192x32 .f32)), y ∈ pc.1.set :=
  View.cover_of_tiled [⟨rO, p0⟩] S8192x32.size (by rfl) y

set_option maxHeartbeats 1000000 in
/-- The body on whole staging memrefs: from the three inputs held at x, w, b and the output at anything, it runs to
    its return with the inputs as they were and the output at outBlk x w b. -/
theorem sound_kernel (c : Dev nD) (E : Set ℕ) (i : grid0.Coords)
    (a1 : Memref sig .tc .vmem S8192x1 .f32) (h1 : a1.IsWhole) (a2 : Memref sig .tc .vmem S1x32 .f32) (h2 : a2.IsWhole)
    (a3 : Memref sig .tc .vmem S32 .f32) (h3 : a3.IsWhole) (a4 : Memref sig .tc .vmem S8192x32 .f32) (h4 : a4.IsWhole)
    (x : Vec F S8192x1 .f32) (w : Vec F S1x32 .f32) (b : Vec F S32 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlk x w b)) -∗ K ⟨⟩))
      ⊢ wp frame (wpE (defs₀ (F := F)) Variants.none c none) E (cc0__linear_relu_kernel i a1 h1 a2 h2 a3 h3 a4 h4) K := by
  simp only [cc0__linear_relu_kernel_eq_skeleton]; unfold cc0__linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The proof data on core c: the arrays as the region finds them; after the body at point t every input's buffer still
    at its block and the output's at outBlk of the three blocks; the class's invariant (the other scoped buffers and the
    generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outBlk (blk V c 0 t) (blk V c 1 t) (blk V c 2 t) := by dsimp only [dat]

/-- Every input's current staging buffer holds its block when the body runs, fetched at that point or not (W1 and b1
    are fetched once: their block index never moves). -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation -/

/-- What the body is called with at point t: the invariant, what the core owes, and each window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- At every grid point: the inputs' memrefs hold their blocks, so the body's triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.R0

end
-- ==== Proof.KBRegion1.lean ====
/-
  Region 1 of the program: the second graph-convolution layer's projection, relu (agg2 · W2 + b2). The aggregated
  hidden features agg2 are 401408 rows of 32 numbers, W2 is 32 by 64 and b2 has 64 entries, so the result is 401408
  rows of 64; the rows are tiled in 49 blocks of 8192. At a parameter V — what the core's buffers hold when the
  region is entered — this module names the block each window shows the body at a grid point, what the body leaves
  in the output's staging buffer (one store of the whole 8192 by 64 block: the matrix product of the 8192 by 32
  block with W2, plus b2 along every row, clamped below at zero), the body's triple, and the pipeline's proof data
  with its obligation at every point. No point depends on another: each reads its own block of agg2 and all of W2
  and b2, and writes its own block of the result.
-/
import proofs.«400340_j61014305407058_4_alg».proof.Proof.Gen.Kernel.Launch
import proofs.«400340_j61014305407058_4_alg».proof.Proof.Gen.Kernel.Skeleton
import proofs.«400340_j61014305407058_4_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window w shows at grid point t, read from the window's array as it stands on entry to the region. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: each is the whole of its staging buffer. -/
abbrev rX : Rect S8192x32 := Rect.unit (s := S8192x32) ![0, 0] S8192x32.size inb_S8192x32_S8192x32_0_0
abbrev rW : Rect S32x64 := Rect.unit (s := S32x64) ![0, 0] S32x64.size inb_S32x64_S32x64_0_0
abbrev rB : Rect S64 := Rect.unit (s := S64) ![0] S64.size inb_S64_S64_0
abbrev rO : Rect S8192x64 := Rect.unit (s := S8192x64) ![0, 0] S8192x64.size inb_S8192x64_S8192x64_0_0

/-- The output's staging buffer after the body: relu (x · w + b) of the three loaded blocks, written over the whole block. -/
def outBlk (x : Vec F S8192x32 .f32) (w : Vec F S32x64 .f32) (b : Vec F S64 .f32) : Vec F S8192x64 .f32 :=
  View.canon [⟨rO, k1_pay1 (View.ld x rX) (View.ld w rW) (View.ld b rB)⟩]

/-- A single store through the whole-buffer rectangle reaches every index of the output block. -/
theorem outCover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs. Given the three inputs at x, w, b and the output holding anything, it runs to its
    return; the inputs are unchanged and the output holds outBlk x w b. -/
theorem sound_kernel (c : Dev nD) (E : Set ℕ) (i : grid1.Coords)
    (a1 : Memref sig .tc .vmem S8192x32 .f32) (h1 : a1.IsWhole) (a2 : Memref sig .tc .vmem S32x64 .f32) (h2 : a2.IsWhole)
    (a3 : Memref sig .tc .vmem S64 .f32) (h3 : a3.IsWhole) (a4 : Memref sig .tc .vmem S8192x64 .f32) (h4 : a4.IsWhole)
    (x : Vec F S8192x32 .f32) (w : Vec F S32x64 .f32) (b : Vec F S64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlk x w b)) -∗ K ⟨⟩))
      ⊢ wp frame (wpE (defs₀ (F := F)) Variants.none c none) E (cc1__linear_relu_kernel i a1 h1 a2 h2 a3 h3 a4 h4) K := by
  simp only [cc1__linear_relu_kernel_eq_skeleton]; unfold cc1__linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The proof data on core c. The arrays are as the region finds them. After the body at point t each input's buffer
    still holds its block, and the output's buffer holds outBlk of the three blocks. The invariant is the class's own
    (the other scoped buffers and the generator register, which the region leaves alone); nothing is owed; every share
    is full. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = outBlk (blk V c 0 t) (blk V c 1 t) (blk V c 2 t) := by dsimp only [dat]

/-- When the body runs, the current staging buffer of every input holds that input's block, whether or not it was fetched
    at this point (W2 and b2 are fetched once only: their block index is the same at every point). -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation -/

/-- What the body is given at point t: the invariant, what the core owes, and the current buffer of each window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What the body gives back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- At every grid point the inputs' memrefs hold their blocks, so the body's triple applies; the invariant and what the
    core owes are carried across without being read. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

end Cert.Kernel.R1

end
-- ==== Proof.KBRegion2.lean ====
/-
  Region 2 of the program: the fused fully-connected head, relu (h · W1 + b1) · W2 + b2, on a 2 x 8 grid of sixteen
  points: point t works on row block t / 8 and on block t % 8 of the contracted axis. The product h · W1 of a row
  block is summed over the eight blocks of the contracted axis in an accumulator that is carried from point to
  point: at block 0 it is set to zero, at every point the product of the point's two blocks is added to it, and at
  block 7 the output block relu (acc + b1) · W2 + b2 is formed from it. At a parameter V — what the core's buffers
  hold when the region is entered — this module names the block each window shows the body at a grid point, the
  accumulator after each point (by recursion on the point), the output block, the body's triple in each of its three
  control cases, and the pipeline's proof data with its obligation at every point. The invariant carries the
  accumulator at what the point before left in it; where the output is not formed (blocks 0 to 6) the output's
  buffer goes back as it was found.
-/
import proofs.«400340_j61014305407058_4_alg».proof.Proof.Gen.Kernel.Launch
import proofs.«400340_j61014305407058_4_alg».proof.Proof.Gen.Kernel.Skeleton
import proofs.«400340_j61014305407058_4_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, rectangles, and the three values -/

/-- Window w's block at grid point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body reads and writes through. -/
abbrev rX : Rect S256x6272 := Rect.unit (s := S256x6272) ![0, 0] S256x6272.size inb_S256x6272_S256x6272_0_0
abbrev rW1 : Rect S6272x128 := Rect.unit (s := S6272x128) ![0, 0] S6272x128.size inb_S6272x128_S6272x128_0_0
abbrev rB1 : Rect S128 := Rect.unit (s := S128) ![0] S128.size inb_S128_S128_0
abbrev rW2 : Rect S128x10 := Rect.unit (s := S128x10) ![0, 0] S128x10.size inb_S128x10_S128x10_0_0
abbrev rB2 : Rect S10 := Rect.unit (s := S10) ![0] S10.size inb_S10_S10_0
abbrev rO : Rect S256x10 := Rect.unit (s := S256x10) ![0, 0] S256x10.size inb_S256x10_S256x10_0_0
abbrev rS : Rect S256x128 := Rect.unit (s := S256x128) ![0, 0] S256x128.size inb_S256x128_S256x128_0_0

/-- The accumulator set to zero. -/
def accZero : Vec F S256x128 .f32 := View.canon [⟨rS, k2_pay1 (F := F)⟩]

/-- One accumulation: a + x · w. -/
def accStep (a : Vec F S256x128 .f32) (x : Vec F S256x6272 .f32) (w : Vec F S6272x128 .f32) : Vec F S256x128 .f32 :=
  View.canon [⟨rS, k2_pay2 (View.ld a rS) (View.ld x rX) (View.ld w rW1)⟩]

/-- The output block formed from a full sum a: relu (a + b1) · w2 + b2. -/
def epi (a : Vec F S256x128 .f32) (b1 : Vec F S128 .f32) (w2 : Vec F S128x10 .f32) (b2 : Vec F S10 .f32) : Vec F S256x10 .f32 :=
  View.canon [⟨rO, k2_pay3 (View.ld a rS) (View.ld b1 rB1) (View.ld w2 rW2) (View.ld b2 rB2)⟩]

/-- The accumulator after point n: one accumulation of the point's blocks of h and W1 onto zero at block 0 of the
    contracted axis, onto what the point before left otherwise. -/
def accAt (c : Dev nD) : (n : ℕ) → n < cfg2.N → Vec F S256x128 .f32
  | 0, hn => accStep accZero (blk V c 0 ⟨0, hn⟩) (blk V c 1 ⟨0, hn⟩)
  | n + 1, hn =>
    accStep (if (n + 1) % 8 = 0 then accZero else accAt c n (Nat.lt_of_succ_lt hn)) (blk V c 0 ⟨n + 1, hn⟩) (blk V c 1 ⟨n + 1, hn⟩)

theorem accAt_reset (c : Dev nD) (t : Fin cfg2.N) (h : t.val % 8 = 0) :
    accAt V c t.val t.isLt = accStep accZero (blk V c 0 t) (blk V c 1 t) := by
  obtain ⟨n, hn⟩ := t
  cases n with
  | zero => rfl
  | succ n => exact congrArg (fun a => accStep a (blk V c 0 ⟨n + 1, hn⟩) (blk V c 1 ⟨n + 1, hn⟩)) (if_pos h)

theorem accAt_step (c : Dev nD) (t : Fin cfg2.N) (h : t.val % 8 ≠ 0) :
    accAt V c t.val t.isLt
      = accStep (accAt V c (t.val - 1) (Nat.lt_of_le_of_lt (Nat.sub_le _ _) t.isLt)) (blk V c 0 t) (blk V c 1 t) := by
  obtain ⟨n, hn⟩ := t
  cases n with
  | zero => exact absurd (Nat.zero_mod _) h
  | succ n => exact congrArg (fun a => accStep a (blk V c 0 ⟨n + 1, hn⟩) (blk V c 1 ⟨n + 1, hn⟩)) (if_neg h)

/-- The output block at point t: formed from the accumulator after t and the point's blocks of b1, W2 and b2. It is what
    the output's buffer holds after the points of block 7, the only ones whose block is written back. -/
def outAt (c : Dev nD) (t : Fin cfg2.N) : Vec F S256x10 .f32 :=
  epi (accAt V c t.val t.isLt) (blk V c 2 t) (blk V c 3 t) (blk V c 4 t)

/-! ## The two conditions, in closed form over the grid -/

/-- The first conditional's test as the body computes it from the grid coordinates: the block of the contracted axis is 0. -/
abbrev isFirst (i : grid2.Coords) : Prop :=
  (Scalar.cmpi .ne (Scalar.extui (Scalar.cmpi .eq (BitVec.ofNat 32 (i 1).val) 0#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)

/-- The second conditional's test: the block of the contracted axis is 7. -/
abbrev isLast (i : grid2.Coords) : Prop := k2_cond2 i = 1#1
theorem isLast_iff : ∀ t : Fin cfg2.N, isLast (grid2.coords t) ↔ t.val % 8 = 7 :=
  (by decide +kernel : ∀ t : Fin grid2.N, isLast (grid2.coords t) ↔ t.val % 8 = 7)

/-- Where the output block is not formed the configuration calls the output idle, and its block is not written back; -/
theorem idle5_of : ∀ t : Fin cfg2.N, ¬isLast (grid2.coords t) → cfg2.idle 5 (grid2.coords t) = true := by decide +kernel
theorem noFlush5_of : ∀ t : Fin cfg2.N, ¬isLast (grid2.coords t) → (cfg2.win 5).flush t = false := by decide +kernel
/-- where it is formed the output is live. -/
theorem live5_of : ∀ t : Fin cfg2.N, isLast (grid2.coords t) → cfg2.idle 5 (grid2.coords t) = false := by decide +kernel

/-! ## The carried accumulator and the invariant -/

/-- The accumulator's buffer, whole. -/
abbrev scM : Memref sig .tc .vmem S256x128 .f32 := Memref.whole cc2_scratch0

/-- The core's other scoped buffers that are no staging buffer of this region: the staging buffers of the two regions before. -/
abbrev others : List (Ref sig .tc) :=
  [cc0_stg0_0, cc0_stg0_1, cc0_stg1_0, cc0_stg2_0, cc0_stg3_0, cc0_stg3_1, cc1_stg0_0, cc1_stg0_1, cc1_stg1_0, cc1_stg2_0, cc1_stg3_0, cc1_stg3_1]

/-- Each of them whole at some contents: the body touches none. -/
def othersP (c : Dev nD) : sProp 𝕄 :=
  bigSepL others fun b => iprop(∃ f : Buf (Elt F) ((c : Thread nD τ).loc b), ((c : Thread nD τ).loc b) ↦{fullShare} f)

/-- The region's scoped rest with the accumulator's buffer listed first. -/
theorem scoped_eq (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ othersP (F := F) c) :=
  Pipeline.scopedRest_eq_of_list spec2 c (cc2_scratch0 :: others) (by decide) (by decide)

/-- The class's invariant with the accumulator's buffer owned, as a memref, at some contents. -/
theorem PhiA_eq (c : Dev nD) :
    (Pipeline.ΦA spec2 c : sProp 𝕄)
      = iprop(((∃ d, owns (c : Thread nD τ) scM fullShare d) ∗ othersP (F := F) c) ∗ (∃ r, prngReg c r)) := by
  unfold Pipeline.ΦA; rw [scoped_eq]; simp only [scM, owns_whole]; try rfl

/-- The invariant before position n: before the first point the class's (the accumulator at anything); afterwards the
    accumulator at what the point before left, the other scoped buffers at anything, the generator register at some state. -/
def PhiS (c : Dev nD) : (n : ℕ) → n ≤ cfg2.N → sProp 𝕄
  | 0, _ => Pipeline.ΦA spec2 c
  | n + 1, hn => iprop((owns (c : Thread nD τ) scM fullShare (accAt V c n hn) ∗ othersP (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) scM fullShare (accAt V c n hn) ∗ othersP (F := F) c) ∗ (∃ r, prngReg c r)) := rfl

theorem PhiS_pos (c : Dev nD) (n : ℕ) (h : n ≤ cfg2.N) (hz : n ≠ 0) :
    PhiS V c n h = iprop((owns (c : Thread nD τ) scM fullShare (accAt V c (n - 1) (by omega)) ∗ othersP (F := F) c) ∗ (∃ r, prngReg c r)) := by
  cases n with
  | zero => exact absurd rfl hz
  | succ n => rfl

/-- At any position the invariant gives the class's back: what the accumulator holds is forgotten. -/
theorem PhiS_forget (c : Dev nD) (n : ℕ) (h : n ≤ cfg2.N) : PhiS V c n h ⊢ (Pipeline.ΦA spec2 c : sProp 𝕄) := by
  cases n with
  | zero => exact Idealize.SL.BI.Entails.refl _
  | succ n =>
    rw [PhiS_succ, PhiA_eq]
    iintro ⟨⟨HS, Ho⟩, Hg⟩
    isplitl [HS Ho]
    · isplitl [HS]
      · iexists _; iexact HS
      iexact Ho
    iexact Hg

/-! ## The pipeline's proof data -/

/-- The proof data on core c: the arrays as the region finds them; after the body at point t every input's buffer still at
    its block and the output's at outAt; the invariant carrying the accumulator; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = outAt V c t := by dsimp only [dat]

theorem Phi_first (c : Dev nD) : (dat V c).Φ 0 = Pipeline.ΦA spec2 c := by
  dsimp only [dat]; exact PhiS_zero V c _ _ rfl

/-- The exit forgets what the accumulator holds. -/
theorem Phi_last (c : Dev nD) : (dat V c).Φ (Fin.last _) ⊢ (Pipeline.ΦA spec2 c : sProp 𝕄) := by
  dsimp only [dat]; exact PhiS_forget V c _ _

/-- The invariant at a point's start and end, restated at the point's position. -/
theorem Phi_castSucc (c : Dev nD) (t : Fin cfg2.N) : (dat V c).Φ t.castSucc = PhiS V c t.val (Nat.le_of_lt t.isLt) := by
  dsimp only [dat]; simp only [Fin.coe_castSucc]
theorem Phi_succ (c : Dev nD) (t : Fin cfg2.N) : (dat V c).Φ t.succ = PhiS V c (t.val + 1) t.isLt := rfl

/-- Every input's current staging buffer holds its block when the body runs, fetched at that point or not (b1, W2 and b2
    are fetched once: their block index never moves). -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg2.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg2.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body's triple, case by case -/

/-- The zero offsets of a rank-2 and of a rank-1 rectangle, as constant functions. -/
theorem zero2 : (![0, 0] : Fin 2 → ℕ) = fun _ => 0 := by funext a; fin_cases a <;> rfl
theorem zero1 : (![0] : Fin 1 → ℕ) = fun _ => 0 := by funext a; fin_cases a <;> rfl

/-- A store through the whole-buffer rectangle covers the buffer, whatever was stored before. -/
theorem coverS (p : Vec F S256x128 .f32) (L : List (View.Piece (Elt F) S256x128 .f32)) (y : S256x128.Idx) :
    ∃ pc ∈ ((⟨rS, p⟩ : View.Piece (Elt F) S256x128 .f32) :: L), y ∈ pc.1.set :=
  ⟨_, List.mem_cons_self, View.mem_set_unit_zero (S := S256x128) zero2 inb_S256x128_S256x128_0_0 y⟩
theorem coverO (p : Vec F S256x10 .f32) (y : S256x10.Idx) :
    ∃ pc ∈ ([⟨rO, p⟩] : List (View.Piece (Elt F) S256x10 .f32)), y ∈ pc.1.set :=
  ⟨_, List.mem_cons_self, View.mem_set_unit_zero (S := S256x10) zero2 inb_S256x10_S256x10_0_0 y⟩

/-- Stored whole, each of the three values reads back as its payload; -/
theorem accZero_eq : accZero (F := F) = k2_pay1 := View.canon_unit_zero (S := S256x128) zero2 _ _
theorem accStep_eq (a : Vec F S256x128 .f32) (x : Vec F S256x6272 .f32) (w : Vec F S6272x128 .f32) :
    accStep a x w = k2_pay2 (View.ld a rS) (View.ld x rX) (View.ld w rW1) := View.canon_unit_zero (S := S256x128) zero2 _ _
theorem epi_eq (a : Vec F S256x128 .f32) (b1 : Vec F S128 .f32) (w2 : Vec F S128x10 .f32) (b2 : Vec F S10 .f32) :
    epi a b1 w2 b2 = k2_pay3 (View.ld a rS) (View.ld b1 rB1) (View.ld w2 rW2) (View.ld b2 rB2) := View.canon_unit_zero (S := S256x10) zero2 _ _

/-- and a load through a whole-buffer rectangle reads the contents, so the payloads are applied to the values themselves. -/
theorem accStep_val (a : Vec F S256x128 .f32) (x : Vec F S256x6272 .f32) (w : Vec F S6272x128 .f32) :
    accStep a x w = k2_pay2 a x w := by
  rw [accStep_eq, View.ld_unit_zero (S := S256x128) zero2, View.ld_unit_zero (S := S256x6272) zero2, View.ld_unit_zero (S := S6272x128) zero2]
theorem epi_val (a : Vec F S256x128 .f32) (b1 : Vec F S128 .f32) (w2 : Vec F S128x10 .f32) (b2 : Vec F S10 .f32) :
    epi a b1 w2 b2 = k2_pay3 a b1 w2 b2 := by
  rw [epi_eq, View.ld_unit_zero (S := S256x128) zero2, View.ld_unit_zero (S := S128) zero1, View.ld_unit_zero (S := S128x10) zero2, View.ld_unit_zero (S := S10) zero1]

set_option maxHeartbeats 4000000 in
/-- Block 0 of the contracted axis: the accumulator, at anything, is set to zero and the product added; no output block is formed, and the output's buffer is not touched. -/
theorem run_first (c : Dev nD) (E : Set ℕ) (i : grid2.Coords)
    (a2 : Memref sig .tc .vmem S256x6272 .f32) (h2 : a2.IsWhole) (a3 : Memref sig .tc .vmem S6272x128 .f32) (h3 : a3.IsWhole)
    (a4 : Memref sig .tc .vmem S128 .f32) (h4 : a4.IsWhole) (a5 : Memref sig .tc .vmem S128x10 .f32) (h5 : a5.IsWhole)
    (a6 : Memref sig .tc .vmem S10 .f32) (h6 : a6.IsWhole) (a7 : Memref sig .tc .vmem S256x10 .f32) (h7 : a7.IsWhole)
    (a8 : Memref sig .tc .vmem S256x128 .f32) (h8 : a8.IsWhole)
    (hc1 : isFirst i) (hc2 : ¬isLast i)
    (x : Vec F S256x6272 .f32) (w : Vec F S6272x128 .f32) (b1 : Vec F S128 .f32) (w2 : Vec F S128x10 .f32) (b2 : Vec F S10 .f32) (o : Vec F S256x10 .f32) (K : PUnit → sProp 𝕄) :
    iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
        ∗ owns (c : Thread nD τ) a7 fullShare o ∗ (∃ d, owns (c : Thread nD τ) a8 fullShare d)
        ∗ (iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
            ∗ owns (c : Thread nD τ) a7 fullShare o ∗ owns (c : Thread nD τ) a8 fullShare (accStep accZero x w)) -∗ K ⟨⟩))
      ⊢ wp frame (wpE (defs₀ (F := F)) Variants.none c none) E (cc2__fc_kernel i a2 h2 a3 h3 a4 h4 a5 h5 a6 h6 a7 h7 a8 h8) K := by
  simp only [cc2__fc_kernel_eq_skeleton]; unfold cc2__fc_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2; subst hf3; subst hf4; subst hf5; subst hf6; subst hf7
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (coverS _ _)]
  sl_unfold_words
  rw [View.readCov_eq_canon_ld _ _ _ (coverS _ _)]
  exact (View.canon_cons_unit_zero (S := S256x128) zero2 _ _ _).trans
    (accStep_eq accZero (View.read (Elt F) a2.view f2) (View.read (Elt F) a3.view f3)).symm

set_option maxHeartbeats 4000000 in
/-- Blocks 1 to 6: the product is added to the accumulator as the point before left it; no output block is formed. -/
theorem run_mid (c : Dev nD) (E : Set ℕ) (i : grid2.Coords)
    (a2 : Memref sig .tc .vmem S256x6272 .f32) (h2 : a2.IsWhole) (a3 : Memref sig .tc .vmem S6272x128 .f32) (h3 : a3.IsWhole)
    (a4 : Memref sig .tc .vmem S128 .f32) (h4 : a4.IsWhole) (a5 : Memref sig .tc .vmem S128x10 .f32) (h5 : a5.IsWhole)
    (a6 : Memref sig .tc .vmem S10 .f32) (h6 : a6.IsWhole) (a7 : Memref sig .tc .vmem S256x10 .f32) (h7 : a7.IsWhole)
    (a8 : Memref sig .tc .vmem S256x128 .f32) (h8 : a8.IsWhole)
    (hc1 : ¬isFirst i) (hc2 : ¬isLast i)
    (x : Vec F S256x6272 .f32) (w : Vec F S6272x128 .f32) (b1 : Vec F S128 .f32) (w2 : Vec F S128x10 .f32) (b2 : Vec F S10 .f32) (o : Vec F S256x10 .f32) (s : Vec F S256x128 .f32) (K : PUnit → sProp 𝕄) :
    iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
        ∗ owns (c : Thread nD τ) a7 fullShare o ∗ owns (c : Thread nD τ) a8 fullShare s
        ∗ (iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
            ∗ owns (c : Thread nD τ) a7 fullShare o ∗ owns (c : Thread nD τ) a8 fullShare (accStep s x w)) -∗ K ⟨⟩))
      ⊢ wp frame (wpE (defs₀ (F := F)) Variants.none c none) E (cc2__fc_kernel i a2 h2 a3 h3 a4 h4 a5 h5 a6 h6 a7 h7 a8 h8) K := by
  simp only [cc2__fc_kernel_eq_skeleton]; unfold cc2__fc_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverS _ _)

set_option maxHeartbeats 4000000 in
/-- Block 7: the product is added to the accumulator, and the output block is formed from the full sum and stored whole. -/
theorem run_last (c : Dev nD) (E : Set ℕ) (i : grid2.Coords)
    (a2 : Memref sig .tc .vmem S256x6272 .f32) (h2 : a2.IsWhole) (a3 : Memref sig .tc .vmem S6272x128 .f32) (h3 : a3.IsWhole)
    (a4 : Memref sig .tc .vmem S128 .f32) (h4 : a4.IsWhole) (a5 : Memref sig .tc .vmem S128x10 .f32) (h5 : a5.IsWhole)
    (a6 : Memref sig .tc .vmem S10 .f32) (h6 : a6.IsWhole) (a7 : Memref sig .tc .vmem S256x10 .f32) (h7 : a7.IsWhole)
    (a8 : Memref sig .tc .vmem S256x128 .f32) (h8 : a8.IsWhole)
    (hc1 : ¬isFirst i) (hc2 : isLast i)
    (x : Vec F S256x6272 .f32) (w : Vec F S6272x128 .f32) (b1 : Vec F S128 .f32) (w2 : Vec F S128x10 .f32) (b2 : Vec F S10 .f32) (s : Vec F S256x128 .f32) (K : PUnit → sProp 𝕄) :
    iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
        ∗ (∃ d, owns (c : Thread nD τ) a7 fullShare d) ∗ owns (c : Thread nD τ) a8 fullShare s
        ∗ (iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
            ∗ owns (c : Thread nD τ) a7 fullShare (epi (accStep s x w) b1 w2 b2) ∗ owns (c : Thread nD τ) a8 fullShare (accStep s x w)) -∗ K ⟨⟩))
      ⊢ wp frame (wpE (defs₀ (F := F)) Variants.none c none) E (cc2__fc_kernel i a2 h2 a3 h3 a4 h4 a5 h5 a6 h6 a7 h7 a8 h8) K := by
  simp only [cc2__fc_kernel_eq_skeleton]; unfold cc2__fc_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2; subst hf3; subst hf4; subst hf5; subst hf6; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (coverO _)]
    sl_unfold_words
    rw [View.readCov_eq_canon_ld _ _ _ (coverS _ _)]
    rfl
  iexists _; isplitr
  swap; · iexact H8
  ipureintro
  exact View.read_writes_eq_canon _ _ _ (coverS _ _)

/-! ## The body obligation -/

/-- What the body is called with at point t: the invariant, what the core owes, and each window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns: the inputs' buffers at their blocks, the output's at what the point leaves in it (as found where the
    output block is not formed). -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ (dat V c).leavesExact 5 t)

set_option maxHeartbeats 4000000 in
/-- At every grid point: the inputs' memrefs hold their blocks; the closed forms say which of the three cases the point is in;
    the invariant hands the body the accumulator (at anything at block 0, at what the point before left otherwise) and takes it
    back at this point's value; what the core owes passes through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl,
    Phi_succ, PhiS_succ, Phi_castSucc, after_0, after_1, after_2, after_3, after_4]
  have hN : t.val < 16 := lt_of_lt_of_eq t.isLt (show cfg2.N = 16 from N_2)
  by_cases h0 : t.val % 8 = 0
  · -- block 0: the accumulator is taken at anything
    have hc1 : isFirst (grid2.coords t) := (isFirst_iff t).mpr h0
    have hc2 : ¬isLast (grid2.coords t) := fun h => by have := (isLast_iff t).mp h; omega
    rw [Dat.leavesExact_idle (dat V c) 5 t (idle5_of t hc2) (noFlush5_of t hc2), accAt_reset V c t h0]
    refine (sep_mono_left (PhiS_forget V c _ _)).trans ?_
    rw [PhiA_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_first c Set.univ (grid2.coords t) _ _ _ _ _ _ _ _ _ _ _ _ _ _ hc1 hc2 (blk V c 0 t) (blk V c 1 t) (blk V c 2 t) (blk V c 3 t) (blk V c 4 t) ((dat V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    have hc1 : ¬isFirst (grid2.coords t) := fun h => h0 ((isFirst_iff t).mp h)
    by_cases h7 : t.val % 8 = 7
    · -- block 7: the output block is formed
      have hc2 : isLast (grid2.coords t) := (isLast_iff t).mpr h7
      rw [show (dat V c).leavesExact 5 t = owns (c : Thread nD τ) (st2_5 t) fullShare ((dat V c).after 5 t) from by
        unfold Dat.leavesExact; rw [live5_of t hc2], after_5]
      unfold outAt
      rw [accAt_step V c t h0, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_last c Set.univ (grid2.coords t) _ _ _ _ _ _ _ _ _ _ _ _ _ _ hc1 hc2 (blk V c 0 t) (blk V c 1 t) (blk V c 2 t) (blk V c 3 t) (blk V c 4 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · -- blocks 1 to 6
      have hc2 : ¬isLast (grid2.coords t) := fun h => h7 ((isLast_iff t).mp h)
      rw [Dat.leavesExact_idle (dat V c) 5 t (idle5_of t hc2) (noFlush5_of t hc2), accAt_step V c t h0, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_mid c Set.univ (grid2.coords t) _ _ _ _ _ _ _ _ _ _ _ _ _ _ hc1 hc2 (blk V c 0 t) (blk V c 1 t) (blk V c 2 t) (blk V c 3 t) (blk V c 4 t) ((dat V c).before 5 t d5) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat (F := F) V c) (defs₀ (F := F)) Variants.none () Set.univ := fun t => by
  rw [bigSep_W2, bigSep_W2]
  exact sound_body V c t

end Cert.Kernel.R2

end
-- ==== Proof.KBRun.lean ====
/-
  The kernel program's run from launch to return. @main is six items: the host stretch that normalises the graph and
  aggregates the input features, region 0 (the first layer's projection), the host stretch that aggregates the first
  layer's output, region 1 (the second layer's projection), the reshape to one row per graph, region 2 (the fully
  connected head). The buffers' contents at the seven boundaries form a fold from the launch memory: a host stretch
  applies its operations; a region leaves its input arrays as it found them and its output array at what the
  pipeline's write-backs fold to. Each region is entered with every unscoped buffer held at the boundary's contents,
  splits its arrays off, runs its pipeline over the body's obligation, and puts the arrays back. The run theorem reads
  the final memory at EVERY unscoped buffer against the last boundary's contents: the frame (each argument as
  launched) and the result's value are both corollaries.
-/
import proofs.«400340_j61014305407058_4_alg».proof.Proof.KBRegion0
import proofs.«400340_j61014305407058_4_alg».proof.Proof.KBRegion1
import proofs.«400340_j61014305407058_4_alg».proof.Proof.KBRegion2
import proofs.«400340_j61014305407058_4_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (R0.dat (V1 m ρ) c).arrAt w cfg0.N
abbrev V2 : (c : Dev nD) → (b : Ref sig .tc) → Buf (Elt F) ((c : Thread nD τ).loc b) := fun c b => W2 m ρ c b
/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1. -/
def W4 (c : Dev nD) : Valuation τ sig (Elt F) :=
  Pipeline.withArrays spec1 c (W3 m ρ c) fun w => (R1.dat (V3 m ρ) c).arrAt w cfg1.N
abbrev V4 : (c : Dev nD) → (b : Ref sig .tc) → Buf (Elt F) ((c : Thread nD τ).loc b) := fun c b => W4 m ρ c b
/-- After the reshape: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: the return. -/
def W6 (c : Dev nD) : Valuation τ sig (Elt F) :=
  Pipeline.withArrays spec2 c (W5 m ρ c) fun w => (R2.dat (V5 m ρ) c).arrAt w cfg2.N
abbrev V6 : (c : Dev nD) → (b : Ref sig .tc) → Buf (Elt F) ((c : Thread nD τ).loc b) := fun c b => W6 m ρ c b

theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

/-- A host stretch leaves alone what it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- What each region's exit owes the boundary after it: its arrays at the pipeline's result, the rest as entered. -/
theorem hF0 (c : Dev nD) (w : Fin cfg0.W) : (R0.dat (V1 m ρ) c).arrAt w cfg0.N = V2 m ρ c (Pipeline.arrRef spec0 w) := (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (R1.dat (V3 m ρ) c).arrAt w cfg1.N = V4 m ρ c (Pipeline.arrRef spec1 w) := (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (R2.dat (V5 m ρ) c).arrAt w cfg2.N = V6 m ρ c (Pipeline.arrRef spec2 w) := (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from R2.Phi_first (V5 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from R2.Phi_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The arguments end as launched -/

theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <|
    (W3_of m ρ c main_arg0 (by decide)).trans <| (W2_of_ne m ρ c main_arg0 (by decide)).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <|
    (W3_of m ρ c main_arg1 (by decide)).trans <| (W2_of_ne m ρ c main_arg1 (by decide)).trans <| (W1_of m ρ c main_arg1 (by decide)).trans rfl
/-- An input window's array leaves its region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((R0.dat (V1 m ρ) c).arrAt_in w hw _).trans (R0.A_eq (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((R1.dat (V3 m ρ) c).arrAt_in w hw _).trans (R1.A_eq (V3 m ρ) c w))
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((R2.dat (V5 m ρ) c).arrAt_in w hw _).trans (R2.A_eq (V5 m ρ) c w))
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <|
    (W3_of m ρ c main_arg2 (by decide)).trans <| (W2_in m ρ c 1 rfl).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <|
    (W3_of m ρ c main_arg3 (by decide)).trans <| (W2_in m ρ c 2 rfl).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_in m ρ c 1 rfl).trans <|
    (W3_of m ρ c main_arg4 (by decide)).trans <| (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_in m ρ c 2 rfl).trans <|
    (W3_of m ρ c main_arg5 (by decide)).trans <| (W2_of_ne m ρ c main_arg5 (by decide)).trans <| (W1_of m ρ c main_arg5 (by decide)).trans rfl
theorem W5_main_arg (c : Dev nD) (r : Ref sig .tc) (h2 : r ∉ hostOps2_W) (n1 : ∀ w, Pipeline.arrRef spec1 w ≠ r) (h1 : r ∉ hostOps1_W)
    (n0 : ∀ w, Pipeline.arrRef spec0 w ≠ r) (h0 : r ∉ hostOps0_W) : W5 m ρ c (Proc.devRef .tc r) = m ((c : Thread nD τ).loc r) :=
  (W5_of m ρ c r h2).trans <| (W4_of_ne m ρ c r n1).trans <| (W3_of m ρ c r h1).trans <| (W2_of_ne m ρ c r n0).trans <| (W1_of m ρ c r h0).trans rfl
theorem W6_main_arg6 (c : Dev nD) : W6 m ρ c (Proc.devRef .tc main_arg6) = m ((c : Thread nD τ).loc main_arg6) :=
  (W6_in m ρ c 1 rfl).trans (W5_main_arg m ρ c main_arg6 (by decide) (by decide) (by decide) (by decide) (by decide))
theorem W6_main_arg7 (c : Dev nD) : W6 m ρ c (Proc.devRef .tc main_arg7) = m ((c : Thread nD τ).loc main_arg7) :=
  (W6_in m ρ c 2 rfl).trans (W5_main_arg m ρ c main_arg7 (by decide) (by decide) (by decide) (by decide) (by decide))
theorem W6_main_arg8 (c : Dev nD) : W6 m ρ c (Proc.devRef .tc main_arg8) = m ((c : Thread nD τ).loc main_arg8) :=
  (W6_in m ρ c 3 rfl).trans (W5_main_arg m ρ c main_arg8 (by decide) (by decide) (by decide) (by decide) (by decide))
theorem W6_main_arg9 (c : Dev nD) : W6 m ρ c (Proc.devRef .tc main_arg9) = m ((c : Thread nD τ).loc main_arg9) :=
  (W6_in m ρ c 4 rfl).trans (W5_main_arg m ρ c main_arg9 (by decide) (by decide) (by decide) (by decide) (by decide))

/-! ## The frame, and the result beside it -/

/-- The result array at the return: what region 2's write-backs fold to. -/
theorem W6_result (c : Dev nD) : W6 m ρ c (Proc.devRef .tc main_v67) = (R2.dat (V5 m ρ) c).arrAt 5 cfg2.N := W6_arr m ρ c 5

/-- Every weakly fair execution terminates, nothing faulting; the result holds the last boundary's contents and every
    argument its launch contents. -/
theorem run_result : θ_run defs (onTc (τ := τ) (main (F := F))) ⟨m, fun _ => 0, ρ⟩ (fun r => ∀ c : Dev nD,
      r.2.mem ((c.tc : Thread nD τ).loc main_v67) = W6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v67 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩) (run_all m ρ)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Run

end
-- ==== Proof.KIRegion0.lean ====
/-
  Region 0 of the program: the first graph-convolution layer's projection, relu (agg · W1 + b1), tiled over the
  401408 nodes in 49 blocks of 8192 rows. At a parameter V — what the core's buffers hold when the region is
  entered — this module names the block each window shows the body at a grid point, what the body leaves in the
  output's staging buffer (its one whole-block store of the payload), the body's triple, and the pipeline's
  proof data with its obligation at every point. Nothing is carried between points: every point reads its own
  block of the aggregated features and the whole of W1 and b1, and writes its own block of the result.
-/
import proofs.«400340_j61014305407058_4_alg».proof.Proof.Gen.KernelIdeal.Launch
import proofs.«400340_j61014305407058_4_alg».proof.Proof.Gen.KernelIdeal.Skeleton
import proofs.«400340_j61014305407058_4_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rX : Rect S8192x1 := Rect.unit (s := S8192x1) ![0, 0] S8192x1.size inb_S8192x1_S8192x1_0_0
abbrev rW : Rect S1x32 := Rect.unit (s := S1x32) ![0, 0] S1x32.size inb_S1x32_S1x32_0_0
abbrev rB : Rect S32 := Rect.unit (s := S32) ![0] S32.size inb_S32_S32_0
abbrev rO : Rect S8192x32 := Rect.unit (s := S8192x32) ![0, 0] S8192x32.size inb_S8192x32_S8192x32_0_0

/-- What the body leaves in the output's staging buffer: relu (x · w + b) of the three blocks it loads, stored whole. -/
def outBlk (x : Vec F S8192x1 .f32) (w : Vec F S1x32 .f32) (b : Vec F S32 .f32) : Vec F S8192x32 .f32 :=
  View.canon [⟨rO, k0_pay1 (View.ld x rX) (View.ld w rW) (View.ld b rB)⟩]

/-- The one store covers the output block. -/
theorem outCover (p0 : Vec F S8192x32 .f32) (y : S8192x32.Idx) :
    ∃ pc ∈ ([⟨rO, p0⟩] : List (View.Piece (Elt F) S8192x32 .f32)), y ∈ pc.1.set :=
  View.cover_of_tiled [⟨rO, p0⟩] S8192x32.size (by rfl) y

set_option maxHeartbeats 1000000 in
/-- The body on whole staging memrefs: from the three inputs held at x, w, b and the output at anything, it runs to
    its return with the inputs as they were and the output at outBlk x w b. -/
theorem sound_kernel (c : Dev nD) (E : Set ℕ) (i : grid0.Coords)
    (a1 : Memref sig .tc .vmem S8192x1 .f32) (h1 : a1.IsWhole) (a2 : Memref sig .tc .vmem S1x32 .f32) (h2 : a2.IsWhole)
    (a3 : Memref sig .tc .vmem S32 .f32) (h3 : a3.IsWhole) (a4 : Memref sig .tc .vmem S8192x32 .f32) (h4 : a4.IsWhole)
    (x : Vec F S8192x1 .f32) (w : Vec F S1x32 .f32) (b : Vec F S32 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlk x w b)) -∗ K ⟨⟩))
      ⊢ wp frame (wpE (defs₀ (F := F)) Variants.none c none) E (cc0__linear_relu_kernel i a1 h1 a2 h2 a3 h3 a4 h4) K := by
  simp only [cc0__linear_relu_kernel_eq_skeleton]; unfold cc0__linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The proof data on core c: the arrays as the region finds them; after the body at point t every input's buffer still
    at its block and the output's at outBlk of the three blocks; the class's invariant (the other scoped buffers and the
    generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outBlk (blk V c 0 t) (blk V c 1 t) (blk V c 2 t) := by dsimp only [dat]

/-- Every input's current staging buffer holds its block when the body runs, fetched at that point or not (W1 and b1
    are fetched once: their block index never moves). -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation -/

/-- What the body is called with at point t: the invariant, what the core owes, and each window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- At every grid point: the inputs' memrefs hold their blocks, so the body's triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KIRegion1.lean ====
/-
  Region 1 of the program: the second graph-convolution layer's projection, relu (agg2 · W2 + b2). The aggregated
  hidden features agg2 are 401408 rows of 32 numbers, W2 is 32 by 64 and b2 has 64 entries, so the result is 401408
  rows of 64; the rows are tiled in 49 blocks of 8192. At a parameter V — what the core's buffers hold when the
  region is entered — this module names the block each window shows the body at a grid point, what the body leaves
  in the output's staging buffer (one store of the whole 8192 by 64 block: the matrix product of the 8192 by 32
  block with W2, plus b2 along every row, clamped below at zero), the body's triple, and the pipeline's proof data
  with its obligation at every point. No point depends on another: each reads its own block of agg2 and all of W2
  and b2, and writes its own block of the result.
-/
import proofs.«400340_j61014305407058_4_alg».proof.Proof.Gen.KernelIdeal.Launch
import proofs.«400340_j61014305407058_4_alg».proof.Proof.Gen.KernelIdeal.Skeleton
import proofs.«400340_j61014305407058_4_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window w shows at grid point t, read from the window's array as it stands on entry to the region. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: each is the whole of its staging buffer. -/
abbrev rX : Rect S8192x32 := Rect.unit (s := S8192x32) ![0, 0] S8192x32.size inb_S8192x32_S8192x32_0_0
abbrev rW : Rect S32x64 := Rect.unit (s := S32x64) ![0, 0] S32x64.size inb_S32x64_S32x64_0_0
abbrev rB : Rect S64 := Rect.unit (s := S64) ![0] S64.size inb_S64_S64_0
abbrev rO : Rect S8192x64 := Rect.unit (s := S8192x64) ![0, 0] S8192x64.size inb_S8192x64_S8192x64_0_0

/-- The output's staging buffer after the body: relu (x · w + b) of the three loaded blocks, written over the whole block. -/
def outBlk (x : Vec F S8192x32 .f32) (w : Vec F S32x64 .f32) (b : Vec F S64 .f32) : Vec F S8192x64 .f32 :=
  View.canon [⟨rO, k1_pay1 (View.ld x rX) (View.ld w rW) (View.ld b rB)⟩]

/-- A single store through the whole-buffer rectangle reaches every index of the output block. -/
theorem outCover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs. Given the three inputs at x, w, b and the output holding anything, it runs to its
    return; the inputs are unchanged and the output holds outBlk x w b. -/
theorem sound_kernel (c : Dev nD) (E : Set ℕ) (i : grid1.Coords)
    (a1 : Memref sig .tc .vmem S8192x32 .f32) (h1 : a1.IsWhole) (a2 : Memref sig .tc .vmem S32x64 .f32) (h2 : a2.IsWhole)
    (a3 : Memref sig .tc .vmem S64 .f32) (h3 : a3.IsWhole) (a4 : Memref sig .tc .vmem S8192x64 .f32) (h4 : a4.IsWhole)
    (x : Vec F S8192x32 .f32) (w : Vec F S32x64 .f32) (b : Vec F S64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (outBlk x w b)) -∗ K ⟨⟩))
      ⊢ wp frame (wpE (defs₀ (F := F)) Variants.none c none) E (cc1__linear_relu_kernel i a1 h1 a2 h2 a3 h3 a4 h4) K := by
  simp only [cc1__linear_relu_kernel_eq_skeleton]; unfold cc1__linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The proof data on core c. The arrays are as the region finds them. After the body at point t each input's buffer
    still holds its block, and the output's buffer holds outBlk of the three blocks. The invariant is the class's own
    (the other scoped buffers and the generator register, which the region leaves alone); nothing is owed; every share
    is full. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = outBlk (blk V c 0 t) (blk V c 1 t) (blk V c 2 t) := by dsimp only [dat]

/-- When the body runs, the current staging buffer of every input holds that input's block, whether or not it was fetched
    at this point (W2 and b2 are fetched once only: their block index is the same at every point). -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-! ## The body obligation -/

/-- What the body is given at point t: the invariant, what the core owes, and the current buffer of each window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What the body gives back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- At every grid point the inputs' memrefs hold their blocks, so the body's triple applies; the invariant and what the
    core owes are carried across without being read. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KIRegion2.lean ====
/-
  Region 2 of the program: the fused fully-connected head, relu (h · W1 + b1) · W2 + b2, on a 2 x 8 grid of sixteen
  points: point t works on row block t / 8 and on block t % 8 of the contracted axis. The product h · W1 of a row
  block is summed over the eight blocks of the contracted axis in an accumulator that is carried from point to
  point: at block 0 it is set to zero, at every point the product of the point's two blocks is added to it, and at
  block 7 the output block relu (acc + b1) · W2 + b2 is formed from it. At a parameter V — what the core's buffers
  hold when the region is entered — this module names the block each window shows the body at a grid point, the
  accumulator after each point (by recursion on the point), the output block, the body's triple in each of its three
  control cases, and the pipeline's proof data with its obligation at every point. The invariant carries the
  accumulator at what the point before left in it; where the output is not formed (blocks 0 to 6) the output's
  buffer goes back as it was found.
-/
import proofs.«400340_j61014305407058_4_alg».proof.Proof.Gen.KernelIdeal.Launch
import proofs.«400340_j61014305407058_4_alg».proof.Proof.Gen.KernelIdeal.Skeleton
import proofs.«400340_j61014305407058_4_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, rectangles, and the three values -/

/-- Window w's block at grid point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body reads and writes through. -/
abbrev rX : Rect S256x6272 := Rect.unit (s := S256x6272) ![0, 0] S256x6272.size inb_S256x6272_S256x6272_0_0
abbrev rW1 : Rect S6272x128 := Rect.unit (s := S6272x128) ![0, 0] S6272x128.size inb_S6272x128_S6272x128_0_0
abbrev rB1 : Rect S128 := Rect.unit (s := S128) ![0] S128.size inb_S128_S128_0
abbrev rW2 : Rect S128x10 := Rect.unit (s := S128x10) ![0, 0] S128x10.size inb_S128x10_S128x10_0_0
abbrev rB2 : Rect S10 := Rect.unit (s := S10) ![0] S10.size inb_S10_S10_0
abbrev rO : Rect S256x10 := Rect.unit (s := S256x10) ![0, 0] S256x10.size inb_S256x10_S256x10_0_0
abbrev rS : Rect S256x128 := Rect.unit (s := S256x128) ![0, 0] S256x128.size inb_S256x128_S256x128_0_0

/-- The accumulator set to zero. -/
def accZero : Vec F S256x128 .f32 := View.canon [⟨rS, k2_pay1 (F := F)⟩]

/-- One accumulation: a + x · w. -/
def accStep (a : Vec F S256x128 .f32) (x : Vec F S256x6272 .f32) (w : Vec F S6272x128 .f32) : Vec F S256x128 .f32 :=
  View.canon [⟨rS, k2_pay2 (View.ld a rS) (View.ld x rX) (View.ld w rW1)⟩]

/-- The output block formed from a full sum a: relu (a + b1) · w2 + b2. -/
def epi (a : Vec F S256x128 .f32) (b1 : Vec F S128 .f32) (w2 : Vec F S128x10 .f32) (b2 : Vec F S10 .f32) : Vec F S256x10 .f32 :=
  View.canon [⟨rO, k2_pay3 (View.ld a rS) (View.ld b1 rB1) (View.ld w2 rW2) (View.ld b2 rB2)⟩]

/-- The accumulator after point n: one accumulation of the point's blocks of h and W1 onto zero at block 0 of the
    contracted axis, onto what the point before left otherwise. -/
def accAt (c : Dev nD) : (n : ℕ) → n < cfg2.N → Vec F S256x128 .f32
  | 0, hn => accStep accZero (blk V c 0 ⟨0, hn⟩) (blk V c 1 ⟨0, hn⟩)
  | n + 1, hn =>
    accStep (if (n + 1) % 8 = 0 then accZero else accAt c n (Nat.lt_of_succ_lt hn)) (blk V c 0 ⟨n + 1, hn⟩) (blk V c 1 ⟨n + 1, hn⟩)

theorem accAt_reset (c : Dev nD) (t : Fin cfg2.N) (h : t.val % 8 = 0) :
    accAt V c t.val t.isLt = accStep accZero (blk V c 0 t) (blk V c 1 t) := by
  obtain ⟨n, hn⟩ := t
  cases n with
  | zero => rfl
  | succ n => exact congrArg (fun a => accStep a (blk V c 0 ⟨n + 1, hn⟩) (blk V c 1 ⟨n + 1, hn⟩)) (if_pos h)

theorem accAt_step (c : Dev nD) (t : Fin cfg2.N) (h : t.val % 8 ≠ 0) :
    accAt V c t.val t.isLt
      = accStep (accAt V c (t.val - 1) (Nat.lt_of_le_of_lt (Nat.sub_le _ _) t.isLt)) (blk V c 0 t) (blk V c 1 t) := by
  obtain ⟨n, hn⟩ := t
  cases n with
  | zero => exact absurd (Nat.zero_mod _) h
  | succ n => exact congrArg (fun a => accStep a (blk V c 0 ⟨n + 1, hn⟩) (blk V c 1 ⟨n + 1, hn⟩)) (if_neg h)

/-- The output block at point t: formed from the accumulator after t and the point's blocks of b1, W2 and b2. It is what
    the output's buffer holds after the points of block 7, the only ones whose block is written back. -/
def outAt (c : Dev nD) (t : Fin cfg2.N) : Vec F S256x10 .f32 :=
  epi (accAt V c t.val t.isLt) (blk V c 2 t) (blk V c 3 t) (blk V c 4 t)

/-! ## The two conditions, in closed form over the grid -/

/-- The first conditional's test as the body computes it from the grid coordinates: the block of the contracted axis is 0. -/
abbrev isFirst (i : grid2.Coords) : Prop :=
  (Scalar.cmpi .ne (Scalar.extui (Scalar.cmpi .eq (BitVec.ofNat 32 (i 1).val) 0#32)) 0#32) = 1#1
theorem isFirst_iff : ∀ t : Fin cfg2.N, isFirst (grid2.coords t) ↔ t.val % 8 = 0 :=
  (by decide +kernel : ∀ t : Fin grid2.N, isFirst (grid2.coords t) ↔ t.val % 8 = 0)

/-- The second conditional's test: the block of the contracted axis is 7. -/
abbrev isLast (i : grid2.Coords) : Prop := k2_cond2 i = 1#1
theorem isLast_iff : ∀ t : Fin cfg2.N, isLast (grid2.coords t) ↔ t.val % 8 = 7 :=
  (by decide +kernel : ∀ t : Fin grid2.N, isLast (grid2.coords t) ↔ t.val % 8 = 7)

/-- Where the output block is not formed the configuration calls the output idle, and its block is not written back; -/
theorem idle5_of : ∀ t : Fin cfg2.N, ¬isLast (grid2.coords t) → cfg2.idle 5 (grid2.coords t) = true := by decide +kernel
theorem noFlush5_of : ∀ t : Fin cfg2.N, ¬isLast (grid2.coords t) → (cfg2.win 5).flush t = false := by decide +kernel
/-- where it is formed the output is live. -/
theorem live5_of : ∀ t : Fin cfg2.N, isLast (grid2.coords t) → cfg2.idle 5 (grid2.coords t) = false := by decide +kernel

/-! ## The carried accumulator and the invariant -/

/-- The accumulator's buffer, whole. -/
abbrev scM : Memref sig .tc .vmem S256x128 .f32 := Memref.whole cc2_scratch0

/-- The core's other scoped buffers that are no staging buffer of this region: the staging buffers of the two regions before. -/
abbrev others : List (Ref sig .tc) :=
  [cc0_stg0_0, cc0_stg0_1, cc0_stg1_0, cc0_stg2_0, cc0_stg3_0, cc0_stg3_1, cc1_stg0_0, cc1_stg0_1, cc1_stg1_0, cc1_stg2_0, cc1_stg3_0, cc1_stg3_1]

/-- Each of them whole at some contents: the body touches none. -/
def othersP (c : Dev nD) : sProp 𝕄 :=
  bigSepL others fun b => iprop(∃ f : Buf (Elt F) ((c : Thread nD τ).loc b), ((c : Thread nD τ).loc b) ↦{fullShare} f)

/-- The region's scoped rest with the accumulator's buffer listed first. -/
theorem scoped_eq (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ othersP (F := F) c) :=
  Pipeline.scopedRest_eq_of_list spec2 c (cc2_scratch0 :: others) (by decide) (by decide)

/-- The class's invariant with the accumulator's buffer owned, as a memref, at some contents. -/
theorem PhiA_eq (c : Dev nD) :
    (Pipeline.ΦA spec2 c : sProp 𝕄)
      = iprop(((∃ d, owns (c : Thread nD τ) scM fullShare d) ∗ othersP (F := F) c) ∗ (∃ r, prngReg c r)) := by
  unfold Pipeline.ΦA; rw [scoped_eq]; simp only [scM, owns_whole]; try rfl

/-- The invariant before position n: before the first point the class's (the accumulator at anything); afterwards the
    accumulator at what the point before left, the other scoped buffers at anything, the generator register at some state. -/
def PhiS (c : Dev nD) : (n : ℕ) → n ≤ cfg2.N → sProp 𝕄
  | 0, _ => Pipeline.ΦA spec2 c
  | n + 1, hn => iprop((owns (c : Thread nD τ) scM fullShare (accAt V c n hn) ∗ othersP (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) scM fullShare (accAt V c n hn) ∗ othersP (F := F) c) ∗ (∃ r, prngReg c r)) := rfl

theorem PhiS_pos (c : Dev nD) (n : ℕ) (h : n ≤ cfg2.N) (hz : n ≠ 0) :
    PhiS V c n h = iprop((owns (c : Thread nD τ) scM fullShare (accAt V c (n - 1) (by omega)) ∗ othersP (F := F) c) ∗ (∃ r, prngReg c r)) := by
  cases n with
  | zero => exact absurd rfl hz
  | succ n => rfl

/-- At any position the invariant gives the class's back: what the accumulator holds is forgotten. -/
theorem PhiS_forget (c : Dev nD) (n : ℕ) (h : n ≤ cfg2.N) : PhiS V c n h ⊢ (Pipeline.ΦA spec2 c : sProp 𝕄) := by
  cases n with
  | zero => exact Idealize.SL.BI.Entails.refl _
  | succ n =>
    rw [PhiS_succ, PhiA_eq]
    iintro ⟨⟨HS, Ho⟩, Hg⟩
    isplitl [HS Ho]
    · isplitl [HS]
      · iexists _; iexact HS
      iexact Ho
    iexact Hg

/-! ## The pipeline's proof data -/

/-- The proof data on core c: the arrays as the region finds them; after the body at point t every input's buffer still at
    its block and the output's at outAt; the invariant carrying the accumulator; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = outAt V c t := by dsimp only [dat]

theorem Phi_first (c : Dev nD) : (dat V c).Φ 0 = Pipeline.ΦA spec2 c := by
  dsimp only [dat]; exact PhiS_zero V c _ _ rfl

/-- The exit forgets what the accumulator holds. -/
theorem Phi_last (c : Dev nD) : (dat V c).Φ (Fin.last _) ⊢ (Pipeline.ΦA spec2 c : sProp 𝕄) := by
  dsimp only [dat]; exact PhiS_forget V c _ _

/-- The invariant at a point's start and end, restated at the point's position. -/
theorem Phi_castSucc (c : Dev nD) (t : Fin cfg2.N) : (dat V c).Φ t.castSucc = PhiS V c t.val (Nat.le_of_lt t.isLt) := by
  dsimp only [dat]; simp only [Fin.coe_castSucc]
theorem Phi_succ (c : Dev nD) (t : Fin cfg2.N) : (dat V c).Φ t.succ = PhiS V c (t.val + 1) t.isLt := rfl

/-- Every input's current staging buffer holds its block when the body runs, fetched at that point or not (b1, W2 and b2
    are fetched once: their block index never moves). -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg2.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg2.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body's triple, case by case -/

/-- The zero offsets of a rank-2 and of a rank-1 rectangle, as constant functions. -/
theorem zero2 : (![0, 0] : Fin 2 → ℕ) = fun _ => 0 := by funext a; fin_cases a <;> rfl
theorem zero1 : (![0] : Fin 1 → ℕ) = fun _ => 0 := by funext a; fin_cases a <;> rfl

/-- A store through the whole-buffer rectangle covers the buffer, whatever was stored before. -/
theorem coverS (p : Vec F S256x128 .f32) (L : List (View.Piece (Elt F) S256x128 .f32)) (y : S256x128.Idx) :
    ∃ pc ∈ ((⟨rS, p⟩ : View.Piece (Elt F) S256x128 .f32) :: L), y ∈ pc.1.set :=
  ⟨_, List.mem_cons_self, View.mem_set_unit_zero (S := S256x128) zero2 inb_S256x128_S256x128_0_0 y⟩
theorem coverO (p : Vec F S256x10 .f32) (y : S256x10.Idx) :
    ∃ pc ∈ ([⟨rO, p⟩] : List (View.Piece (Elt F) S256x10 .f32)), y ∈ pc.1.set :=
  ⟨_, List.mem_cons_self, View.mem_set_unit_zero (S := S256x10) zero2 inb_S256x10_S256x10_0_0 y⟩

/-- Stored whole, each of the three values reads back as its payload; -/
theorem accZero_eq : accZero (F := F) = k2_pay1 := View.canon_unit_zero (S := S256x128) zero2 _ _
theorem accStep_eq (a : Vec F S256x128 .f32) (x : Vec F S256x6272 .f32) (w : Vec F S6272x128 .f32) :
    accStep a x w = k2_pay2 (View.ld a rS) (View.ld x rX) (View.ld w rW1) := View.canon_unit_zero (S := S256x128) zero2 _ _
theorem epi_eq (a : Vec F S256x128 .f32) (b1 : Vec F S128 .f32) (w2 : Vec F S128x10 .f32) (b2 : Vec F S10 .f32) :
    epi a b1 w2 b2 = k2_pay3 (View.ld a rS) (View.ld b1 rB1) (View.ld w2 rW2) (View.ld b2 rB2) := View.canon_unit_zero (S := S256x10) zero2 _ _

/-- and a load through a whole-buffer rectangle reads the contents, so the payloads are applied to the values themselves. -/
theorem accStep_val (a : Vec F S256x128 .f32) (x : Vec F S256x6272 .f32) (w : Vec F S6272x128 .f32) :
    accStep a x w = k2_pay2 a x w := by
  rw [accStep_eq, View.ld_unit_zero (S := S256x128) zero2, View.ld_unit_zero (S := S256x6272) zero2, View.ld_unit_zero (S := S6272x128) zero2]
theorem epi_val (a : Vec F S256x128 .f32) (b1 : Vec F S128 .f32) (w2 : Vec F S128x10 .f32) (b2 : Vec F S10 .f32) :
    epi a b1 w2 b2 = k2_pay3 a b1 w2 b2 := by
  rw [epi_eq, View.ld_unit_zero (S := S256x128) zero2, View.ld_unit_zero (S := S128) zero1, View.ld_unit_zero (S := S128x10) zero2, View.ld_unit_zero (S := S10) zero1]

set_option maxHeartbeats 4000000 in
/-- Block 0 of the contracted axis: the accumulator, at anything, is set to zero and the product added; no output block is formed, and the output's buffer is not touched. -/
theorem run_first (c : Dev nD) (E : Set ℕ) (i : grid2.Coords)
    (a2 : Memref sig .tc .vmem S256x6272 .f32) (h2 : a2.IsWhole) (a3 : Memref sig .tc .vmem S6272x128 .f32) (h3 : a3.IsWhole)
    (a4 : Memref sig .tc .vmem S128 .f32) (h4 : a4.IsWhole) (a5 : Memref sig .tc .vmem S128x10 .f32) (h5 : a5.IsWhole)
    (a6 : Memref sig .tc .vmem S10 .f32) (h6 : a6.IsWhole) (a7 : Memref sig .tc .vmem S256x10 .f32) (h7 : a7.IsWhole)
    (a8 : Memref sig .tc .vmem S256x128 .f32) (h8 : a8.IsWhole)
    (hc1 : isFirst i) (hc2 : ¬isLast i)
    (x : Vec F S256x6272 .f32) (w : Vec F S6272x128 .f32) (b1 : Vec F S128 .f32) (w2 : Vec F S128x10 .f32) (b2 : Vec F S10 .f32) (o : Vec F S256x10 .f32) (K : PUnit → sProp 𝕄) :
    iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
        ∗ owns (c : Thread nD τ) a7 fullShare o ∗ (∃ d, owns (c : Thread nD τ) a8 fullShare d)
        ∗ (iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
            ∗ owns (c : Thread nD τ) a7 fullShare o ∗ owns (c : Thread nD τ) a8 fullShare (accStep accZero x w)) -∗ K ⟨⟩))
      ⊢ wp frame (wpE (defs₀ (F := F)) Variants.none c none) E (cc2__fc_kernel i a2 h2 a3 h3 a4 h4 a5 h5 a6 h6 a7 h7 a8 h8) K := by
  simp only [cc2__fc_kernel_eq_skeleton]; unfold cc2__fc_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf2; subst hf3; subst hf4; subst hf5; subst hf6; subst hf7
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (coverS _ _)]
  sl_unfold_words
  rw [View.readCov_eq_canon_ld _ _ _ (coverS _ _)]
  exact (View.canon_cons_unit_zero (S := S256x128) zero2 _ _ _).trans
    (accStep_eq accZero (View.read (Elt F) a2.view f2) (View.read (Elt F) a3.view f3)).symm

set_option maxHeartbeats 4000000 in
/-- Blocks 1 to 6: the product is added to the accumulator as the point before left it; no output block is formed. -/
theorem run_mid (c : Dev nD) (E : Set ℕ) (i : grid2.Coords)
    (a2 : Memref sig .tc .vmem S256x6272 .f32) (h2 : a2.IsWhole) (a3 : Memref sig .tc .vmem S6272x128 .f32) (h3 : a3.IsWhole)
    (a4 : Memref sig .tc .vmem S128 .f32) (h4 : a4.IsWhole) (a5 : Memref sig .tc .vmem S128x10 .f32) (h5 : a5.IsWhole)
    (a6 : Memref sig .tc .vmem S10 .f32) (h6 : a6.IsWhole) (a7 : Memref sig .tc .vmem S256x10 .f32) (h7 : a7.IsWhole)
    (a8 : Memref sig .tc .vmem S256x128 .f32) (h8 : a8.IsWhole)
    (hc1 : ¬isFirst i) (hc2 : ¬isLast i)
    (x : Vec F S256x6272 .f32) (w : Vec F S6272x128 .f32) (b1 : Vec F S128 .f32) (w2 : Vec F S128x10 .f32) (b2 : Vec F S10 .f32) (o : Vec F S256x10 .f32) (s : Vec F S256x128 .f32) (K : PUnit → sProp 𝕄) :
    iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
        ∗ owns (c : Thread nD τ) a7 fullShare o ∗ owns (c : Thread nD τ) a8 fullShare s
        ∗ (iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
            ∗ owns (c : Thread nD τ) a7 fullShare o ∗ owns (c : Thread nD τ) a8 fullShare (accStep s x w)) -∗ K ⟨⟩))
      ⊢ wp frame (wpE (defs₀ (F := F)) Variants.none c none) E (cc2__fc_kernel i a2 h2 a3 h3 a4 h4 a5 h5 a6 h6 a7 h7 a8 h8) K := by
  simp only [cc2__fc_kernel_eq_skeleton]; unfold cc2__fc_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverS _ _)

set_option maxHeartbeats 4000000 in
/-- Block 7: the product is added to the accumulator, and the output block is formed from the full sum and stored whole. -/
theorem run_last (c : Dev nD) (E : Set ℕ) (i : grid2.Coords)
    (a2 : Memref sig .tc .vmem S256x6272 .f32) (h2 : a2.IsWhole) (a3 : Memref sig .tc .vmem S6272x128 .f32) (h3 : a3.IsWhole)
    (a4 : Memref sig .tc .vmem S128 .f32) (h4 : a4.IsWhole) (a5 : Memref sig .tc .vmem S128x10 .f32) (h5 : a5.IsWhole)
    (a6 : Memref sig .tc .vmem S10 .f32) (h6 : a6.IsWhole) (a7 : Memref sig .tc .vmem S256x10 .f32) (h7 : a7.IsWhole)
    (a8 : Memref sig .tc .vmem S256x128 .f32) (h8 : a8.IsWhole)
    (hc1 : ¬isFirst i) (hc2 : isLast i)
    (x : Vec F S256x6272 .f32) (w : Vec F S6272x128 .f32) (b1 : Vec F S128 .f32) (w2 : Vec F S128x10 .f32) (b2 : Vec F S10 .f32) (s : Vec F S256x128 .f32) (K : PUnit → sProp 𝕄) :
    iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
        ∗ (∃ d, owns (c : Thread nD τ) a7 fullShare d) ∗ owns (c : Thread nD τ) a8 fullShare s
        ∗ (iprop(owns (c : Thread nD τ) a2 fullShare x ∗ owns (c : Thread nD τ) a3 fullShare w ∗ owns (c : Thread nD τ) a4 fullShare b1
        ∗ owns (c : Thread nD τ) a5 fullShare w2 ∗ owns (c : Thread nD τ) a6 fullShare b2
            ∗ owns (c : Thread nD τ) a7 fullShare (epi (accStep s x w) b1 w2 b2) ∗ owns (c : Thread nD τ) a8 fullShare (accStep s x w)) -∗ K ⟨⟩))
      ⊢ wp frame (wpE (defs₀ (F := F)) Variants.none c none) E (cc2__fc_kernel i a2 h2 a3 h3 a4 h4 a5 h5 a6 h6 a7 h7 a8 h8) K := by
  simp only [cc2__fc_kernel_eq_skeleton]; unfold cc2__fc_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf2; subst hf3; subst hf4; subst hf5; subst hf6; subst hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (coverO _)]
    sl_unfold_words
    rw [View.readCov_eq_canon_ld _ _ _ (coverS _ _)]
    rfl
  iexists _; isplitr
  swap; · iexact H8
  ipureintro
  exact View.read_writes_eq_canon _ _ _ (coverS _ _)

/-! ## The body obligation -/

/-- What the body is called with at point t: the invariant, what the core owes, and each window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns: the inputs' buffers at their blocks, the output's at what the point leaves in it (as found where the
    output block is not formed). -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ (dat V c).leavesExact 5 t)

set_option maxHeartbeats 4000000 in
/-- At every grid point: the inputs' memrefs hold their blocks; the closed forms say which of the three cases the point is in;
    the invariant hands the body the accumulator (at anything at block 0, at what the point before left otherwise) and takes it
    back at this point's value; what the core owes passes through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl,
    Phi_succ, PhiS_succ, Phi_castSucc, after_0, after_1, after_2, after_3, after_4]
  have hN : t.val < 16 := lt_of_lt_of_eq t.isLt (show cfg2.N = 16 from N_2)
  by_cases h0 : t.val % 8 = 0
  · -- block 0: the accumulator is taken at anything
    have hc1 : isFirst (grid2.coords t) := (isFirst_iff t).mpr h0
    have hc2 : ¬isLast (grid2.coords t) := fun h => by have := (isLast_iff t).mp h; omega
    rw [Dat.leavesExact_idle (dat V c) 5 t (idle5_of t hc2) (noFlush5_of t hc2), accAt_reset V c t h0]
    refine (sep_mono_left (PhiS_forget V c _ _)).trans ?_
    rw [PhiA_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_first c Set.univ (grid2.coords t) _ _ _ _ _ _ _ _ _ _ _ _ _ _ hc1 hc2 (blk V c 0 t) (blk V c 1 t) (blk V c 2 t) (blk V c 3 t) (blk V c 4 t) ((dat V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    have hc1 : ¬isFirst (grid2.coords t) := fun h => h0 ((isFirst_iff t).mp h)
    by_cases h7 : t.val % 8 = 7
    · -- block 7: the output block is formed
      have hc2 : isLast (grid2.coords t) := (isLast_iff t).mpr h7
      rw [show (dat V c).leavesExact 5 t = owns (c : Thread nD τ) (st2_5 t) fullShare ((dat V c).after 5 t) from by
        unfold Dat.leavesExact; rw [live5_of t hc2], after_5]
      unfold outAt
      rw [accAt_step V c t h0, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_last c Set.univ (grid2.coords t) _ _ _ _ _ _ _ _ _ _ _ _ _ _ hc1 hc2 (blk V c 0 t) (blk V c 1 t) (blk V c 2 t) (blk V c 3 t) (blk V c 4 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · -- blocks 1 to 6
      have hc2 : ¬isLast (grid2.coords t) := fun h => h7 ((isLast_iff t).mp h)
      rw [Dat.leavesExact_idle (dat V c) 5 t (idle5_of t hc2) (noFlush5_of t hc2), accAt_step V c t h0, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run_mid c Set.univ (grid2.coords t) _ _ _ _ _ _ _ _ _ _ _ _ _ _ hc1 hc2 (blk V c 0 t) (blk V c 1 t) (blk V c 2 t) (blk V c 3 t) (blk V c 4 t) ((dat V c).before 5 t d5) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KIRun.lean ====
/-
  The kernel program's run from launch to return. @main is six items: the host stretch that normalises the graph and
  aggregates the input features, region 0 (the first layer's projection), the host stretch that aggregates the first
  layer's output, region 1 (the second layer's projection), the reshape to one row per graph, region 2 (the fully
  connected head). The buffers' contents at the seven boundaries form a fold from the launch memory: a host stretch
  applies its operations; a region leaves its input arrays as it found them and its output array at what the
  pipeline's write-backs fold to. Each region is entered with every unscoped buffer held at the boundary's contents,
  splits its arrays off, runs its pipeline over the body's obligation, and puts the arrays back. The run theorem reads
  the final memory at EVERY unscoped buffer against the last boundary's contents: the frame (each argument as
  launched) and the result's value are both corollaries.
-/
import proofs.«400340_j61014305407058_4_alg».proof.Proof.KIRegion0
import proofs.«400340_j61014305407058_4_alg».proof.Proof.KIRegion1
import proofs.«400340_j61014305407058_4_alg».proof.Proof.KIRegion2
import proofs.«400340_j61014305407058_4_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (R0.dat (V1 m ρ) c).arrAt w cfg0.N
abbrev V2 : (c : Dev nD) → (b : Ref sig .tc) → Buf (Elt F) ((c : Thread nD τ).loc b) := fun c b => W2 m ρ c b
/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1. -/
def W4 (c : Dev nD) : Valuation τ sig (Elt F) :=
  Pipeline.withArrays spec1 c (W3 m ρ c) fun w => (R1.dat (V3 m ρ) c).arrAt w cfg1.N
abbrev V4 : (c : Dev nD) → (b : Ref sig .tc) → Buf (Elt F) ((c : Thread nD τ).loc b) := fun c b => W4 m ρ c b
/-- After the reshape: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: the return. -/
def W6 (c : Dev nD) : Valuation τ sig (Elt F) :=
  Pipeline.withArrays spec2 c (W5 m ρ c) fun w => (R2.dat (V5 m ρ) c).arrAt w cfg2.N
abbrev V6 : (c : Dev nD) → (b : Ref sig .tc) → Buf (Elt F) ((c : Thread nD τ).loc b) := fun c b => W6 m ρ c b

theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

/-- A host stretch leaves alone what it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- What each region's exit owes the boundary after it: its arrays at the pipeline's result, the rest as entered. -/
theorem hF0 (c : Dev nD) (w : Fin cfg0.W) : (R0.dat (V1 m ρ) c).arrAt w cfg0.N = V2 m ρ c (Pipeline.arrRef spec0 w) := (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (R1.dat (V3 m ρ) c).arrAt w cfg1.N = V4 m ρ c (Pipeline.arrRef spec1 w) := (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (R2.dat (V5 m ρ) c).arrAt w cfg2.N = V6 m ρ c (Pipeline.arrRef spec2 w) := (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from R2.Phi_first (V5 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from R2.Phi_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The arguments end as launched -/

theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <|
    (W3_of m ρ c main_arg0 (by decide)).trans <| (W2_of_ne m ρ c main_arg0 (by decide)).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <|
    (W3_of m ρ c main_arg1 (by decide)).trans <| (W2_of_ne m ρ c main_arg1 (by decide)).trans <| (W1_of m ρ c main_arg1 (by decide)).trans rfl
/-- An input window's array leaves its region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((R0.dat (V1 m ρ) c).arrAt_in w hw _).trans (R0.A_eq (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((R1.dat (V3 m ρ) c).arrAt_in w hw _).trans (R1.A_eq (V3 m ρ) c w))
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((R2.dat (V5 m ρ) c).arrAt_in w hw _).trans (R2.A_eq (V5 m ρ) c w))
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <|
    (W3_of m ρ c main_arg2 (by decide)).trans <| (W2_in m ρ c 1 rfl).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <|
    (W3_of m ρ c main_arg3 (by decide)).trans <| (W2_in m ρ c 2 rfl).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_in m ρ c 1 rfl).trans <|
    (W3_of m ρ c main_arg4 (by decide)).trans <| (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_in m ρ c 2 rfl).trans <|
    (W3_of m ρ c main_arg5 (by decide)).trans <| (W2_of_ne m ρ c main_arg5 (by decide)).trans <| (W1_of m ρ c main_arg5 (by decide)).trans rfl
theorem W5_main_arg (c : Dev nD) (r : Ref sig .tc) (h2 : r ∉ hostOps2_W) (n1 : ∀ w, Pipeline.arrRef spec1 w ≠ r) (h1 : r ∉ hostOps1_W)
    (n0 : ∀ w, Pipeline.arrRef spec0 w ≠ r) (h0 : r ∉ hostOps0_W) : W5 m ρ c (Proc.devRef .tc r) = m ((c : Thread nD τ).loc r) :=
  (W5_of m ρ c r h2).trans <| (W4_of_ne m ρ c r n1).trans <| (W3_of m ρ c r h1).trans <| (W2_of_ne m ρ c r n0).trans <| (W1_of m ρ c r h0).trans rfl
theorem W6_main_arg6 (c : Dev nD) : W6 m ρ c (Proc.devRef .tc main_arg6) = m ((c : Thread nD τ).loc main_arg6) :=
  (W6_in m ρ c 1 rfl).trans (W5_main_arg m ρ c main_arg6 (by decide) (by decide) (by decide) (by decide) (by decide))
theorem W6_main_arg7 (c : Dev nD) : W6 m ρ c (Proc.devRef .tc main_arg7) = m ((c : Thread nD τ).loc main_arg7) :=
  (W6_in m ρ c 2 rfl).trans (W5_main_arg m ρ c main_arg7 (by decide) (by decide) (by decide) (by decide) (by decide))
theorem W6_main_arg8 (c : Dev nD) : W6 m ρ c (Proc.devRef .tc main_arg8) = m ((c : Thread nD τ).loc main_arg8) :=
  (W6_in m ρ c 3 rfl).trans (W5_main_arg m ρ c main_arg8 (by decide) (by decide) (by decide) (by decide) (by decide))
theorem W6_main_arg9 (c : Dev nD) : W6 m ρ c (Proc.devRef .tc main_arg9) = m ((c : Thread nD τ).loc main_arg9) :=
  (W6_in m ρ c 4 rfl).trans (W5_main_arg m ρ c main_arg9 (by decide) (by decide) (by decide) (by decide) (by decide))

/-! ## The frame, and the result beside it -/

/-- The result array at the return: what region 2's write-backs fold to. -/
theorem W6_result (c : Dev nD) : W6 m ρ c (Proc.devRef .tc main_v67) = (R2.dat (V5 m ρ) c).arrAt 5 cfg2.N := W6_arr m ρ c 5

/-- Every weakly fair execution terminates, nothing faulting; the result holds the last boundary's contents and every
    argument its launch contents. -/
theorem run_result : θ_run defs (onTc (τ := τ) (main (F := F))) ⟨m, fun _ => 0, ρ⟩ (fun r => ∀ c : Dev nD,
      r.2.mem ((c.tc : Thread nD τ).loc main_v67) = W6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v67 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩) (run_all m ρ)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Run

end
-- ==== Proof.Finite.lean ====
/-
  From the printed finiteness test to "these inputs are arrays of reals".

  The test asks of every float input that each entry x satisfies |x| < +∞ — the absolute value compared, entry by
  entry, with the number the word 0x7F800000 denotes, and all the comparisons of an array and-ed into one bit — and
  it and-s the nine bits together; the claim's hypothesis is that the result is 1. Over the extended reals the word
  denotes ⊤ and |x| is max x (-x). An and of bits is 1 only if each bit is 1, an and over an array is 1 only if every
  entry's bit is 1, and max x (-x) < ⊤ fails at x = ⊤ and at x = ⊥ (where -x = ⊤), so every entry of every tested
  array is a real number. The lemma for one array is stated once, over an arbitrary shape, and used for the five
  arrays the two graph-convolution layers read.
-/
import proofs.«400340_j61014305407058_4_alg».proof.Pre_finite_inputs
import proofs.«400340_j61014305407058_4_alg».proof.Proof.Gen.Pre_finite_inputs
import Idealize.ShloMosaic.Lib.ReduceAll
import Idealize.ShloMosaic.Lib.ValueIdx
import Idealize.ShloMosaic.PureOps.Ideal

namespace Cert.Finite

open Idealize.ShloMosaic Cert.Pre_finite_inputs

/-- The result shape has rank zero: it has exactly one index. -/
instance : Subsingleton S_.Idx := ⟨fun a b => funext fun d => d.elim0⟩

/-- A bit made from a truth value is 1 exactly when the truth value is true. -/
theorem ofBool_eq_one {b : Bool} : BitVec.ofBool b = 1#1 ↔ b = true := by cases b <;> decide

/-- The word 0x7F800000 — sign 0, exponent all ones, significand 0 — denotes +∞. -/
theorem inf_word : Ideal.ofBits .f32 0x7F800000#32 = (⊤ : EReal) := by
  simp [Ideal.ofBits, Ideal.ieee]

/-- An extended real whose absolute value is below +∞ is a real: at ⊤ the maximum is ⊤, and at ⊥ the negation is ⊤. -/
theorem real_of_abs_lt_top (x : EReal) (h : max x (-x) < ⊤) : ∃ r : ℝ, x = r := by
  induction x using EReal.rec with
  | bot => simp at h
  | coe r => exact ⟨r, rfl⟩
  | top => simp at h

/-- The same, from the comparison's bit. -/
theorem real_of_cmp (x : EReal)
    (h : Ideal.cmp .olt (max x (-x)) (Ideal.ofBits .f32 0x7F800000#32) = 1#1) : ∃ r : ℝ, x = r := by
  rw [inf_word] at h
  unfold Ideal.cmp at h
  exact real_of_abs_lt_top x (of_decide_eq_true (ofBool_eq_one.1 h))

/-- One array, any shape: if the and over all entries of "|x| < +∞" is 1, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ValueIdx.ix0 = 1#1) (i : s.Idx) : ∃ r : ℝ, x i = r :=
  real_of_cmp (x i) (Host.reduce_andi_all _ _ hr hu ValueIdx.ix0 e i)

/-- The printed precondition gives: the node features, both layers' weights and both layers' biases are arrays of
    reals. -/
theorem real_of_pre (x0 : FVec Ideal Cert.Pre_finite_inputs.S401408x1 .f32) (x1 : IVec Cert.Pre_finite_inputs.S2x3211264 32)
    (x2 : FVec Ideal Cert.Pre_finite_inputs.S1x32 .f32) (x3 : FVec Ideal Cert.Pre_finite_inputs.S32 .f32)
    (x4 : FVec Ideal Cert.Pre_finite_inputs.S32x64 .f32) (x5 : FVec Ideal Cert.Pre_finite_inputs.S64 .f32)
    (x6 : FVec Ideal Cert.Pre_finite_inputs.S50176x128 .f32) (x7 : FVec Ideal Cert.Pre_finite_inputs.S128 .f32)
    (x8 : FVec Ideal Cert.Pre_finite_inputs.S128x10 .f32) (x9 : FVec Ideal Cert.Pre_finite_inputs.S10 .f32)
    (h : Cert.Pre_finite_inputs.fn (F := Ideal) x0 x1 x2 x3 x4 x5 x6 x7 x8 x9 = fun _ => 1#1) :
    (∀ i, ∃ r : ℝ, x0 i = r) ∧ (∀ i, ∃ r : ℝ, x2 i = r) ∧ (∀ i, ∃ r : ℝ, x3 i = r) ∧ (∀ i, ∃ r : ℝ, x4 i = r)
      ∧ (∀ i, ∃ r : ℝ, x5 i = r) := by
  have h' := congrFun h ValueIdx.ix0
  dsimp only [fn, fn_part1, fn_part2] at h'
  simp only [Idealize.ShloMosaic.andi, IntOp.andi_eq_one] at h'
  obtain ⟨⟨⟨⟨⟨⟨⟨⟨e0, e2⟩, e3⟩, e4⟩, e5⟩, -⟩, -⟩, -⟩, -⟩ := h'
  exact ⟨real_of_all x0 _ _ _ e0, real_of_all x2 _ _ _ e2, real_of_all x3 _ _ _ e3, real_of_all x4 _ _ _ e4,
    real_of_all x5 _ _ _ e5⟩

end Cert.Finite
-- ==== Proof.LibRealSums.lean ====
/-
  Finite sums of real numbers inside the extended reals.

  The extended reals are not a ring (the sum of the two infinities is a convention, and
  multiplication does not distribute over addition in general), so a rearrangement of a sum of
  products is not available there directly.  Every number below is the image of a real, and on
  such numbers the extended operations are the real ones: a finite sum, a product, a maximum
  of coerced reals is the coercion of the real sum, product, maximum.  This file proves that,
  and with it:

  * aggregation commutes with projection: summing projected edge features into a node, plus
    the node's own projected feature, is the projection of the summed features (a
    rearrangement of a finite double sum), first over the reals and then inside the extended
    reals with every number a coerced real;
  * a sum over an index range of length A * B is the sum of A block sums of length B, and a
    running accumulation of the block sums from zero is the whole sum;
  * closure of "is a real number" under zero, sums, products, maxima and finite sums, and
    under the reciprocal square root of a real that is at least one;
  * one plus a count is the coercion of the real number one plus the cardinality.
-/
import Mathlib.Data.EReal.Basic
import Mathlib.Data.EReal.Operations
import Mathlib.Algebra.BigOperators.Group.Finset.Basic
import Mathlib.Algebra.BigOperators.Ring.Finset
import Mathlib.Algebra.BigOperators.Fin
import Mathlib.Logic.Equiv.Fin.Basic
import Mathlib.Analysis.SpecialFunctions.Pow.Real
import Mathlib.Tactic.Ring
import Mathlib.Tactic.Linarith
import Idealize.ShloMosaic.PureOps.Ideal

open scoped BigOperators

namespace RealSums

/-! ### Coercion of finite sums and maxima -/

/-- The coercion of a finite real sum is the extended-real sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih =>
    rw [Finset.sum_insert hi, Finset.sum_insert hi, EReal.coe_add, ih]

/-- The coercion is monotone, so it commutes with the maximum. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-! ### Aggregation commutes with projection -/

/-- Aggregation commutes with projection, over the reals.  For a node, s is the set of edges
that land on it, a e the feature vector the edge e reads, c e the edge's weight, x the
node's own feature vector and d its own weight; w is one column of the projection.  Projecting
each vector and then taking the weighted sum equals taking the weighted sum of the vectors
and then projecting: both sides are the same finite double sum, summed in the two orders. -/
theorem agg_proj_real {E K : Type*} [Fintype E] [Fintype K] (s : Finset E) (a : E → K → ℝ)
    (w : K → ℝ) (c : E → ℝ) (x : K → ℝ) (d : ℝ) :
    (∑ e ∈ s, (∑ k, a e k * w k) * c e) + (∑ k, x k * w k) * d
      = ∑ k, ((∑ e ∈ s, a e k * c e) + x k * d) * w k := by
  simp only [add_mul, Finset.sum_add_distrib, Finset.sum_mul]
  rw [Finset.sum_comm]
  congr 1
  · exact Finset.sum_congr rfl fun k _ => Finset.sum_congr rfl fun e _ => by ring
  · exact Finset.sum_congr rfl fun k _ => by ring

/-- The projected-then-aggregated side inside the extended reals, with the literal zero
summands in front of each sum, is the coercion of the real expression. -/
theorem lhs_real_form {E K : Type*} [Fintype E] [Fintype K] (s : Finset E) (a : E → K → ℝ)
    (w : K → ℝ) (c : E → ℝ) (x : K → ℝ) (d : ℝ) :
    ((0 : EReal) + ∑ e ∈ s, ((0 : EReal) + ∑ k, (a e k : EReal) * (w k : EReal)) * (c e : EReal))
        + ((0 : EReal) + ∑ k, (x k : EReal) * (w k : EReal)) * (d : EReal)
      = (((∑ e ∈ s, (∑ k, a e k * w k) * c e) + (∑ k, x k * w k) * d : ℝ) : EReal) := by
  simp only [zero_add, ← EReal.coe_mul, ← coe_sum, ← EReal.coe_add]

/-- The aggregated-then-projected side inside the extended reals is the coercion of the real
expression. -/
theorem rhs_real_form {E K : Type*} [Fintype E] [Fintype K] (s : Finset E) (a : E → K → ℝ)
    (w : K → ℝ) (c : E → ℝ) (x : K → ℝ) (d : ℝ) :
    (0 : EReal) + ∑ k, ((((0 : EReal) + ∑ e ∈ s, (a e k : EReal) * (c e : EReal))
        + (x k : EReal) * (d : EReal)) * (w k : EReal))
      = ((∑ k, ((∑ e ∈ s, a e k * c e) + x k * d) * w k : ℝ) : EReal) := by
  simp only [zero_add, ← EReal.coe_mul, ← coe_sum, ← EReal.coe_add]

/-- Aggregation commutes with projection inside the extended reals, every number a coerced
real: both sides are coercions of the two real sides of the identity above. -/
theorem agg_proj_ereal {E K : Type*} [Fintype E] [Fintype K] (s : Finset E) (a : E → K → ℝ)
    (w : K → ℝ) (c : E → ℝ) (x : K → ℝ) (d : ℝ) :
    ((0 : EReal) + ∑ e ∈ s, ((0 : EReal) + ∑ k, (a e k : EReal) * (w k : EReal)) * (c e : EReal))
        + ((0 : EReal) + ∑ k, (x k : EReal) * (w k : EReal)) * (d : EReal)
      = (0 : EReal) + ∑ k, ((((0 : EReal) + ∑ e ∈ s, (a e k : EReal) * (c e : EReal))
        + (x k : EReal) * (d : EReal)) * (w k : EReal)) := by
  rw [lhs_real_form, rhs_real_form, agg_proj_real]

/-! ### Being a real number is preserved -/

theorem isReal_zero : ∃ r : ℝ, (0 : EReal) = r := ⟨0, rfl⟩

theorem isReal_add {a b : EReal} (ha : ∃ r : ℝ, a = r) (hb : ∃ r : ℝ, b = r) :
    ∃ r : ℝ, a + b = r := by
  obtain ⟨p, rfl⟩ := ha
  obtain ⟨q, rfl⟩ := hb
  exact ⟨p + q, (EReal.coe_add p q).symm⟩

theorem isReal_mul {a b : EReal} (ha : ∃ r : ℝ, a = r) (hb : ∃ r : ℝ, b = r) :
    ∃ r : ℝ, a * b = r := by
  obtain ⟨p, rfl⟩ := ha
  obtain ⟨q, rfl⟩ := hb
  exact ⟨p * q, (EReal.coe_mul p q).symm⟩

theorem isReal_max {a b : EReal} (ha : ∃ r : ℝ, a = r) (hb : ∃ r : ℝ, b = r) :
    ∃ r : ℝ, max a b = r := by
  obtain ⟨p, rfl⟩ := ha
  obtain ⟨q, rfl⟩ := hb
  exact ⟨max p q, (coe_max p q).symm⟩

theorem isReal_sum {ι : Type*} (s : Finset ι) (f : ι → EReal)
    (h : ∀ i ∈ s, ∃ r : ℝ, f i = r) : ∃ r : ℝ, ∑ i ∈ s, f i = r := by
  classical
  induction s using Finset.induction_on with
  | empty => exact ⟨0, by simp⟩
  | insert i s hi ih =>
    obtain ⟨p, hp⟩ := h i (Finset.mem_insert_self i s)
    obtain ⟨q, hq⟩ := ih fun j hj => h j (Finset.mem_insert_of_mem hj)
    exact ⟨p + q, by rw [Finset.sum_insert hi, hp, hq, EReal.coe_add]⟩

/-- The reciprocal square root of a real that is at least one is a real: such a real is
neither negative nor zero, so the operation takes its ordinary branch. -/
theorem rsqrt_isReal (r : ℝ) (hr : 1 ≤ r) :
    ∃ q : ℝ, Idealize.ShloMosaic.Ideal.rsqrt (r : EReal) = q := by
  refine ⟨(Real.sqrt r)⁻¹, ?_⟩
  rw [Idealize.ShloMosaic.Ideal.rsqrt_coe, if_neg (by linarith), if_neg (by linarith)]

/-! ### Counts -/

/-- One plus a sum of ones over a finite set is the real number one plus its cardinality. -/
theorem one_add_count {ι : Type*} (s : Finset ι) :
    (1 : EReal) + ∑ _e ∈ s, (1 : EReal) = ((1 + s.card : ℝ) : EReal) := by
  have h : ∑ _e ∈ s, (1 : EReal) = ((s.card : ℝ) : EReal) := by
    have := coe_sum s (fun _ => (1 : ℝ))
    simpa using this.symm
  rw [h, EReal.coe_add, EReal.coe_one]

/-- Zero plus a sum of ones plus one is the same real number. -/
theorem count_add_one {ι : Type*} (s : Finset ι) :
    ((0 : EReal) + ∑ _e ∈ s, (1 : EReal)) + 1 = ((1 + s.card : ℝ) : EReal) := by
  rw [zero_add, add_comm, one_add_count]

/-! ### Sums in blocks -/

/-- A sum over the indices below A * B, split into A blocks of B consecutive indices: the
index k is a * B + b for exactly one pair of a block number a below A and an offset b
below B. -/
theorem sum_blocks {M : Type*} [AddCommMonoid M] (A B : ℕ) (f : ℕ → M) :
    ∑ k : Fin (A * B), f k.val = ∑ a : Fin A, ∑ b : Fin B, f (a.val * B + b.val) := by
  rw [← finProdFinEquiv.sum_comp, Fintype.sum_prod_type]
  refine Finset.sum_congr rfl fun a _ => Finset.sum_congr rfl fun b _ => ?_
  congr 1
  simp only [finProdFinEquiv_apply_val]
  rw [Nat.add_comm, Nat.mul_comm]

/-- A running accumulation of block sums that starts from zero is the whole sum: if
acc 0 = 0 + blk 0 and acc (n + 1) = acc n + blk (n + 1), then acc n is the sum of
blk 0, …, blk n. -/
theorem fold_blocks (A : ℕ) (blk : ℕ → EReal) (acc : ℕ → EReal) (h0 : acc 0 = 0 + blk 0)
    (hs : ∀ n, acc (n + 1) = acc n + blk (n + 1)) (n : ℕ) :
    acc n = ∑ a ∈ Finset.range (n + 1), blk a := by
  induction n with
  | zero => rw [h0, zero_add, Finset.sum_range_one]
  | succ n ih => rw [hs, ih, Finset.sum_range_succ _ (n + 1)]

end RealSums
-- ==== Proof.LibRows.lean ====
/-
  ROW GATHERS AND ROW SCATTER-ADDS READ AT AN INDEX.

  A table `x : [N, C]` (or `[N]`) and an integer array `idx : [E, 1]` of row numbers. The StableHLO gather with
  offset_dims `[1]` (`[]` for a flat table), collapsed_slice_dims `[0]`, start_index_map `[0]`, index_vector_dim `1` and
  slice sizes `[1, C]` (`[1]`) reads whole rows: result element `(e, f)` is `x` at row `idx[e, 0]`, read as a signed
  integer and clamped into `[0, N − 1]` (`clampRow`), column `f` (`gather_rows_apply`, `gather_rows1_apply`).
  The StableHLO scatter with update_window_dims `[1]` (`[]`), inserted_window_dims `[0]`,
  scatter_dims_to_operand_dims `[0]` and index_vector_dim `1` sends update element `(e, f)` to operand element
  `(idx[e, 0], f)` when the signed row number lies in `[0, N)` and drops it otherwise (`rowOf`,
  `scatter_rows_resultIdx`, `scatter_rows1_resultIdx`); so the accumulating scatter at operand element `(i, f)` is the
  operand's element plus the sum of the updates `upd (e, f)` over the `e` whose row number is `i`
  (`scatterAdd_rows_apply`, `scatterAdd_rows1_apply`).

  Every theorem takes an arbitrary record of dimension numbers with its fields given as equations, so that a literal
  record discharges them by `rfl`. The extents `N`, `E`, `C` and the index width `w` are variables throughout.
-/
import Idealize.ShloMosaic.Lib.ValueIdx

noncomputable section

open scoped BigOperators

namespace RowOps

open Idealize.ShloMosaic Idealize.ShloMosaic.ValueIdx

/-! ## Row numbers read off an index word -/

/-- The row an index word names, read as a signed integer: `some` of it when it lies in `[0, N)`, else `none`
    (a scatter drops such an update). -/
def rowOf (N : ℕ) {w : ℕ} (v : BitVec w) : Option (Fin N) :=
  if h : 0 ≤ v.toInt ∧ v.toInt < (N : ℤ) then some ⟨v.toInt.toNat, by omega⟩ else none

/-- The row an index word names, read as a signed integer and clamped into `[0, N − 1]` (a gather clamps its
    start index so that the slice fits). -/
def clampRow (N : ℕ) (hN : 0 < N) {w : ℕ} (v : BitVec w) : Fin N := ⟨min v.toInt.toNat (N - 1), by omega⟩

/-- A word names row `i` exactly when its signed value is `i`. -/
theorem rowOf_eq_some_iff {N w : ℕ} (v : BitVec w) (i : Fin N) : rowOf N v = some i ↔ v.toInt = (i.val : ℤ) := by
  unfold rowOf
  by_cases hv : 0 ≤ v.toInt ∧ v.toInt < (N : ℤ)
  · rw [dif_pos hv]
    constructor
    · intro h
      have := congrArg Fin.val (Option.some.inj h)
      simp only at this
      omega
    · intro h
      refine congrArg some (Fin.ext ?_)
      show v.toInt.toNat = i.val
      omega
  · rw [dif_neg hv]
    constructor
    · intro h; exact absurd h (by simp)
    · intro h
      have := i.isLt
      exact absurd ⟨by omega, by omega⟩ hv

/-- No row is named exactly when the signed value is negative or at least `N`. -/
theorem rowOf_eq_none_iff {N w : ℕ} (v : BitVec w) : rowOf N v = none ↔ ¬(0 ≤ v.toInt ∧ v.toInt < (N : ℤ)) := by
  unfold rowOf
  by_cases hv : 0 ≤ v.toInt ∧ v.toInt < (N : ℤ)
  · rw [dif_pos hv]; simp [hv]
  · rw [dif_neg hv]; simp [hv]

/-- On a word that names a row, clamping changes nothing. -/
theorem clampRow_of_rowOf {N w : ℕ} (hN : 0 < N) (v : BitVec w) (i : Fin N) (h : rowOf N v = some i) :
    clampRow N hN v = i := by
  have hv := (rowOf_eq_some_iff v i).mp h
  refine Fin.ext ?_
  show min v.toInt.toNat (N - 1) = i.val
  have := i.isLt
  omega

/-! ## Gathers of rows -/

/-- THE ROW GATHER READ AT `(e, f)`: the table at row `idx[e, 0]`, read signed and clamped, column `f`. On the row axis
    the operand index is the clamped start alone (no batching axis, the axis collapsed); on the column axis the start is
    `0` (the start index map does not name it) and the offset coordinate is the result's column. -/
theorem gather_rows_apply {α : Type} {N E C w : ℕ} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (f : Fin C) :
    Host.gather d x idx (ix2 e f) = x (ix2 (clampRow N hN (idx (ix2 e (0 : Fin 1)))) f) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![E, 1]⟩) (t := ⟨2, ![E, C]⟩)
        ⟨[1], [0], [], [], [0], 1, ![1, C], wf⟩ (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start
    rw [dif_neg (show (1 : Fin 2) ∉ [0] by decide)]
    simp only [Nat.add_zero, Nat.zero_add]
    rfl

/-- THE FLAT GATHER READ AT `e`: the table at `idx[e, 0]`, read signed and clamped. -/
theorem gather_rows1_apply {α : Type} {N E w : ℕ} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e (0 : Fin 1))))) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨1, ![N]⟩) (si := ⟨2, ![E, 1]⟩) (t := ⟨1, ![E]⟩)
        ⟨[], [0], [], [], [0], 1, ![1], wf⟩ (ix1 e)
        ⟨List.idxOf (0 : Fin 1) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Scatters into rows -/

/-- A scatter's result index, when start plus window coordinate is the coordinate of `g` on every operand axis. -/
theorem resultIdx?_eq_some {s si u : Shape} (d : ScatterDims s si u) {w : ℕ} (j : u.Idx) (idx : IVec si w) (g : s.Idx)
    (hg : ∀ a, d.start j idx a + (d.window j a : ℤ) = ((g a).val : ℤ)) : d.resultIdx? j idx = some g := by
  unfold ScatterDims.resultIdx?
  have hall : ∀ a, 0 ≤ d.start j idx a + (d.window j a : ℤ) ∧ d.start j idx a + (d.window j a : ℤ) < (s.size a : ℤ) := by
    intro a
    rw [hg a]
    have := (g a).isLt
    omega
  rw [dif_pos hall]
  congr 1
  funext a
  refine Fin.ext ?_
  show (d.start j idx a + (d.window j a : ℤ)).toNat = (g a).val
  rw [hg a]
  exact Int.toNat_natCast _

/-- A scatter's update is dropped when start plus window coordinate leaves the operand on one axis. -/
theorem resultIdx?_eq_none {s si u : Shape} (d : ScatterDims s si u) {w : ℕ} (j : u.Idx) (idx : IVec si w) (a : Fin s.rank)
    (ha : ¬(0 ≤ d.start j idx a + (d.window j a : ℤ) ∧ d.start j idx a + (d.window j a : ℤ) < (s.size a : ℤ))) :
    d.resultIdx? j idx = none := by
  unfold ScatterDims.resultIdx?
  rw [dif_neg (fun h => ha (h a))]

/-- WHERE UPDATE ELEMENT `(e, f)` LANDS: at `(idx[e, 0], f)` when the signed row number is in `[0, N)`, nowhere
    otherwise. On the row axis start plus window is the signed row number (the axis is inserted: window `0`); on the column
    axis it is `0 + f`, always in range. -/
theorem scatter_rows_resultIdx {N E C w : ℕ} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f : Fin C) :
    d.resultIdx? (ix2 e f) idx = (rowOf N (idx (ix2 e (0 : Fin 1)))).map (fun i => ix2 i f) := by
  obtain ⟨uw, iw, sd, iv, wf⟩ := d
  simp only at h1 h2 h3 h4
  subst h1 h2 h3 h4
  have hs0 : ScatterDims.start (s := ⟨2, ![N, C]⟩) (si := ⟨2, ![E, 1]⟩) (u := ⟨2, ![E, C]⟩)
      ⟨[1], [0], [0], 1, wf⟩ (ix2 e f) idx 0 = (idx (ix2 e (0 : Fin 1))).toInt := by
    unfold ScatterDims.start
    rw [dif_pos (List.mem_singleton.mpr rfl)]
    have hsi : ScatterDims.siIdx (s := ⟨2, ![N, C]⟩) (si := ⟨2, ![E, 1]⟩) (u := ⟨2, ![E, C]⟩)
        ⟨[1], [0], [0], 1, wf⟩ (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : ScatterDims.start (s := ⟨2, ![N, C]⟩) (si := ⟨2, ![E, 1]⟩) (u := ⟨2, ![E, C]⟩)
      ⟨[1], [0], [0], 1, wf⟩ (ix2 e f) idx 1 = 0 := by
    unfold ScatterDims.start
    rw [dif_neg (show (1 : Fin 2) ∉ [0] by decide)]
  have hw0 : ScatterDims.window (s := ⟨2, ![N, C]⟩) (si := ⟨2, ![E, 1]⟩) (u := ⟨2, ![E, C]⟩)
      ⟨[1], [0], [0], 1, wf⟩ (ix2 e f) 0 = 0 := rfl
  have hw1 : ScatterDims.window (s := ⟨2, ![N, C]⟩) (si := ⟨2, ![E, 1]⟩) (u := ⟨2, ![E, C]⟩)
      ⟨[1], [0], [0], 1, wf⟩ (ix2 e f) 1 = f.val := rfl
  unfold rowOf
  by_cases hv : 0 ≤ (idx (ix2 e (0 : Fin 1))).toInt ∧ (idx (ix2 e (0 : Fin 1))).toInt < (N : ℤ)
  · rw [dif_pos hv, Option.map_some]
    refine resultIdx?_eq_some _ _ _ _ ?_
    intro a
    match a with
    | ⟨0, _⟩ =>
      show ScatterDims.start _ (ix2 e f) idx 0 + (ScatterDims.window _ (ix2 e f) 0 : ℤ) = _
      rw [hs0, hw0]
      show (idx (ix2 e (0 : Fin 1))).toInt + ((0 : ℕ) : ℤ) = (((idx (ix2 e (0 : Fin 1))).toInt.toNat : ℕ) : ℤ)
      omega
    | ⟨1, _⟩ =>
      show ScatterDims.start _ (ix2 e f) idx 1 + (ScatterDims.window _ (ix2 e f) 1 : ℤ) = _
      rw [hs1, hw1]
      show (0 : ℤ) + (f.val : ℤ) = (f.val : ℤ)
      omega
  · rw [dif_neg hv, Option.map_none]
    refine resultIdx?_eq_none _ _ _ 0 ?_
    rw [hs0, hw0]
    intro h
    exact hv ⟨by omega, by have := h.2; simpa using this⟩

/-- Two rank-2 indices given by coordinates agree only if the coordinates do. -/
theorem ix2_inj {n0 n1 : ℕ} {a a' : Fin n0} {b b' : Fin n1} (h : ix2 a b = ix2 a' b') : a = a' ∧ b = b' :=
  ⟨congrFun h 0, congrFun h 1⟩

/-- Which update elements land on operand element `(i, f)`: those of column `f` whose row index reads `i`. -/
theorem scatter_rows_resultIdx_eq_some_iff {N E C w : ℕ} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f' : Fin C) (i : Fin N) (f : Fin C) :
    d.resultIdx? (ix2 e f') idx = some (ix2 i f) ↔ rowOf N (idx (ix2 e (0 : Fin 1))) = some i ∧ f' = f := by
  rw [scatter_rows_resultIdx d h1 h2 h3 h4]
  cases hr : rowOf N (idx (ix2 e (0 : Fin 1))) with
  | none => simp
  | some i' =>
    rw [Option.map_some]
    constructor
    · intro h
      have := ix2_inj (Option.some.inj h)
      exact ⟨congrArg some this.1, this.2⟩
    · rintro ⟨h, rfl⟩
      rw [Option.some.inj h]

/-- THE ACCUMULATING ROW SCATTER READ AT `(i, f)`: the operand's element plus the updates of column `f` whose row
    number is `i`. The update indices landing on `(i, f)` are the image of those `e` under `e ↦ (e, f)`, which is
    injective with inverse the first coordinate. -/
theorem scatterAdd_rows_apply {N E C w : ℕ} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (i : Fin N) (f : Fin C) :
    Ideal.hostScatterAdd d x idx upd (ix2 i f) = x (ix2 i f) +
      ∑ e ∈ Finset.univ.filter (fun e : Fin E => rowOf N (idx (ix2 e (0 : Fin 1))) = some i), upd (ix2 e f) := by
  unfold Ideal.hostScatterAdd
  congr 1
  refine Finset.sum_nbij' (fun j => (j 0 : Fin E)) (fun e => ix2 e f) ?_ ?_ ?_ ?_ ?_
  · intro j hj
    obtain ⟨a, b, rfl⟩ : ∃ (a : Fin E) (b : Fin C), j = ix2 a b := ⟨j 0, j 1, eq_ix2 j⟩
    have h := (Finset.mem_filter.mp hj).2
    rw [scatter_rows_resultIdx_eq_some_iff d h1 h2 h3 h4] at h
    exact Finset.mem_filter.mpr ⟨Finset.mem_univ _, h.1⟩
  · intro e he
    have h := (Finset.mem_filter.mp he).2
    exact Finset.mem_filter.mpr ⟨Finset.mem_univ _,
      (scatter_rows_resultIdx_eq_some_iff d h1 h2 h3 h4 idx e f i f).mpr ⟨h, rfl⟩⟩
  · intro j hj
    obtain ⟨a, b, rfl⟩ : ∃ (a : Fin E) (b : Fin C), j = ix2 a b := ⟨j 0, j 1, eq_ix2 j⟩
    have h := (Finset.mem_filter.mp hj).2
    rw [scatter_rows_resultIdx_eq_some_iff d h1 h2 h3 h4] at h
    show ix2 a f = ix2 a b
    rw [h.2]
  · intro e _
    rfl
  · intro j hj
    obtain ⟨a, b, rfl⟩ : ∃ (a : Fin E) (b : Fin C), j = ix2 a b := ⟨j 0, j 1, eq_ix2 j⟩
    have h := (Finset.mem_filter.mp hj).2
    rw [scatter_rows_resultIdx_eq_some_iff d h1 h2 h3 h4] at h
    show upd (ix2 a b) = upd (ix2 a f)
    rw [h.2]

/-- WHERE UPDATE ELEMENT `e` OF A FLAT SCATTER LANDS: at `idx[e, 0]` when the signed row number is in `[0, N)`,
    nowhere otherwise. -/
theorem scatter_rows1_resultIdx {N E w : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) :
    d.resultIdx? (ix1 e) idx = (rowOf N (idx (ix2 e (0 : Fin 1)))).map ix1 := by
  obtain ⟨uw, iw, sd, iv, wf⟩ := d
  simp only at h1 h2 h3 h4
  subst h1 h2 h3 h4
  have hs0 : ScatterDims.start (s := ⟨1, ![N]⟩) (si := ⟨2, ![E, 1]⟩) (u := ⟨1, ![E]⟩)
      ⟨[], [0], [0], 1, wf⟩ (ix1 e) idx 0 = (idx (ix2 e (0 : Fin 1))).toInt := by
    unfold ScatterDims.start
    rw [dif_pos (List.mem_singleton.mpr rfl)]
    have hsi : ScatterDims.siIdx (s := ⟨1, ![N]⟩) (si := ⟨2, ![E, 1]⟩) (u := ⟨1, ![E]⟩)
        ⟨[], [0], [0], 1, wf⟩ (ix1 e)
        ⟨List.idxOf (0 : Fin 1) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : ScatterDims.window (s := ⟨1, ![N]⟩) (si := ⟨2, ![E, 1]⟩) (u := ⟨1, ![E]⟩)
      ⟨[], [0], [0], 1, wf⟩ (ix1 e) 0 = 0 := rfl
  unfold rowOf
  by_cases hv : 0 ≤ (idx (ix2 e (0 : Fin 1))).toInt ∧ (idx (ix2 e (0 : Fin 1))).toInt < (N : ℤ)
  · rw [dif_pos hv, Option.map_some]
    refine resultIdx?_eq_some _ _ _ _ ?_
    intro a
    match a with
    | ⟨0, _⟩ =>
      show ScatterDims.start _ (ix1 e) idx 0 + (ScatterDims.window _ (ix1 e) 0 : ℤ) = _
      rw [hs0, hw0]
      show (idx (ix2 e (0 : Fin 1))).toInt + ((0 : ℕ) : ℤ) = (((idx (ix2 e (0 : Fin 1))).toInt.toNat : ℕ) : ℤ)
      omega
  · rw [dif_neg hv, Option.map_none]
    refine resultIdx?_eq_none _ _ _ 0 ?_
    rw [hs0, hw0]
    intro h
    exact hv ⟨by omega, by have := h.2; simpa using this⟩

/-- Which update elements land on operand element `i`: those whose row index reads `i`. -/
theorem scatter_rows1_resultIdx_eq_some_iff {N E w : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ rowOf N (idx (ix2 e (0 : Fin 1))) = some i := by
  rw [scatter_rows1_resultIdx d h1 h2 h3 h4]
  cases hr : rowOf N (idx (ix2 e (0 : Fin 1))) with
  | none => simp
  | some i' =>
    rw [Option.map_some]
    constructor
    · intro h
      exact congrArg some (congrFun (Option.some.inj h) 0)
    · intro h
      rw [Option.some.inj h]

/-- THE ACCUMULATING FLAT SCATTER READ AT `i`: the operand's element plus the updates whose row number is `i`. -/
theorem scatterAdd_rows1_apply {N E w : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (i : Fin N) :
    Ideal.hostScatterAdd d x idx upd (ix1 i) = x (ix1 i) +
      ∑ e ∈ Finset.univ.filter (fun e : Fin E => rowOf N (idx (ix2 e (0 : Fin 1))) = some i), upd (ix1 e) := by
  unfold Ideal.hostScatterAdd
  congr 1
  refine Finset.sum_nbij' (fun j => (j 0 : Fin E)) (fun e => ix1 e) ?_ ?_ ?_ ?_ ?_
  · intro j hj
    obtain ⟨a, rfl⟩ : ∃ a : Fin E, j = ix1 a := ⟨j 0, eq_ix1 j⟩
    have h := (Finset.mem_filter.mp hj).2
    rw [scatter_rows1_resultIdx_eq_some_iff d h1 h2 h3 h4] at h
    exact Finset.mem_filter.mpr ⟨Finset.mem_univ _, h⟩
  · intro e he
    have h := (Finset.mem_filter.mp he).2
    exact Finset.mem_filter.mpr ⟨Finset.mem_univ _,
      (scatter_rows1_resultIdx_eq_some_iff d h1 h2 h3 h4 idx e i).mpr h⟩
  · intro j _
    exact (eq_ix1 j).symm
  · intro e _
    rfl
  · intro j _
    exact congrArg upd (eq_ix1 j)

end RowOps

end
-- ==== Proof.Spec.lean ====
/-
  The mathematics both programs compute, by coordinates, over the extended reals.

  A graph-convolution layer with symmetric normalisation: node p collects, over the edges e that land on it
  (nodesOf ρ p), the source node's features feat (γ e) scaled by the edge's coefficient, adds its own features scaled
  by d2 p, applies a linear map w and a bias b, then relu. One program projects first and aggregates the projected
  features (layerR); the other aggregates the raw features and projects the aggregate (layerK). Over real numbers the
  two agree because a finite sum distributes over a product; at an infinity distributivity fails, so the equation is
  stated for arrays of reals. The degree of a node is one more than the number of edges landing on it, counted from one
  or from zero plus one; its reciprocal square root is a positive real. The fully connected head contracts 50176
  features either in one sum or in eight blocks of 6272 accumulated from zero: the same sum regrouped.
  Edge indices arrive as 32-bit words: a gather reads the word signed and clamps it into the table; a scatter-add drops
  an update whose row lies outside it; jnp's wrap-around of negative indices is the word plus the table's height.
-/
import proofs.«400340_j61014305407058_4_alg».proof.Proof.LibRealSums
import proofs.«400340_j61014305407058_4_alg».proof.Proof.LibRows

noncomputable section

namespace Gcn

open Finset Idealize.ShloMosaic

variable {N E K M : ℕ}

/-! ## Index words -/

/-- jnp's normalisation of a possibly negative index into a table of height N: a negative word gets N added. -/
def normW (N : ℕ) (v : BitVec 32) : BitVec 32 := if v.slt 0#32 then v + BitVec.ofNat 32 N else v

/-- The edges whose destination row is p. -/
def nodesOf (ρ : Fin E → Option (Fin N)) (p : Fin N) : Finset (Fin E) := univ.filter fun e => ρ e = some p

/-! ## One layer -/

/-- A linear map applied to node p's features. -/
def proj (feat : Fin N → Fin K → EReal) (w : Fin K → Fin M → EReal) (p : Fin N) (q : Fin M) : EReal := ∑ k, feat p k * w k q

/-- Aggregated raw features of node p: its in-edges' sources, weighted, plus its own share. -/
def aggK (ρ : Fin E → Option (Fin N)) (γ : Fin E → Fin N) (coef : Fin E → EReal) (d2 : Fin N → EReal)
    (feat : Fin N → Fin K → EReal) (p : Fin N) (k : Fin K) : EReal :=
  (∑ e ∈ nodesOf ρ p, feat (γ e) k * coef e) + feat p k * d2 p

/-- Aggregate, then project, bias, relu. -/
def layerK (ρ : Fin E → Option (Fin N)) (γ : Fin E → Fin N) (coef : Fin E → EReal) (d2 : Fin N → EReal)
    (feat : Fin N → Fin K → EReal) (w : Fin K → Fin M → EReal) (b : Fin M → EReal) (p : Fin N) (q : Fin M) : EReal :=
  max ((∑ k, aggK ρ γ coef d2 feat p k * w k q) + b q) 0

/-- Project, then aggregate the projected features, bias, relu. -/
def layerR (ρ : Fin E → Option (Fin N)) (γ : Fin E → Fin N) (coef : Fin E → EReal) (d2 : Fin N → EReal)
    (feat : Fin N → Fin K → EReal) (w : Fin K → Fin M → EReal) (b : Fin M → EReal) (p : Fin N) (q : Fin M) : EReal :=
  max (((∑ e ∈ nodesOf ρ p, proj feat w (γ e) q * coef e) + proj feat w p q * d2 p) + b q) 0

/-- Over arrays of reals the two orders agree: the sum over edges distributes over the product with w. -/
theorem layer_eq (ρ : Fin E → Option (Fin N)) (γ : Fin E → Fin N) (coef : Fin E → EReal) (d2 : Fin N → EReal)
    (feat : Fin N → Fin K → EReal) (w : Fin K → Fin M → EReal) (b : Fin M → EReal)
    (hf : ∀ p k, ∃ r : ℝ, feat p k = r) (hw : ∀ k q, ∃ r : ℝ, w k q = r) (hc : ∀ e, ∃ r : ℝ, coef e = r)
    (hd : ∀ p, ∃ r : ℝ, d2 p = r) (hb : ∀ q, ∃ r : ℝ, b q = r) (p : Fin N) (q : Fin M) :
    layerK ρ γ coef d2 feat w b p q = layerR ρ γ coef d2 feat w b p q := by
  choose fr hfr using hf
  choose wr hwr using hw
  choose cr hcr using hc
  choose dr hdr using hd
  -- the inner expressions: both are the coercion of a real, and the two reals are equal
  have key : (∑ k, aggK ρ γ coef d2 feat p k * w k q)
      = (∑ e ∈ nodesOf ρ p, proj feat w (γ e) q * coef e) + proj feat w p q * d2 p := by
    simp only [aggK, proj, hfr, hwr, hcr, hdr]
    simp only [← EReal.coe_mul, ← RealSums.coe_sum, ← EReal.coe_add]
    exact congrArg (fun r : ℝ => (r : EReal))
      (RealSums.agg_proj_real (nodesOf ρ p) (fun e k => fr (γ e) k) (fun k => wr k q) cr
        (fun k => fr p k) (dr p)).symm
  unfold layerK layerR
  rw [key]

/-- A layer of real arrays is a real array. -/
theorem layerR_real (ρ : Fin E → Option (Fin N)) (γ : Fin E → Fin N) (coef : Fin E → EReal) (d2 : Fin N → EReal)
    (feat : Fin N → Fin K → EReal) (w : Fin K → Fin M → EReal) (b : Fin M → EReal)
    (hf : ∀ p k, ∃ r : ℝ, feat p k = r) (hw : ∀ k q, ∃ r : ℝ, w k q = r) (hc : ∀ e, ∃ r : ℝ, coef e = r)
    (hd : ∀ p, ∃ r : ℝ, d2 p = r) (hb : ∀ q, ∃ r : ℝ, b q = r) (p : Fin N) (q : Fin M) :
    ∃ r : ℝ, layerR ρ γ coef d2 feat w b p q = r := by
  unfold layerR proj
  have hproj : ∀ n : Fin N, ∃ r : ℝ, (∑ k, feat n k * w k q) = r := fun n =>
    RealSums.isReal_sum _ _ fun k _ => RealSums.isReal_mul (hf n k) (hw k q)
  exact RealSums.isReal_max
    (RealSums.isReal_add
      (RealSums.isReal_add
        (RealSums.isReal_sum _ _ fun e _ => RealSums.isReal_mul (hproj (γ e)) (hc e))
        (RealSums.isReal_mul (hproj p) (hd p)))
      (hb q))
    RealSums.isReal_zero

/-! ## Degrees and normalisation -/

/-- In-degree plus the self loop, counted from one. -/
def degR (ρ : Fin E → Option (Fin N)) (p : Fin N) : EReal := 1 + ∑ _e ∈ nodesOf ρ p, (1 : EReal)
/-- The same counted from zero, the self loop added last. -/
def degK (ρ : Fin E → Option (Fin N)) (p : Fin N) : EReal := (0 + ∑ _e ∈ nodesOf ρ p, (1 : EReal)) + 1

theorem deg_eq (ρ : Fin E → Option (Fin N)) (p : Fin N) : degK ρ p = degR ρ p := by
  unfold degK degR
  rw [RealSums.count_add_one, RealSums.one_add_count]

/-- D^{-1/2} at node p. -/
def dinv (ρ : Fin E → Option (Fin N)) (p : Fin N) : EReal := Ideal.rsqrt (degR ρ p)

theorem dinv_real (ρ : Fin E → Option (Fin N)) (p : Fin N) : ∃ r : ℝ, dinv ρ p = r := by
  unfold dinv degR
  rw [RealSums.one_add_count]
  refine RealSums.rsqrt_isReal _ ?_
  have h : (0 : ℝ) ≤ ((nodesOf ρ p).card : ℝ) := Nat.cast_nonneg _
  linarith

/-- An edge's coefficient: the two endpoints' normalisations multiplied. -/
def coefOf (ρ : Fin E → Option (Fin N)) (γs γd : Fin E → Fin N) (e : Fin E) : EReal := dinv ρ (γs e) * dinv ρ (γd e)
/-- A node's own share. -/
def d2Of (ρ : Fin E → Option (Fin N)) (p : Fin N) : EReal := dinv ρ p * dinv ρ p

theorem coefOf_real (ρ : Fin E → Option (Fin N)) (γs γd : Fin E → Fin N) (e : Fin E) : ∃ r : ℝ, coefOf ρ γs γd e = r := by
  unfold coefOf
  exact RealSums.isReal_mul (dinv_real ρ (γs e)) (dinv_real ρ (γd e))
theorem d2Of_real (ρ : Fin E → Option (Fin N)) (p : Fin N) : ∃ r : ℝ, d2Of ρ p = r := by
  unfold d2Of
  exact RealSums.isReal_mul (dinv_real ρ p) (dinv_real ρ p)

/-! ## The fully connected head -/

/-- relu (h · w1 + b1) · w2 + b2 at (r, j), the long contraction one sum. -/
def fcR {R S U J : ℕ} (h : Fin R → Fin S → EReal) (w1 : Fin S → Fin U → EReal) (b1 : Fin U → EReal)
    (w2 : Fin U → Fin J → EReal) (b2 : Fin J → EReal) (r : Fin R) (j : Fin J) : EReal :=
  (∑ u, max ((∑ s, h r s * w1 s u) + b1 u) 0 * w2 u j) + b2 j

/-- The same with the long contraction accumulated block by block: acc n is what the accumulator holds after block n. -/
def fcK {R U J : ℕ} (acc : Fin R → Fin U → EReal) (b1 : Fin U → EReal)
    (w2 : Fin U → Fin J → EReal) (b2 : Fin J → EReal) (r : Fin R) (j : Fin J) : EReal :=
  (∑ u, max (acc r u + b1 u) 0 * w2 u j) + b2 j

/-- A accumulation over A blocks of B terms from zero is the sum of all A * B terms. -/
theorem acc_blocks (A B : ℕ) (hA : 0 < A) (f : ℕ → EReal) (acc : ℕ → EReal)
    (h0 : acc 0 = 0 + ∑ q : Fin B, f (0 * B + q.val))
    (hs : ∀ n, acc (n + 1) = acc n + ∑ q : Fin B, f ((n + 1) * B + q.val)) :
    acc (A - 1) = ∑ s : Fin (A * B), f s.val := by
  have h := RealSums.fold_blocks A (fun n => ∑ q : Fin B, f (n * B + q.val)) acc h0 hs (A - 1)
  rw [h, Nat.sub_add_cancel hA, Finset.sum_range, RealSums.sum_blocks]

end Gcn

end
-- ==== Proof.SpecIdx.lean ====
/-
  The edge list read as index functions. The programs receive a 2 x E array of 32-bit words: row 0 the source node of
  each edge, row 1 its destination. A gather of node features at the sources wraps a negative word around the table
  and then clamps it (gamS); the degree count and the coefficients use the wrapped destinations (rhoN, gamD); the
  segment sum that aggregates messages uses the destination words as they are and drops the ones outside the table
  (rhoRaw).
-/
import proofs.«400340_j61014305407058_4_alg».proof.Proof.Spec

noncomputable section

namespace Gcn

open Idealize.ShloMosaic Idealize.ShloMosaic.ValueIdx

variable {E : ℕ}

/-- Edge e's source word. -/
def srcW (x1 : IVec ⟨2, ![2, E]⟩ 32) (e : Fin E) : BitVec 32 := x1 (ix2 (0 : Fin 2) e)
/-- Edge e's destination word. -/
def dstW (x1 : IVec ⟨2, ![2, E]⟩ 32) (e : Fin E) : BitVec 32 := x1 (ix2 (1 : Fin 2) e)

/-- The row a segment sum adds edge e's message to: the raw destination word, dropped when outside the table. -/
def rhoRaw (N : ℕ) (x1 : IVec ⟨2, ![2, E]⟩ 32) (e : Fin E) : Option (Fin N) := RowOps.rowOf N (dstW x1 e)
/-- The row the degree count adds edge e to: the wrapped destination word, dropped when outside the table. -/
def rhoN (N : ℕ) (x1 : IVec ⟨2, ![2, E]⟩ 32) (e : Fin E) : Option (Fin N) := RowOps.rowOf N (normW N (dstW x1 e))
/-- The node a gather at edge e's source reads: the wrapped source word, clamped into the table. -/
def gamS (N : ℕ) (hN : 0 < N) (x1 : IVec ⟨2, ![2, E]⟩ 32) (e : Fin E) : Fin N := RowOps.clampRow N hN (normW N (srcW x1 e))
/-- The node a gather at edge e's destination reads: the wrapped destination word, clamped into the table. -/
def gamD (N : ℕ) (hN : 0 < N) (x1 : IVec ⟨2, ![2, E]⟩ 32) (e : Fin E) : Fin N := RowOps.clampRow N hN (normW N (dstW x1 e))

/-- The table's height here. -/
abbrev NN : ℕ := 401408
theorem NN_pos : 0 < NN := by decide

/-- Edge coefficients and own shares of this graph, from the edge list alone. -/
def coefG (x1 : IVec ⟨2, ![2, E]⟩ 32) (e : Fin E) : EReal := coefOf (rhoN NN x1) (gamS NN NN_pos x1) (gamD NN NN_pos x1) e
def d2G (x1 : IVec ⟨2, ![2, E]⟩ 32) (p : Fin NN) : EReal := d2Of (rhoN NN x1) p

/-- One layer of this graph in the aggregate-then-project order, and in the project-then-aggregate order. -/
def layerKG {K M : ℕ} (x1 : IVec ⟨2, ![2, E]⟩ 32) (feat : Fin NN → Fin K → EReal) (w : Fin K → Fin M → EReal) (b : Fin M → EReal) :
    Fin NN → Fin M → EReal := layerK (rhoRaw NN x1) (gamS NN NN_pos x1) (coefG x1) (d2G x1) feat w b
def layerRG {K M : ℕ} (x1 : IVec ⟨2, ![2, E]⟩ 32) (feat : Fin NN → Fin K → EReal) (w : Fin K → Fin M → EReal) (b : Fin M → EReal) :
    Fin NN → Fin M → EReal := layerR (rhoRaw NN x1) (gamS NN NN_pos x1) (coefG x1) (d2G x1) feat w b
/-- The aggregate alone. -/
def aggG {K : ℕ} (x1 : IVec ⟨2, ![2, E]⟩ 32) (feat : Fin NN → Fin K → EReal) : Fin NN → Fin K → EReal :=
  aggK (rhoRaw NN x1) (gamS NN NN_pos x1) (coefG x1) (d2G x1) feat

theorem layerKG_eq {K M : ℕ} (x1 : IVec ⟨2, ![2, E]⟩ 32) (feat : Fin NN → Fin K → EReal) (w : Fin K → Fin M → EReal) (b : Fin M → EReal)
    (hf : ∀ p k, ∃ r : ℝ, feat p k = r) (hw : ∀ k q, ∃ r : ℝ, w k q = r) (hb : ∀ q, ∃ r : ℝ, b q = r) (p : Fin NN) (q : Fin M) :
    layerKG x1 feat w b p q = layerRG x1 feat w b p q :=
  layer_eq _ _ _ _ feat w b hf hw (fun e => coefOf_real _ _ _ e) (fun p => d2Of_real _ p) hb p q

theorem layerRG_real {K M : ℕ} (x1 : IVec ⟨2, ![2, E]⟩ 32) (feat : Fin NN → Fin K → EReal) (w : Fin K → Fin M → EReal) (b : Fin M → EReal)
    (hf : ∀ p k, ∃ r : ℝ, feat p k = r) (hw : ∀ k q, ∃ r : ℝ, w k q = r) (hb : ∀ q, ∃ r : ℝ, b q = r) (p : Fin NN) (q : Fin M) :
    ∃ r : ℝ, layerRG x1 feat w b p q = r :=
  layerR_real _ _ _ _ feat w b hf hw (fun e => coefOf_real _ _ _ e) (fun p => d2Of_real _ p) hb p q

end Gcn

end
-- ==== Proof.SpecTop.lean ====
/-
  The whole network, by coordinates: two graph-convolution layers over the 401408 nodes (1 -> 32 -> 64 features), the
  node features of each of the 512 graphs laid side by side (784 nodes x 64 features = 50176), and the fully connected
  head 50176 -> 128 -> 10. outR is the computation with each layer projecting first and the head's long contraction
  one sum; outK the computation with each layer aggregating first and the head accumulating eight blocks of 6272 from
  zero. For finite inputs they are equal.
-/
import proofs.«400340_j61014305407058_4_alg».proof.Proof.SpecIdx

noncomputable section

namespace Gcn

open Finset Idealize.ShloMosaic Idealize.ShloMosaic.ValueIdx

/-- Row r, column s of the 512 x 50176 reshape of a 401408 x 64 array: row-major, s = 64 * (node within the graph) + feature. -/
def flat (h : Fin NN → Fin 64 → EReal) (r : Fin 512) (s : Fin 50176) : EReal :=
  h ⟨r.val * 784 + s.val / 64, by have := r.isLt; have := s.isLt; show _ < 401408; omega⟩ ⟨s.val % 64, Nat.mod_lt _ (by decide)⟩

/-- A product of a row of h and a column of w1 at a position given as a natural number, zero past the end. -/
def term {R S U : ℕ} (h : Fin R → Fin S → EReal) (w1 : Fin S → Fin U → EReal) (r : Fin R) (u : Fin U) (s : ℕ) : EReal :=
  if hs : s < S then h r ⟨s, hs⟩ * w1 ⟨s, hs⟩ u else 0

/-- What the accumulator holds for (r, u) after block n of width B: zero plus block 0, then each block added. -/
def accS {R S U : ℕ} (B : ℕ) (h : Fin R → Fin S → EReal) (w1 : Fin S → Fin U → EReal) (r : Fin R) (u : Fin U) : ℕ → EReal
  | 0 => 0 + ∑ q : Fin B, term h w1 r u (0 * B + q.val)
  | n + 1 => accS B h w1 r u n + ∑ q : Fin B, term h w1 r u ((n + 1) * B + q.val)

/-- Eight blocks of 6272 accumulated from zero are the whole contraction over 50176. -/
theorem accS_last {R U : ℕ} (h : Fin R → Fin 50176 → EReal) (w1 : Fin 50176 → Fin U → EReal) (r : Fin R) (u : Fin U) :
    accS 6272 h w1 r u 7 = ∑ s : Fin 50176, h r s * w1 s u := by
  -- the eight blocks of 6272 are the whole sum over 8 * 6272 = 50176 positions
  have hacc : accS 6272 h w1 r u (8 - 1) = ∑ s : Fin (8 * 6272), term h w1 r u s.val :=
    acc_blocks 8 6272 (by decide) (term h w1 r u) (accS 6272 h w1 r u) rfl (fun _ => rfl)
  -- every position is below 50176, so each term is the product
  have key : ∑ s : Fin 50176, term h w1 r u s.val = ∑ s : Fin 50176, h r s * w1 s u :=
    Finset.sum_congr rfl fun s _ => by
      unfold term
      rw [dif_pos s.isLt]
  calc accS 6272 h w1 r u 7 = ∑ s : Fin (8 * 6272), term h w1 r u s.val := hacc
    _ = ∑ s : Fin 50176, term h w1 r u s.val := rfl
    _ = ∑ s : Fin 50176, h r s * w1 s u := key

section Net

variable {E : ℕ} (x0 : Fin NN → Fin 1 → EReal) (x1 : IVec ⟨2, ![2, E]⟩ 32) (w1 : Fin 1 → Fin 32 → EReal) (b1 : Fin 32 → EReal)
  (w2 : Fin 32 → Fin 64 → EReal) (b2 : Fin 64 → EReal) (f1w : Fin 50176 → Fin 128 → EReal) (f1b : Fin 128 → EReal)
  (f2w : Fin 128 → Fin 10 → EReal) (f2b : Fin 10 → EReal)

def h1R : Fin NN → Fin 32 → EReal := layerRG x1 x0 w1 b1
def h2R : Fin NN → Fin 64 → EReal := layerRG x1 (h1R x0 x1 w1 b1) w2 b2
def outR (r : Fin 512) (j : Fin 10) : EReal := fcR (flat (h2R x0 x1 w1 b1 w2 b2)) f1w f1b f2w f2b r j

def h1K : Fin NN → Fin 32 → EReal := layerKG x1 x0 w1 b1
def h2K : Fin NN → Fin 64 → EReal := layerKG x1 (h1K x0 x1 w1 b1) w2 b2
def outK (r : Fin 512) (j : Fin 10) : EReal :=
  fcK (fun r u => accS 6272 (flat (h2K x0 x1 w1 b1 w2 b2)) f1w r u 7) f1b f2w f2b r j

/-- For finite inputs the two computations agree. -/
theorem out_eq (h0 : ∀ p k, ∃ r : ℝ, x0 p k = r) (hw1 : ∀ k q, ∃ r : ℝ, w1 k q = r) (hb1 : ∀ q, ∃ r : ℝ, b1 q = r)
    (hw2 : ∀ k q, ∃ r : ℝ, w2 k q = r) (hb2 : ∀ q, ∃ r : ℝ, b2 q = r) (r : Fin 512) (j : Fin 10) :
    outK x0 x1 w1 b1 w2 b2 f1w f1b f2w f2b r j = outR x0 x1 w1 b1 w2 b2 f1w f1b f2w f2b r j := by
  -- first layer: the two orders agree on the finite input, and the result is finite
  have h1eq : h1K x0 x1 w1 b1 = h1R x0 x1 w1 b1 := by
    funext p q
    exact layerKG_eq x1 x0 w1 b1 h0 hw1 hb1 p q
  have h1real : ∀ p k, ∃ t : ℝ, h1R x0 x1 w1 b1 p k = t := fun p k =>
    layerRG_real x1 x0 w1 b1 h0 hw1 hb1 p k
  -- second layer: the same on the first layer's finite output
  have h2eq : h2K x0 x1 w1 b1 w2 b2 = h2R x0 x1 w1 b1 w2 b2 := by
    funext p q
    unfold h2K h2R
    rw [h1eq]
    exact layerKG_eq x1 (h1R x0 x1 w1 b1) w2 b2 h1real hw2 hb2 p q
  -- the head: the accumulated blocks are the one long sum
  unfold outK outR fcK fcR
  rw [h2eq]
  simp only [accS_last]

end Net

end Gcn

end
-- ==== Proof.KIHost.lean ====
/-
  THE KERNEL PROGRAM'S THREE STRETCHES OF HOST OPERATIONS READ AT AN INDEX, at the ideal values.

  The first stretch cuts the 2 x E edge list into its source and destination words (`host0_src`, `host0_dst`), counts
  each node's degree by scatter-adding ones at the wrapped destinations and adding one, takes reciprocal square roots,
  gathers them at both wrapped ends of every edge and multiplies (`host0_coef`: the edge coefficients `Gcn.coefG`), squares
  them (`host0_d2`: the own shares `Gcn.d2G`), and aggregates the one input feature column (`host0_agg`: `Gcn.aggG`). The
  second stretch aggregates thirty-two feature columns the same way from whatever the valuation holds for the index
  words, the coefficients, the shares and the features (`host1_agg`: `Gcn.aggK` of those). The third flattens a
  401408 x 64 array into 512 rows of 50176 (`host2_flat`): row `r`, position `s` is node `r * 784 + s / 64`, column
  `s % 64`, since 50176 = 784 * 64.

  Each named intermediate is a definition of its own over an arbitrary edge list (or arbitrary input vectors), with a lemma
  reading it at an index; the stretch's result is the definition applied to the valuation's entries, and the index
  lemmas compose. The wrap-around of a negative index word (compare with zero, add the table's height, select) occurs
  five times and is read once (`wrapIdx_apply`: it is `Gcn.normW`). A gather reads its table at the clamped row, a
  scatter-add sums the updates whose row is the element's (RowOps); a degree counted from zero plus one is the degree
  counted from one (`Gcn.deg_eq`). Nothing is evaluated at an extent: every lemma is stated at indices given by
  coordinates.
-/
import proofs.«400340_j61014305407058_4_alg».proof.Proof.Gen.KernelIdeal.Launch
import proofs.«400340_j61014305407058_4_alg».proof.Proof.SpecIdx
import proofs.«400340_j61014305407058_4_alg».proof.Proof.LibRows
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.Host

open Cert.KernelIdeal Cert.KernelIdeal.Gen Idealize.ShloMosaic Idealize.ShloMosaic.TcCoe Idealize.ShloMosaic.ValueIdx Idealize.ShloMosaic.StableHlo

/-! ## Words and constants -/

/-- The f32 word of one denotes the extended real one. -/
theorem ofBits_one_f32 : Ideal.ofBits .f32 0x3F800000#32 = 1 := by
  simp [Ideal.ofBits, Ideal.ieee]
  rw [← EReal.coe_mul]
  norm_num

/-- A one-axis vector broadcast to a column reads, at row `e`, the vector at `e`. -/
theorem bcastCol_apply {α : Type} {n : ℕ} (hn : n ≠ 1)
    (h : (⟨1, ![n]⟩ : Shape).BroadcastsInDim ⟨2, ![n, 1]⟩ (![0] : Fin 1 → Fin 2))
    (v : (⟨1, ![n]⟩ : Shape).Idx → α) (e : Fin n) (k : Fin 1) :
    broadcastInDim ⟨2, ![n, 1]⟩ ![0] h v (ix2 e k) = v (ix1 e) :=
  broadcastInDim_apply _ h v (ix2 e k) (ix1 e) (fun a => by
    match a with
    | ⟨0, _⟩ =>
      show e.val = if n = 1 then 0 else e.val
      rw [if_neg hn])

/-- The wrap-around of a possibly negative index vector into a table of 401408 rows, as a column of start indices:
    compare with zero, add the height, select, broadcast to one column. -/
def wrapIdx (v : IVec S3211264 32) : IVec S3211264x1 32 :=
  broadcastInDim S3211264x1 ![0] bcast_S3211264_S3211264x1_0
    (select (cmpi .slt v (broadcastInDim S3211264 ![] bcast_S_S3211264 (constantI S_ 32 0#32)))
      (addi v (broadcastInDim S3211264 ![] bcast_S_S3211264 (constantI S_ 32 401408#32))) v)

/-- The wrapped column at row `e` is the word at `e`, the height added when it is negative. -/
theorem wrapIdx_apply (v : IVec S3211264 32) (e : Fin 3211264) (k : Fin 1) :
    wrapIdx v (ix2 e k) = Gcn.normW 401408 (v (ix1 e)) := by
  unfold wrapIdx
  rw [bcastCol_apply (by decide)]
  show Scalar.select (IntOp.cmpi .slt (v (ix1 e)) 0#32) (IntOp.addi (v (ix1 e)) 401408#32) (v (ix1 e)) = _
  unfold Gcn.normW Scalar.select IntOp.cmpi IntOp.addi
  cases h : (v (ix1 e)).slt 0#32
  · simp
  · simp

/-! ## The edge list's two rows -/

/-- Row 0 of the edge list, as a vector of source words. -/
def srcV (x1 : IVec S2x3211264 32) : IVec S3211264 32 :=
  shapeCast S3211264 (extractStridedSlice S1x3211264 ![0, 0] x1 slices_S2x3211264_S1x3211264_0_0) shapeCasts_S1x3211264_S3211264

/-- Row 1 of the edge list, as a vector of destination words. -/
def dstV (x1 : IVec S2x3211264 32) : IVec S3211264 32 :=
  shapeCast S3211264 (extractStridedSlice S1x3211264 ![1, 0] x1 slices_S2x3211264_S1x3211264_1_0) shapeCasts_S1x3211264_S3211264

theorem srcV_apply (x1 : IVec S2x3211264 32) (e : Fin 3211264) : srcV x1 (ix1 e) = Gcn.srcW x1 e := by
  unfold srcV
  rw [shapeCast_1a_a_apply, slice2_axis0_eq]
  rfl

theorem dstV_apply (x1 : IVec S2x3211264 32) (e : Fin 3211264) : dstV x1 (ix1 e) = Gcn.dstW x1 e := by
  unfold dstV
  rw [shapeCast_1a_a_apply, slice2_axis0_eq]
  rfl

/-! ## Degrees and their reciprocal square roots -/

/-- The degree vector: ones scatter-added into zeros at the wrapped destinations, plus one. -/
def degV (x1 : IVec S2x3211264 32) : FVec Ideal S401408 .f32 :=
  addf (Host.scatterAdd scatter_S401408_S3211264x1_S3211264_n_0_0_1
      (broadcastInDim S401408 ![] bcast_S_S401408 (constant (F := Ideal) S_ .f32 0x00000000#32))
      (wrapIdx (dstV x1))
      (broadcastInDim S3211264 ![] bcast_S_S3211264 (constant (F := Ideal) S_ .f32 0x3F800000#32)))
    (broadcastInDim S401408 ![] bcast_S_S401408 (constant (F := Ideal) S_ .f32 0x3F800000#32))

/-- At the ideal values the host's accumulating scatter is the exact sum. -/
theorem scatterAdd_ideal {s si u : Shape} {w : ℕ} (d : ScatterDims s si u) (x : FVec Ideal s .f32) (idx : IVec si w)
    (upd : FVec Ideal u .f32) : Host.scatterAdd d x idx upd = Ideal.hostScatterAdd d x idx upd := rfl

/-- A broadcast scalar constant reads, anywhere, the extended real its word denotes. -/
theorem bcastConst_apply {t : Shape} (h : S_.BroadcastsInDim t (![] : Fin 0 → Fin t.rank)) (b : BitVec 32) (j : t.Idx) :
    broadcastInDim t ![] h (constant (F := Ideal) S_ .f32 b) j = Ideal.ofBits .f32 b := rfl

/-- The vector of ones reads one everywhere. -/
theorem onesE_apply (e : Fin 3211264) :
    broadcastInDim S3211264 ![] bcast_S_S3211264 (constant (F := Ideal) S_ .f32 0x3F800000#32) (ix1 e) = 1 := by
  rw [bcastConst_apply, ofBits_one_f32]

theorem degV_apply (x1 : IVec S2x3211264 32) (p : Fin 401408) :
    degV x1 (ix1 p) = Gcn.degR (Gcn.rhoN Gcn.NN x1) p := by
  unfold degV
  rw [addf_apply, scatterAdd_ideal, bcastConst_apply]
  rw [RowOps.scatterAdd_rows1_apply (N := 401408) (E := 3211264) scatter_S401408_S3211264x1_S3211264_n_0_0_1 rfl rfl rfl rfl]
  rw [bcastConst_apply, Ideal.ofBits_zero_f32, ofBits_one_f32]
  simp only [wrapIdx_apply, dstV_apply]
  rw [Finset.sum_congr rfl (fun e _ => onesE_apply e)]
  rw [← Gcn.deg_eq]
  unfold Gcn.degK Gcn.nodesOf Gcn.rhoN
  rfl

/-- The host's reciprocal square root reads elementwise. -/
theorem hostRsqrt_apply {s : Shape} (x : FVec Ideal s .f32) (i : s.Idx) : Host.rsqrt x i = Ideal.rsqrt (x i) := rfl

/-- The reciprocal square roots of the degrees. -/
def dinvV (x1 : IVec S2x3211264 32) : FVec Ideal S401408 .f32 := Host.rsqrt (degV x1)

theorem dinvV_apply (x1 : IVec S2x3211264 32) (p : Fin 401408) :
    dinvV x1 (ix1 p) = Gcn.dinv (Gcn.rhoN Gcn.NN x1) p := by
  unfold dinvV Gcn.dinv
  rw [hostRsqrt_apply, degV_apply]

/-! ## Edge coefficients and the nodes' own shares -/

/-- An edge's coefficient: the normalisations gathered at its wrapped source and at its wrapped destination, multiplied. -/
def coefV (x1 : IVec S2x3211264 32) : FVec Ideal S3211264 .f32 :=
  mulf (Host.gather gather_S401408_S3211264x1_S3211264_n_0_n_n_0_1_1 (dinvV x1) (wrapIdx (srcV x1)))
    (Host.gather gather_S401408_S3211264x1_S3211264_n_0_n_n_0_1_1 (dinvV x1) (wrapIdx (dstV x1)))

theorem coefV_apply (x1 : IVec S2x3211264 32) (e : Fin 3211264) : coefV x1 (ix1 e) = Gcn.coefG x1 e := by
  unfold coefV
  rw [mulf_apply,
    RowOps.gather_rows1_apply (N := 401408) (E := 3211264) Gcn.NN_pos gather_S401408_S3211264x1_S3211264_n_0_n_n_0_1_1
      rfl rfl rfl rfl rfl rfl rfl (dinvV x1) (wrapIdx (srcV x1)) e,
    RowOps.gather_rows1_apply (N := 401408) (E := 3211264) Gcn.NN_pos gather_S401408_S3211264x1_S3211264_n_0_n_n_0_1_1
      rfl rfl rfl rfl rfl rfl rfl (dinvV x1) (wrapIdx (dstV x1)) e,
    wrapIdx_apply, wrapIdx_apply, srcV_apply, dstV_apply, dinvV_apply, dinvV_apply]
  rfl

/-- A node's own share: its normalisation squared. -/
def d2V (x1 : IVec S2x3211264 32) : FVec Ideal S401408 .f32 := mulf (dinvV x1) (dinvV x1)

theorem d2V_apply (x1 : IVec S2x3211264 32) (p : Fin 401408) : d2V x1 (ix1 p) = Gcn.d2G x1 p := by
  unfold d2V
  rw [mulf_apply, dinvV_apply]
  rfl

/-! ## The first stretch read at an index -/

theorem host0_src (W : Valuation τ sig (Elt Ideal)) (e : Fin 3211264) :
    StableHlo.after hostOps0 W (Proc.devRef .tc main_v1) (ix1 e) = Gcn.srcW (W (Proc.devRef .tc main_arg1)) e := by
  have h : StableHlo.after hostOps0 W (Proc.devRef .tc main_v1) = srcV (W (Proc.devRef .tc main_arg1)) := by
    after_results
    rfl
  rw [h]
  exact srcV_apply _ e

theorem host0_dst (W : Valuation τ sig (Elt Ideal)) (e : Fin 3211264) :
    StableHlo.after hostOps0 W (Proc.devRef .tc main_v3) (ix1 e) = Gcn.dstW (W (Proc.devRef .tc main_arg1)) e := by
  have h : StableHlo.after hostOps0 W (Proc.devRef .tc main_v3) = dstV (W (Proc.devRef .tc main_arg1)) := by
    after_results
    rfl
  rw [h]
  exact dstV_apply _ e

theorem host0_coef (W : Valuation τ sig (Elt Ideal)) (e : Fin 3211264) :
    StableHlo.after hostOps0 W (Proc.devRef .tc main_v30) (ix1 e) = Gcn.coefG (W (Proc.devRef .tc main_arg1)) e := by
  have h : StableHlo.after hostOps0 W (Proc.devRef .tc main_v30) = coefV (W (Proc.devRef .tc main_arg1)) := by
    after_results_simp
    rfl
  rw [h]
  exact coefV_apply _ e

theorem host0_d2 (W : Valuation τ sig (Elt Ideal)) (p : Fin 401408) :
    StableHlo.after hostOps0 W (Proc.devRef .tc main_v31) (ix1 p) = Gcn.d2G (W (Proc.devRef .tc main_arg1)) p := by
  have h : StableHlo.after hostOps0 W (Proc.devRef .tc main_v31) = d2V (W (Proc.devRef .tc main_arg1)) := by
    after_results_simp
    rfl
  rw [h]
  exact d2V_apply _ p

/-! ## Columns -/

/-- A one-axis vector over the edges as a one-column array. -/
def colE {α : Type} (v : S3211264.Idx → α) : S3211264x1.Idx → α :=
  broadcastInDim S3211264x1 ![0] bcast_S3211264_S3211264x1_0 v

theorem colE_apply {α : Type} (v : S3211264.Idx → α) (e : Fin 3211264) (k : Fin 1) : colE v (ix2 e k) = v (ix1 e) :=
  bcastCol_apply (by decide) _ v e k

/-- A one-axis vector over the nodes as a one-column array. -/
def colN {α : Type} (v : S401408.Idx → α) : S401408x1.Idx → α :=
  broadcastInDim S401408x1 ![0] bcast_S401408_S401408x1_0 v

theorem colN_apply {α : Type} (v : S401408.Idx → α) (p : Fin 401408) (k : Fin 1) : colN v (ix2 p k) = v (ix1 p) :=
  bcastCol_apply (by decide) _ v p k

/-! ## The first layer's aggregate (one feature column) -/

/-- The messages: the features gathered at the wrapped sources, times the edge coefficients. -/
def msgV (x1 : IVec S2x3211264 32) (x0 : FVec Ideal S401408x1 .f32) : FVec Ideal S3211264x1 .f32 :=
  mulf (Host.gather gather_S401408x1_S3211264x1_S3211264x1_1_0_n_n_0_1_11 x0 (wrapIdx (srcV x1))) (colE (coefV x1))

theorem msgV_apply (x1 : IVec S2x3211264 32) (x0 : FVec Ideal S401408x1 .f32) (e : Fin 3211264) (k : Fin 1) :
    msgV x1 x0 (ix2 e k) = x0 (ix2 (Gcn.gamS Gcn.NN Gcn.NN_pos x1 e) k) * Gcn.coefG x1 e := by
  unfold msgV
  rw [mulf_apply,
    RowOps.gather_rows_apply (N := 401408) (E := 3211264) (C := 1) Gcn.NN_pos gather_S401408x1_S3211264x1_S3211264x1_1_0_n_n_0_1_11
      rfl rfl rfl rfl rfl rfl rfl x0 (wrapIdx (srcV x1)) e k,
    wrapIdx_apply, srcV_apply, colE_apply, coefV_apply]
  rfl

/-- The aggregate: the messages scatter-added into zeros at the raw destinations, plus the features times the own shares. -/
def aggV (x1 : IVec S2x3211264 32) (x0 : FVec Ideal S401408x1 .f32) : FVec Ideal S401408x1 .f32 :=
  addf (Host.scatterAdd scatter_S401408x1_S3211264x1_S3211264x1_1_0_0_1
      (broadcastInDim S401408x1 ![] bcast_S_S401408x1 (constant (F := Ideal) S_ .f32 0x00000000#32))
      (colE (dstV x1)) (msgV x1 x0))
    (mulf x0 (colN (d2V x1)))

theorem aggV_apply (x1 : IVec S2x3211264 32) (x0 : FVec Ideal S401408x1 .f32) (p : Fin 401408) (k : Fin 1) :
    aggV x1 x0 (ix2 p k) = Gcn.aggG x1 (fun p k => x0 (ix2 p k)) p k := by
  unfold aggV
  rw [addf_apply, scatterAdd_ideal,
    RowOps.scatterAdd_rows_apply (N := 401408) (E := 3211264) (C := 1) scatter_S401408x1_S3211264x1_S3211264x1_1_0_0_1 rfl rfl rfl rfl,
    bcastConst_apply, Ideal.ofBits_zero_f32, zero_add, mulf_apply, colN_apply, d2V_apply]
  simp only [colE_apply, dstV_apply]
  rw [Finset.sum_congr rfl (fun e _ => msgV_apply x1 x0 e k)]
  rfl

theorem host0_agg (W : Valuation τ sig (Elt Ideal)) (p : Fin 401408) (k : Fin 1) :
    StableHlo.after hostOps0 W (Proc.devRef .tc main_v46) (ix2 p k)
      = Gcn.aggG (W (Proc.devRef .tc main_arg1)) (fun p k => W (Proc.devRef .tc main_arg0) (ix2 p k)) p k := by
  have h : StableHlo.after hostOps0 W (Proc.devRef .tc main_v46)
      = aggV (W (Proc.devRef .tc main_arg1)) (W (Proc.devRef .tc main_arg0)) := by
    after_results_simp
    rfl
  rw [h]
  exact aggV_apply _ _ p k

/-! ## The second layer's aggregate (thirty-two feature columns) -/

/-- A one-column array broadcast along its rows reads, at `(e, k)`, the column at `e`. -/
theorem bcastRow_apply {α : Type} {n c : ℕ} (hn : n ≠ 1)
    (h : (⟨2, ![n, 1]⟩ : Shape).BroadcastsInDim ⟨2, ![n, c]⟩ (![0, 1] : Fin 2 → Fin 2))
    (v : (⟨2, ![n, 1]⟩ : Shape).Idx → α) (e : Fin n) (k : Fin c) :
    broadcastInDim ⟨2, ![n, c]⟩ ![0, 1] h v (ix2 e k) = v (ix2 e (0 : Fin 1)) :=
  broadcastInDim_apply _ h v (ix2 e k) (ix2 e (0 : Fin 1)) (fun a => by
    match a with
    | ⟨0, _⟩ =>
      show e.val = if n = 1 then 0 else e.val
      rw [if_neg hn]
    | ⟨1, _⟩ =>
      show (0 : ℕ) = if (1 : ℕ) = 1 then 0 else k.val
      rw [if_pos rfl])

/-- The messages: the feature rows gathered at the wrapped sources, each scaled by its edge's coefficient. -/
def msg1V (v1 : IVec S3211264 32) (c : FVec Ideal S3211264 .f32) (feat : FVec Ideal S401408x32 .f32) :
    FVec Ideal S3211264x32 .f32 :=
  mulf (Host.gather gather_S401408x32_S3211264x1_S3211264x32_1_0_n_n_0_1_132 feat (wrapIdx v1))
    (broadcastInDim S3211264x32 ![0, 1] bcast_S3211264x1_S3211264x32_0_1 (colE c))

theorem msg1V_apply (v1 : IVec S3211264 32) (c : FVec Ideal S3211264 .f32) (feat : FVec Ideal S401408x32 .f32)
    (e : Fin 3211264) (k : Fin 32) :
    msg1V v1 c feat (ix2 e k)
      = feat (ix2 (RowOps.clampRow 401408 Gcn.NN_pos (Gcn.normW 401408 (v1 (ix1 e)))) k) * c (ix1 e) := by
  unfold msg1V
  rw [mulf_apply,
    RowOps.gather_rows_apply (N := 401408) (E := 3211264) (C := 32) Gcn.NN_pos gather_S401408x32_S3211264x1_S3211264x32_1_0_n_n_0_1_132
      rfl rfl rfl rfl rfl rfl rfl feat (wrapIdx v1) e k,
    wrapIdx_apply, bcastRow_apply (by decide), colE_apply]

/-- The aggregate: the messages scatter-added into zeros at the raw destinations, plus the feature rows times the own shares. -/
def agg1V (v1 v3 : IVec S3211264 32) (c : FVec Ideal S3211264 .f32) (d2 : FVec Ideal S401408 .f32)
    (feat : FVec Ideal S401408x32 .f32) : FVec Ideal S401408x32 .f32 :=
  addf (Host.scatterAdd scatter_S401408x32_S3211264x1_S3211264x32_1_0_0_1
      (broadcastInDim S401408x32 ![] bcast_S_S401408x32 (constant (F := Ideal) S_ .f32 0x00000000#32))
      (colE v3) (msg1V v1 c feat))
    (mulf feat (broadcastInDim S401408x32 ![0, 1] bcast_S401408x1_S401408x32_0_1 (colN d2)))

theorem agg1V_apply (v1 v3 : IVec S3211264 32) (c : FVec Ideal S3211264 .f32) (d2 : FVec Ideal S401408 .f32)
    (feat : FVec Ideal S401408x32 .f32) (p : Fin 401408) (k : Fin 32) :
    agg1V v1 v3 c d2 feat (ix2 p k)
      = Gcn.aggK (fun e => RowOps.rowOf 401408 (v3 (ix1 e)))
          (fun e => RowOps.clampRow 401408 Gcn.NN_pos (Gcn.normW 401408 (v1 (ix1 e))))
          (fun e => c (ix1 e)) (fun p => d2 (ix1 p)) (fun p k => feat (ix2 p k)) p k := by
  unfold agg1V
  rw [addf_apply, scatterAdd_ideal,
    RowOps.scatterAdd_rows_apply (N := 401408) (E := 3211264) (C := 32) scatter_S401408x32_S3211264x1_S3211264x32_1_0_0_1 rfl rfl rfl rfl,
    bcastConst_apply, Ideal.ofBits_zero_f32, zero_add, mulf_apply, bcastRow_apply (by decide), colN_apply]
  simp only [colE_apply]
  rw [Finset.sum_congr rfl (fun e _ => msg1V_apply v1 c feat e k)]
  rfl

theorem host1_agg (W : Valuation τ sig (Elt Ideal)) (p : Fin 401408) (k : Fin 32) :
    StableHlo.after hostOps1 W (Proc.devRef .tc main_v64) (ix2 p k)
      = Gcn.aggK (fun e => RowOps.rowOf 401408 (W (Proc.devRef .tc main_v3) (ix1 e)))
          (fun e => RowOps.clampRow 401408 Gcn.NN_pos (Gcn.normW 401408 (W (Proc.devRef .tc main_v1) (ix1 e))))
          (fun e => W (Proc.devRef .tc main_v30) (ix1 e)) (fun p => W (Proc.devRef .tc main_v31) (ix1 p))
          (fun p k => W (Proc.devRef .tc main_v47) (ix2 p k)) p k := by
  have h : StableHlo.after hostOps1 W (Proc.devRef .tc main_v64)
      = agg1V (W (Proc.devRef .tc main_v1)) (W (Proc.devRef .tc main_v3)) (W (Proc.devRef .tc main_v30))
          (W (Proc.devRef .tc main_v31)) (W (Proc.devRef .tc main_v47)) := by
    after_results_simp
    rfl
  rw [h]
  exact agg1V_apply _ _ _ _ _ p k

/-! ## The flattening before the head -/

theorem host2_flat (W : Valuation τ sig (Elt Ideal)) (r : Fin 512) (s : Fin 50176) :
    StableHlo.after hostOps2 W (Proc.devRef .tc main_v66) (ix2 r s)
      = W (Proc.devRef .tc main_v65) (ix2 ⟨r.val * 784 + s.val / 64, by have := r.isLt; have := s.isLt; omega⟩
          ⟨s.val % 64, Nat.mod_lt _ (by decide)⟩) := by
  after_results
  show shapeCast S512x50176 (W (Proc.devRef .tc main_v65)) shapeCasts_S401408x64_S512x50176 (ix2 r s) = _
  refine shapeCast_apply (s := S401408x64) (t := S512x50176) _ _ _ _ ?_
  show (S401408x64.rowMajor _).val = (S512x50176.rowMajor _).val
  rw [Shape.rowMajor_val_two (d := ![401408, 64]), Shape.rowMajor_val_two (d := ![512, 50176])]
  show (r.val * 784 + s.val / 64) * 64 + s.val % 64 = r.val * 50176 + s.val
  omega

end Cert.KernelIdeal.Host

end
-- ==== Proof.KIVal01.lean ====
/-
  What regions 0 and 1 of the program leave in their result arrays, entry by entry, at the ideal values. Each region is
  one layer's projection relu (x · W + b) over the 401408 nodes, computed 8192 rows at a time at 49 grid points: region 0
  with x of 1 column and W of 1 x 32, region 1 with x of 32 columns and W of 32 x 64.

  For each region: the block product at an entry is the sum over the contracted axis of row entry times column entry
  (the four facts saying which operand coordinates meet at an output entry, then the sum re-indexed by its one
  coordinate); the bias, reshaped to one row and spread over the rows, is the bias at the entry's column; so what the
  body stores at (p, q) is max (sum_k x(p,k) * w(k,q) + b(q)) 0. At grid point t the features' and the result's block is
  rows 8192 t to 8192 t + 8191 and the weights' and bias's block is the whole array, so what point t writes back is block
  t of one function of the arrays as the region finds them (the layer, by row and column). Row r lies in the block of
  point r / 8192 and every point writes back, so the blocks cover the result array and it ends holding the layer; an
  input array is never written and ends as it was found.
-/
import proofs.«400340_j61014305407058_4_alg».proof.Proof.KIRegion0
import proofs.«400340_j61014305407058_4_alg».proof.Proof.KIRegion1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix product of a block: which operand entries meet at an output entry -/

/-- The left operand's row is the output's row. -/
theorem lhs_row (i : S8192x32.Idx) (q : dot_S8192x1_S1x32_S8192x32_1_0_0_1_n_n.contr.Idx) :
    (dot_S8192x1_S1x32_S8192x32_1_0_0_1_n_n.lhsIdx i q 0).val = (i 0).val := by
  unfold DotDims.lhsIdx
  rw [dif_neg (show ¬(0 : Fin S8192x1.rank) ∈ dot_S8192x1_S1x32_S8192x32_1_0_0_1_n_n.lhsBatch by decide), dif_pos (show (0 : Fin S8192x1.rank) ∈ dot_S8192x1_S1x32_S8192x32_1_0_0_1_n_n.lhsNonContracting by decide)]
  rfl
/-- The left operand's column is the summation index. -/
theorem lhs_col (i : S8192x32.Idx) (q : dot_S8192x1_S1x32_S8192x32_1_0_0_1_n_n.contr.Idx) :
    (dot_S8192x1_S1x32_S8192x32_1_0_0_1_n_n.lhsIdx i q 1).val = (q ⟨0, by decide⟩).val :=
  dot_S8192x1_S1x32_S8192x32_1_0_0_1_n_n.lhsIdx_val_of_single rfl i q
/-- The right operand's row is the summation index. -/
theorem rhs_row (i : S8192x32.Idx) (q : dot_S8192x1_S1x32_S8192x32_1_0_0_1_n_n.contr.Idx) :
    (dot_S8192x1_S1x32_S8192x32_1_0_0_1_n_n.rhsIdx i q 0).val = (q ⟨0, by decide⟩).val :=
  dot_S8192x1_S1x32_S8192x32_1_0_0_1_n_n.rhsIdx_val_of_single rfl i q
/-- The right operand's column is the output's column. -/
theorem rhs_col (i : S8192x32.Idx) (q : dot_S8192x1_S1x32_S8192x32_1_0_0_1_n_n.contr.Idx) :
    (dot_S8192x1_S1x32_S8192x32_1_0_0_1_n_n.rhsIdx i q 1).val = (i 1).val := by
  unfold DotDims.rhsIdx
  rw [dif_neg (show ¬(1 : Fin S1x32.rank) ∈ dot_S8192x1_S1x32_S8192x32_1_0_0_1_n_n.rhsBatch by decide), dif_pos (show (1 : Fin S1x32.rank) ∈ dot_S8192x1_S1x32_S8192x32_1_0_0_1_n_n.rhsNonContracting by decide)]
  rfl

/-- The product of an [8192,1] block and a [1,32] block accumulated into zero, at an entry: the one-term sum. -/
theorem matmul_at (x : FVec Ideal S8192x1 .f32) (w : FVec Ideal S1x32 .f32) (p : Fin 8192) (q : Fin 32) :
    matmul dot_S8192x1_S1x32_S8192x32_1_0_0_1_n_n none x w (constant (F := Ideal) S8192x32 .f32 0x00000000#32) (ix2 p q)
      = ∑ k : Fin 1, x (ix2 p k) * w (ix2 k q) := by
  refine (Ideal.matmul_constant_zero_apply dot_S8192x1_S1x32_S8192x32_1_0_0_1_n_n none x w (ix2 p q)).trans ?_
  rw [← Equiv.sum_comp (contrEquiv1 dot_S8192x1_S1x32_S8192x32_1_0_0_1_n_n 1 rfl rfl).symm]
  refine Finset.sum_congr rfl fun k _ => ?_
  have hk := contrEquiv1_symm_val dot_S8192x1_S1x32_S8192x32_1_0_0_1_n_n 1 rfl rfl k
  have el : dot_S8192x1_S1x32_S8192x32_1_0_0_1_n_n.lhsIdx (ix2 p q) ((contrEquiv1 dot_S8192x1_S1x32_S8192x32_1_0_0_1_n_n 1 rfl rfl).symm k) = ix2 p k := funext fun a => Fin.ext (by
    match a with
    | ⟨0, _⟩ => exact lhs_row _ _
    | ⟨1, _⟩ => exact (lhs_col _ _).trans hk)
  have er : dot_S8192x1_S1x32_S8192x32_1_0_0_1_n_n.rhsIdx (ix2 p q) ((contrEquiv1 dot_S8192x1_S1x32_S8192x32_1_0_0_1_n_n 1 rfl rfl).symm k) = ix2 k q := funext fun a => Fin.ext (by
    match a with
    | ⟨0, _⟩ => exact (rhs_row _ _).trans hk
    | ⟨1, _⟩ => exact rhs_col _ _)
  rw [el, er]

/-- The bias as a [1,32] row spread over the 8192 rows, at an entry: the bias at the entry's column. -/
theorem bias_at (b : FVec Ideal S32 .f32) (p : Fin 8192) (q : Fin 32) :
    broadcastTo S8192x32 (shapeCast S1x32 b shapeCasts_S32_S1x32) broadcasts_S1x32_S8192x32 (ix2 p q) = b (ix1 q) := by
  refine (broadcastTo_apply _ broadcasts_S1x32_S8192x32 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (32 : Nat) = 1 then 0 else q.val; rw [if_neg (by decide)]
  · refine shapeCast_apply b shapeCasts_S32_S1x32 (ix2 (0 : Fin 1) q) (ix1 q) ?_
    rewrite [Shape.rowMajor_val_two, Shape.rowMajor_val_one]
    show q.val = 0 * 32 + q.val
    omega

/-- What the body stores, at an entry: relu of the row of x times the column of w plus the bias. -/
theorem pay_at (x : Vec Ideal S8192x1 .f32) (w : Vec Ideal S1x32 .f32) (b : Vec Ideal S32 .f32) (p : Fin 8192) (q : Fin 32) :
    k0_pay1 (F := Ideal) x w b (ix2 p q) = max ((∑ k : Fin 1, x (ix2 p k) * w (ix2 k q)) + b (ix1 q)) 0 := by
  unfold k0_pay1
  rw [maximumf_apply, addf_apply, broadcast_apply, shapeCast_self, matmul_at, bias_at]
  exact congrArg (max _) Ideal.ofBits_zero_f32

/-- The same at any entry of the block, by its two coordinates. -/
theorem pay_apply (x : Vec Ideal S8192x1 .f32) (w : Vec Ideal S1x32 .f32) (b : Vec Ideal S32 .f32) (y : S8192x32.Idx) :
    k0_pay1 (F := Ideal) x w b y = max ((∑ k : Fin 1, x (ix2 (y 0) k) * w (ix2 k (y 1))) + b (ix1 (y 1))) 0 := by
  obtain ⟨p, q, rfl⟩ : ∃ (p : Fin 8192) (q : Fin 32), y = ix2 p q := ⟨y 0, y 1, eq_ix2 y⟩
  exact pay_at x w b p q

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer at row p and column q of the whole arrays: relu of row p of the features times column q of the weights
    plus the bias at q. -/
def layer (a : S401408x1.Idx → Elt Ideal .f32) (w : S1x32.Idx → Elt Ideal .f32) (b : S32.Idx → Elt Ideal .f32)
    (p : Fin 401408) (q : Fin 32) : Elt Ideal .f32 :=
  max ((∑ k : Fin 1, a (ix2 p k) * w (ix2 k q)) + b (ix1 q)) 0

/-- The layer as contents of the [401408,32] result array. -/
def layerArr (a : S401408x1.Idx → Elt Ideal .f32) (w : S1x32.Idx → Elt Ideal .f32) (b : S32.Idx → Elt Ideal .f32) :
    S401408x32.Idx → Elt Ideal .f32 := fun i => layer a w b (i 0) (i 1)

/-- The grid has 49 points. -/
theorem N_eq : cfg0.N = 49 := by decide

/-- Where each window's block sits at point t: the features' and the result's block is the t-th of 8192 rows; the
    weights' and the bias's is the whole array. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The features' block at point t is rows 8192 t … 8192 t + 8191 of the array. -/
theorem feat_block (c : Dev nD) (t : Fin cfg0.N) (y : S8192x1.Idx) (i : S401408x1.Idx)
    (h0 : (i 0).val = t.val * 8192 + (y 0).val) (h1 : (i 1).val = (y 1).val) :
    (R0.blk V c 0 t : Vec Ideal S8192x1 .f32) y = (V c main_v46 : S401408x1.Idx → Elt Ideal .f32) i := by
  obtain ⟨e0, e1, -⟩ := block_index t
  unfold R0.blk
  rw [View.read_apply]
  show V c main_v46 _ = V c main_v46 _
  congr 1
  funext a
  apply Fin.ext
  match a with
  | ⟨0, _⟩ => show win0_0.index t (0 : Fin 2) * 8192 + 1 * (y 0).val = (i 0).val; rw [e0, h0]; omega
  | ⟨1, _⟩ => show win0_0.index t (1 : Fin 2) * 1 + 1 * (y 1).val = (i 1).val; rw [e1, h1]; omega

/-- The weights' block at every point is the whole array. -/
theorem weight_block (c : Dev nD) (t : Fin cfg0.N) (y : S1x32.Idx) :
    (R0.blk V c 1 t : Vec Ideal S1x32 .f32) y = (V c main_arg2 : S1x32.Idx → Elt Ideal .f32) y := by
  obtain ⟨-, -, e0, e1, -⟩ := block_index t
  unfold R0.blk
  rw [View.read_apply]
  show V c main_arg2 _ = V c main_arg2 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 32 + 1 * (y 1).val = (y 1).val; rw [e1]; omega

/-- The bias's block at every point is the whole array. -/
theorem bias_block (c : Dev nD) (t : Fin cfg0.N) (y : S32.Idx) :
    (R0.blk V c 2 t : Vec Ideal S32 .f32) y = (V c main_arg3 : S32.Idx → Elt Ideal .f32) y := by
  obtain ⟨-, -, -, -, e0, -⟩ := block_index t
  unfold R0.blk
  rw [View.read_apply]
  show V c main_arg3 _ = V c main_arg3 _
  congr 1
  funext a
  apply Fin.ext
  match a with
  | ⟨0, _⟩ => show win0_2.index t (0 : Fin 1) * 32 + 1 * (y 0).val = (y 0).val; rw [e0]; omega

/-- What point t writes back is block t of the layer of the arrays as the region finds them. -/
theorem flushed_eq (c : Dev nD) (t : Fin cfg0.N) :
    (R0.dat V c).flushed 3 t
      = ((cfg0.win 3).blk t).view.read (Elt Ideal) (layerArr (V c main_v46) (V c main_arg2) (V c main_arg3)) := by
  show (cfg0.win 3).cut (grid0.coords t) ((R0.dat V c).after 3 t) = _
  rw [R0.after_3]
  unfold R0.outBlk
  rw [View.canon_unit_zero zero2]
  simp only [View.ld_unit_zero (S := S8192x1) zero2, View.ld_unit_zero (S := S1x32) zero2, View.ld_unit_zero (S := S32) zero1]
  obtain ⟨-, -, -, -, -, e0, e1⟩ := block_index t
  funext j
  rw [View.read_apply]
  show k0_pay1 (F := Ideal) (R0.blk V c 0 t) (R0.blk V c 1 t) (R0.blk V c 2 t) (win0_3.xinj (grid0.coords t) j) = _
  refine (pay_apply _ _ _ _).trans ?_
  unfold layerArr layer
  refine congrArg₂ max (congrArg₂ (· + ·) (Finset.sum_congr rfl fun k _ => congrArg₂ (· * ·) ?_ ?_) ?_) rfl
  · refine feat_block V c t _ _ ?_ rfl
    show win0_3.index t (0 : Fin 2) * 8192 + 1 * (j 0).val = t.val * 8192 + (j 0).val
    rw [e0]; omega
  · refine (weight_block V c t _).trans (congrArg _ (funext fun a => Fin.ext ?_))
    match a with
    | ⟨0, _⟩ => rfl
    | ⟨1, _⟩ => show (j 1).val = win0_3.index t (1 : Fin 2) * 32 + 1 * (j 1).val; rw [e1]; omega
  · refine (bias_block V c t _).trans (congrArg _ (funext fun a => Fin.ext ?_))
    match a with
    | ⟨0, _⟩ => show (j 1).val = win0_3.index t (1 : Fin 2) * 32 + 1 * (j 1).val; rw [e1]; omega

/-- An entry of the result array is in point t's block iff each coordinate is in the block's range on its axis. -/
theorem mem_block (t : Fin cfg0.N) (i : S401408x32.Idx) :
    i ∈ ((cfg0.win 3).blk t).view.set ↔ ∀ a : Fin 2, win0_3.index t a * S8192x32.size a ≤ (i a).val ∧ (i a).val < win0_3.index t a * S8192x32.size a + S8192x32.size a := by
  show i ∈ ((View.whole main_v47).slice (win0_3.rect t)).set ↔ _
  rw [View.set_slice_whole, Rect.mem_set_unit]
  exact Iff.rfl

/-- Row r of the result is written by point r / 8192. -/
theorem covered (i : S401408x32.Idx) :
    ∃ t : Fin cfg0.N, (cfg0.win 3).flush t = true ∧ i ∈ ((cfg0.win 3).blk t).view.set := by
  have hi0 : (i 0).val < 401408 := (i 0).isLt
  have hi1 : (i 1).val < 32 := (i 1).isLt
  have hN := N_eq
  let t : Fin cfg0.N := ⟨(i 0).val / 8192, by rw [hN]; omega⟩
  obtain ⟨-, -, -, -, -, e0, e1⟩ := block_index t
  have ht : t.val = (i 0).val / 8192 := rfl
  refine ⟨t, flush0_3 t, ?_⟩
  rw [mem_block]
  intro a
  match a with
  | ⟨0, _⟩ => show win0_3.index t (0 : Fin 2) * 8192 ≤ (i 0).val ∧ (i 0).val < win0_3.index t (0 : Fin 2) * 8192 + 8192; rw [e0, ht]; omega
  | ⟨1, _⟩ => show win0_3.index t (1 : Fin 2) * 32 ≤ (i 1).val ∧ (i 1).val < win0_3.index t (1 : Fin 2) * 32 + 32; rw [e1]; omega

/-- The result array after the region: the layer of the arrays as the region finds them. -/
theorem out_arr (c : Dev nD) :
    (R0.dat V c).arrAt 3 cfg0.N = layerArr (V c main_v46) (V c main_arg2) (V c main_arg3) :=
  (R0.dat V c).arrAt_eq_of_cover 3 _ (fun t _ => flushed_eq V c t) covered

end Cert.KernelIdeal.Val0

namespace Cert.KernelIdeal.Val1

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix product of a block: which operand entries meet at an output entry -/

/-- The left operand's row is the output's row. -/
theorem lhs_row (i : S8192x64.Idx) (q : dot_S8192x32_S32x64_S8192x64_1_0_0_1_n_n.contr.Idx) :
    (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
/-- The left operand's column is the summation index. -/
theorem lhs_col (i : S8192x64.Idx) (q : dot_S8192x32_S32x64_S8192x64_1_0_0_1_n_n.contr.Idx) :
    (dot_S8192x32_S32x64_S8192x64_1_0_0_1_n_n.lhsIdx i q 1).val = (q ⟨0, by decide⟩).val :=
  dot_S8192x32_S32x64_S8192x64_1_0_0_1_n_n.lhsIdx_val_of_single rfl i q
/-- The right operand's row is the summation index. -/
theorem rhs_row (i : S8192x64.Idx) (q : dot_S8192x32_S32x64_S8192x64_1_0_0_1_n_n.contr.Idx) :
    (dot_S8192x32_S32x64_S8192x64_1_0_0_1_n_n.rhsIdx i q 0).val = (q ⟨0, by decide⟩).val :=
  dot_S8192x32_S32x64_S8192x64_1_0_0_1_n_n.rhsIdx_val_of_single rfl i q
/-- The right operand's column is the output's column. -/
theorem rhs_col (i : S8192x64.Idx) (q : dot_S8192x32_S32x64_S8192x64_1_0_0_1_n_n.contr.Idx) :
    (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- The product of an [8192,32] block and the [32,64] weights accumulated into zero, at an entry: the sum over the 32
    hidden features. -/
theorem matmul_at (x : FVec Ideal S8192x32 .f32) (w : FVec Ideal S32x64 .f32) (p : Fin 8192) (q : Fin 64) :
    matmul dot_S8192x32_S32x64_S8192x64_1_0_0_1_n_n none x w (constant (F := Ideal) S8192x64 .f32 0x00000000#32) (ix2 p q)
      = ∑ k : Fin 32, x (ix2 p k) * w (ix2 k q) := by
  refine (Ideal.matmul_constant_zero_apply dot_S8192x32_S32x64_S8192x64_1_0_0_1_n_n none x w (ix2 p q)).trans ?_
  rw [← Equiv.sum_comp (contrEquiv1 dot_S8192x32_S32x64_S8192x64_1_0_0_1_n_n 32 rfl rfl).symm]
  refine Finset.sum_congr rfl fun k _ => ?_
  have hk := contrEquiv1_symm_val dot_S8192x32_S32x64_S8192x64_1_0_0_1_n_n 32 rfl rfl k
  have el : dot_S8192x32_S32x64_S8192x64_1_0_0_1_n_n.lhsIdx (ix2 p q) ((contrEquiv1 dot_S8192x32_S32x64_S8192x64_1_0_0_1_n_n 32 rfl rfl).symm k) = ix2 p k := funext fun a => Fin.ext (by
    match a with
    | ⟨0, _⟩ => exact lhs_row _ _
    | ⟨1, _⟩ => exact (lhs_col _ _).trans hk)
  have er : dot_S8192x32_S32x64_S8192x64_1_0_0_1_n_n.rhsIdx (ix2 p q) ((contrEquiv1 dot_S8192x32_S32x64_S8192x64_1_0_0_1_n_n 32 rfl rfl).symm k) = ix2 k q := funext fun a => Fin.ext (by
    match a with
    | ⟨0, _⟩ => exact (rhs_row _ _).trans hk
    | ⟨1, _⟩ => exact rhs_col _ _)
  rw [el, er]

/-- The bias as a [1,64] row spread over the 8192 rows, at an entry: the bias at the entry's column. -/
theorem bias_at (b : FVec Ideal S64 .f32) (p : Fin 8192) (q : Fin 64) :
    broadcastTo S8192x64 (shapeCast S1x64 b shapeCasts_S64_S1x64) broadcasts_S1x64_S8192x64 (ix2 p q) = b (ix1 q) := by
  refine (broadcastTo_apply _ broadcasts_S1x64_S8192x64 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (64 : Nat) = 1 then 0 else q.val; rw [if_neg (by decide)]
  · refine shapeCast_apply b shapeCasts_S64_S1x64 (ix2 (0 : Fin 1) q) (ix1 q) ?_
    rewrite [Shape.rowMajor_val_two, Shape.rowMajor_val_one]
    show q.val = 0 * 64 + q.val
    omega

/-- What the body stores, at an entry: relu of the row of x times the column of w plus the bias. -/
theorem pay_at (x : Vec Ideal S8192x32 .f32) (w : Vec Ideal S32x64 .f32) (b : Vec Ideal S64 .f32) (p : Fin 8192) (q : Fin 64) :
    k1_pay1 (F := Ideal) x w b (ix2 p q) = max ((∑ k : Fin 32, x (ix2 p k) * w (ix2 k q)) + b (ix1 q)) 0 := by
  unfold k1_pay1
  rw [maximumf_apply, addf_apply, broadcast_apply, shapeCast_self, matmul_at, bias_at]
  exact congrArg (max _) Ideal.ofBits_zero_f32

/-- The same at any entry of the block, by its two coordinates. -/
theorem pay_apply (x : Vec Ideal S8192x32 .f32) (w : Vec Ideal S32x64 .f32) (b : Vec Ideal S64 .f32) (y : S8192x64.Idx) :
    k1_pay1 (F := Ideal) x w b y = max ((∑ k : Fin 32, x (ix2 (y 0) k) * w (ix2 k (y 1))) + b (ix1 (y 1))) 0 := by
  obtain ⟨p, q, rfl⟩ : ∃ (p : Fin 8192) (q : Fin 64), y = ix2 p q := ⟨y 0, y 1, eq_ix2 y⟩
  exact pay_at x w b p q

/-! ## From the blocks to the array -/

variable (V : (c : Dev nD) → (b : Ref sig .tc) → Buf (Elt Ideal) ((c : Thread nD τ).loc b))

/-- The layer at row p and column q of the whole arrays: relu of row p of the features times column q of the weights
    plus the bias at q. -/
def layer (a : S401408x32.Idx → Elt Ideal .f32) (w : S32x64.Idx → Elt Ideal .f32) (b : S64.Idx → Elt Ideal .f32)
    (p : Fin 401408) (q : Fin 64) : Elt Ideal .f32 :=
  max ((∑ k : Fin 32, a (ix2 p k) * w (ix2 k q)) + b (ix1 q)) 0

/-- The layer as contents of the [401408,64] result array. -/
def layerArr (a : S401408x32.Idx → Elt Ideal .f32) (w : S32x64.Idx → Elt Ideal .f32) (b : S64.Idx → Elt Ideal .f32) :
    S401408x64.Idx → Elt Ideal .f32 := fun i => layer a w b (i 0) (i 1)

/-- The grid has 49 points. -/
theorem N_eq : cfg1.N = 49 := by decide

/-- Where each window's block sits at point t: the features' and the result's block is the t-th of 8192 rows; the
    weights' and the bias's is the whole array. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The features' block at point t is rows 8192 t … 8192 t + 8191 of the array, all 32 columns. -/
theorem feat_block (c : Dev nD) (t : Fin cfg1.N) (y : S8192x32.Idx) (i : S401408x32.Idx)
    (h0 : (i 0).val = t.val * 8192 + (y 0).val) (h1 : (i 1).val = (y 1).val) :
    (R1.blk V c 0 t : Vec Ideal S8192x32 .f32) y = (V c main_v64 : S401408x32.Idx → Elt Ideal .f32) i := by
  obtain ⟨e0, e1, -⟩ := block_index t
  unfold R1.blk
  rw [View.read_apply]
  show V c main_v64 _ = V c main_v64 _
  congr 1
  funext a
  apply Fin.ext
  match a with
  | ⟨0, _⟩ => show win1_0.index t (0 : Fin 2) * 8192 + 1 * (y 0).val = (i 0).val; rw [e0, h0]; omega
  | ⟨1, _⟩ => show win1_0.index t (1 : Fin 2) * 32 + 1 * (y 1).val = (i 1).val; rw [e1, h1]; omega

/-- The weights' block at every point is the whole array. -/
theorem weight_block (c : Dev nD) (t : Fin cfg1.N) (y : S32x64.Idx) :
    (R1.blk V c 1 t : Vec Ideal S32x64 .f32) y = (V c main_arg4 : S32x64.Idx → Elt Ideal .f32) y := by
  obtain ⟨-, -, e0, e1, -⟩ := block_index t
  unfold R1.blk
  rw [View.read_apply]
  show V c main_arg4 _ = V c main_arg4 _
  congr 1
  funext a
  apply Fin.ext
  match a with
  | ⟨0, _⟩ => show win1_1.index t (0 : Fin 2) * 32 + 1 * (y 0).val = (y 0).val; rw [e0]; omega
  | ⟨1, _⟩ => show win1_1.index t (1 : Fin 2) * 64 + 1 * (y 1).val = (y 1).val; rw [e1]; omega

/-- The bias's block at every point is the whole array. -/
theorem bias_block (c : Dev nD) (t : Fin cfg1.N) (y : S64.Idx) :
    (R1.blk V c 2 t : Vec Ideal S64 .f32) y = (V c main_arg5 : S64.Idx → Elt Ideal .f32) y := by
  obtain ⟨-, -, -, -, e0, -⟩ := block_index t
  unfold R1.blk
  rw [View.read_apply]
  show V c main_arg5 _ = V c main_arg5 _
  congr 1
  funext a
  apply Fin.ext
  match a with
  | ⟨0, _⟩ => show win1_2.index t (0 : Fin 1) * 64 + 1 * (y 0).val = (y 0).val; rw [e0]; omega

/-- What point t writes back is block t of the layer of the arrays as the region finds them. -/
theorem flushed_eq (c : Dev nD) (t : Fin cfg1.N) :
    (R1.dat V c).flushed 3 t
      = ((cfg1.win 3).blk t).view.read (Elt Ideal) (layerArr (V c main_v64) (V c main_arg4) (V c main_arg5)) := by
  show (cfg1.win 3).cut (grid1.coords t) ((R1.dat V c).after 3 t) = _
  rw [R1.after_3]
  unfold R1.outBlk
  rw [View.canon_unit_zero Val0.zero2]
  simp only [View.ld_unit_zero (S := S8192x32) Val0.zero2, View.ld_unit_zero (S := S32x64) Val0.zero2, View.ld_unit_zero (S := S64) Val0.zero1]
  obtain ⟨-, -, -, -, -, e0, e1⟩ := block_index t
  funext j
  rw [View.read_apply]
  show k1_pay1 (F := Ideal) (R1.blk V c 0 t) (R1.blk V c 1 t) (R1.blk V c 2 t) (win1_3.xinj (grid1.coords t) j) = _
  refine (pay_apply _ _ _ _).trans ?_
  unfold layerArr layer
  refine congrArg₂ max (congrArg₂ (· + ·) (Finset.sum_congr rfl fun k _ => congrArg₂ (· * ·) ?_ ?_) ?_) rfl
  · refine feat_block V c t _ _ ?_ rfl
    show win1_3.index t (0 : Fin 2) * 8192 + 1 * (j 0).val = t.val * 8192 + (j 0).val
    rw [e0]; omega
  · refine (weight_block V c t _).trans (congrArg _ (funext fun a => Fin.ext ?_))
    match a with
    | ⟨0, _⟩ => rfl
    | ⟨1, _⟩ => show (j 1).val = win1_3.index t (1 : Fin 2) * 64 + 1 * (j 1).val; rw [e1]; omega
  · refine (bias_block V c t _).trans (congrArg _ (funext fun a => Fin.ext ?_))
    match a with
    | ⟨0, _⟩ => show (j 1).val = win1_3.index t (1 : Fin 2) * 64 + 1 * (j 1).val; rw [e1]; omega

/-- An entry of the result array is in point t's block iff each coordinate is in the block's range on its axis. -/
theorem mem_block (t : Fin cfg1.N) (i : S401408x64.Idx) :
    i ∈ ((cfg1.win 3).blk t).view.set ↔ ∀ a : Fin 2, win1_3.index t a * S8192x64.size a ≤ (i a).val ∧ (i a).val < win1_3.index t a * S8192x64.size a + S8192x64.size a := by
  show i ∈ ((View.whole main_v65).slice (win1_3.rect t)).set ↔ _
  rw [View.set_slice_whole, Rect.mem_set_unit]
  exact Iff.rfl

/-- Row r of the result is written by point r / 8192. -/
theorem covered (i : S401408x64.Idx) :
    ∃ t : Fin cfg1.N, (cfg1.win 3).flush t = true ∧ i ∈ ((cfg1.win 3).blk t).view.set := by
  have hi0 : (i 0).val < 401408 := (i 0).isLt
  have hi1 : (i 1).val < 64 := (i 1).isLt
  have hN := N_eq
  let t : Fin cfg1.N := ⟨(i 0).val / 8192, by rw [hN]; omega⟩
  obtain ⟨-, -, -, -, -, e0, e1⟩ := block_index t
  have ht : t.val = (i 0).val / 8192 := rfl
  refine ⟨t, flush1_3 t, ?_⟩
  rw [mem_block]
  intro a
  match a with
  | ⟨0, _⟩ => show win1_3.index t (0 : Fin 2) * 8192 ≤ (i 0).val ∧ (i 0).val < win1_3.index t (0 : Fin 2) * 8192 + 8192; rw [e0, ht]; omega
  | ⟨1, _⟩ => show win1_3.index t (1 : Fin 2) * 64 ≤ (i 1).val ∧ (i 1).val < win1_3.index t (1 : Fin 2) * 64 + 64; rw [e1]; omega

/-- The result array after the region: the layer of the arrays as the region finds them. -/
theorem out_arr (c : Dev nD) :
    (R1.dat V c).arrAt 3 cfg1.N = layerArr (V c main_v64) (V c main_arg4) (V c main_arg5) :=
  (R1.dat V c).arrAt_eq_of_cover 3 _ (fun t _ => flushed_eq V c t) covered

end Cert.KernelIdeal.Val1

namespace Cert.KernelIdeal

open Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The extended reals, as the element type of a float32 buffer at the ideal instance. An entry of an array has this
    type only after its array's declaration is unfolded, so the statements below name it on their operations. -/
local notation "𝔼" => Elt Ideal EltTy.f32

/-- After region 0 its result array holds, at row p and column q, relu of row p of the aggregated features times
    column q of the first weights plus the first bias at q. -/
theorem R0_out (c : Dev nD) (p : Fin 401408) (q : Fin 32) :
    @Eq 𝔼 ((Cert.KernelIdeal.R0.dat V c).arrAt 3 cfg0.N (ix2 p q))
      (@max 𝔼 _ (@HAdd.hAdd 𝔼 𝔼 𝔼 _ (∑ k : Fin 1, @HMul.hMul 𝔼 𝔼 𝔼 _ (V c main_v46 (ix2 p k)) (V c main_arg2 (ix2 k q)))
        (V c main_arg3 (ix1 q))) 0) :=
  congrFun (Val0.out_arr V c) (ix2 p q)

/-- Region 0 leaves its three input arrays as it found them. -/
theorem R0_in (c : Dev nD) (w : Fin cfg0.W) (hw : w ≠ 3) :
    (Cert.KernelIdeal.R0.dat V c).arrAt w cfg0.N = V c (Pipeline.arrRef spec0 w) := by
  have hin : (cfg0.win w).isOut = false := by
    revert hw; revert w; decide
  rw [Dat.arrAt_in _ w hin, R0.A_eq]

/-- After region 1 its result array holds, at row p and column q, relu of row p of the second layer's aggregated
    features times column q of the second weights plus the second bias at q. -/
theorem R1_out (c : Dev nD) (p : Fin 401408) (q : Fin 64) :
    @Eq 𝔼 ((Cert.KernelIdeal.R1.dat V c).arrAt 3 cfg1.N (ix2 p q))
      (@max 𝔼 _ (@HAdd.hAdd 𝔼 𝔼 𝔼 _ (∑ k : Fin 32, @HMul.hMul 𝔼 𝔼 𝔼 _ (V c main_v64 (ix2 p k)) (V c main_arg4 (ix2 k q)))
        (V c main_arg5 (ix1 q))) 0) :=
  congrFun (Val1.out_arr V c) (ix2 p q)

/-- Region 1 leaves its three input arrays as it found them. -/
theorem R1_in (c : Dev nD) (w : Fin cfg1.W) (hw : w ≠ 3) :
    (Cert.KernelIdeal.R1.dat V c).arrAt w cfg1.N = V c (Pipeline.arrRef spec1 w) := by
  have hin : (cfg1.win w).isOut = false := by
    revert hw; revert w; decide
  rw [Dat.arrAt_in _ w hin, R1.A_eq]

end Cert.KernelIdeal

end
-- ==== Proof.KIVal2.lean ====
/-
  Region 2 of the kernel program, read at an index. The fused head relu (h · W1 + b1) · W2 + b2 runs on a 2 x 8 grid of
  sixteen points: point t works on row block t / 8 (256 of the 512 rows) and on block t % 8 (6272 of the 50176 positions)
  of the contracted axis, and an accumulator is carried from point to point. Entry by entry: the zero block is zero; one
  accumulation adds, to the entry found, the sum over the block's 6272 positions of the products of a row of h and a
  column of W1; the output block is relu (acc + b1) · W2 + b2, a sum over the 128 hidden units. By induction on the point,
  the accumulator after point t holds, for row 256 * (t / 8) + i, the blocks 0 to t % 8 of the long contraction accumulated
  from zero (Gcn.accS). The output's block goes back to its array at the points of block 7 only, where the accumulator holds
  all eight blocks; row r of the output lies in the block of point 8 * (r / 256) + 7, so these blocks cover the output
  array, which ends holding the head over the whole arrays (fcArr). The arrays the region only reads are after it as found.
-/
import proofs.«400340_j61014305407058_4_alg».proof.Proof.KIRegion2
import proofs.«400340_j61014305407058_4_alg».proof.Proof.SpecTop
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val2

open Cert.KernelIdeal Cert.KernelIdeal.Gen Idealize.ShloMosaic Idealize.ShloMosaic.TcCoe Idealize.ShloMosaic.ValueIdx
open scoped BigOperators

theorem zeros2 : (![0, 0] : Fin 2 → Nat) = fun _ => 0 := funext fun a => by fin_cases a <;> rfl
theorem zeros1 : (![0] : Fin 1 → Nat) = fun _ => 0 := funext fun a => by fin_cases a <;> rfl

/-! ## The three stored values at an index -/

/-- The zero block read at an index. -/
theorem zero_apply (i : Fin 256) (u : Fin 128) : k2_pay1 (F := Ideal) (ix2 i u) = 0 := by
  unfold k2_pay1
  simp only [shapeCast_self]
  exact Ideal.ofBits_zero_f32

/-! ## The two contractions at an index -/

theorem lhs_acc_0 (i : S256x128.Idx) (q : dot_S256x6272_S6272x128_S256x128_1_0_0_1_n_n.contr.Idx) :
    (dot_S256x6272_S6272x128_S256x128_1_0_0_1_n_n.lhsIdx i q 0).val = (i 0).val := by
  unfold DotDims.lhsIdx
  rw [dif_neg (show ¬(0 : Fin S256x6272.rank) ∈ dot_S256x6272_S6272x128_S256x128_1_0_0_1_n_n.lhsBatch by decide), dif_pos (show (0 : Fin S256x6272.rank) ∈ dot_S256x6272_S6272x128_S256x128_1_0_0_1_n_n.lhsNonContracting by decide)]
  rfl
theorem lhs_acc_1 (i : S256x128.Idx) (q : dot_S256x6272_S6272x128_S256x128_1_0_0_1_n_n.contr.Idx) :
    (dot_S256x6272_S6272x128_S256x128_1_0_0_1_n_n.lhsIdx i q 1).val = (q ⟨0, by decide⟩).val :=
  dot_S256x6272_S6272x128_S256x128_1_0_0_1_n_n.lhsIdx_val_of_single rfl i q
theorem rhs_acc_0 (i : S256x128.Idx) (q : dot_S256x6272_S6272x128_S256x128_1_0_0_1_n_n.contr.Idx) :
    (dot_S256x6272_S6272x128_S256x128_1_0_0_1_n_n.rhsIdx i q 0).val = (q ⟨0, by decide⟩).val :=
  dot_S256x6272_S6272x128_S256x128_1_0_0_1_n_n.rhsIdx_val_of_single rfl i q
theorem rhs_acc_1 (i : S256x128.Idx) (q : dot_S256x6272_S6272x128_S256x128_1_0_0_1_n_n.contr.Idx) :
    (dot_S256x6272_S6272x128_S256x128_1_0_0_1_n_n.rhsIdx i q 1).val = (i 1).val := by
  unfold DotDims.rhsIdx
  rw [dif_neg (show ¬(1 : Fin S6272x128.rank) ∈ dot_S256x6272_S6272x128_S256x128_1_0_0_1_n_n.rhsBatch by decide), dif_pos (show (1 : Fin S6272x128.rank) ∈ dot_S256x6272_S6272x128_S256x128_1_0_0_1_n_n.rhsNonContracting by decide)]
  rfl

/-- A row block of h times a block of W1, into zero: entry (i, u) is the sum over the block's 6272 positions. -/
theorem prod1_apply (x : FVec Ideal S256x6272 .f32) (w : FVec Ideal S6272x128 .f32) (i : Fin 256) (u : Fin 128) :
    matmul dot_S256x6272_S6272x128_S256x128_1_0_0_1_n_n none x w (constant (F := Ideal) S256x128 .f32 0x00000000#32) (ix2 i u)
      = ∑ q : Fin 6272, x (ix2 i q) * w (ix2 q u) := by
  simp only [matmul]
  rw [Ideal.matmul_constant_zero_apply, ← Equiv.sum_comp (contrEquiv1 dot_S256x6272_S6272x128_S256x128_1_0_0_1_n_n 6272 rfl rfl).symm]
  refine Finset.sum_congr rfl fun k _ => ?_
  have hk := contrEquiv1_symm_val dot_S256x6272_S6272x128_S256x128_1_0_0_1_n_n 6272 rfl rfl k
  have el : dot_S256x6272_S6272x128_S256x128_1_0_0_1_n_n.lhsIdx (ix2 i u) ((contrEquiv1 dot_S256x6272_S6272x128_S256x128_1_0_0_1_n_n 6272 rfl rfl).symm k) = ix2 i k := funext fun a => Fin.ext (by
    match a with
    | ⟨0, _⟩ => exact lhs_acc_0 _ _
    | ⟨1, _⟩ => exact (lhs_acc_1 _ _).trans hk)
  have er : dot_S256x6272_S6272x128_S256x128_1_0_0_1_n_n.rhsIdx (ix2 i u) ((contrEquiv1 dot_S256x6272_S6272x128_S256x128_1_0_0_1_n_n 6272 rfl rfl).symm k) = ix2 k u := funext fun a => Fin.ext (by
    match a with
    | ⟨0, _⟩ => exact (rhs_acc_0 _ _).trans hk
    | ⟨1, _⟩ => exact rhs_acc_1 _ _)
  rw [el, er]

theorem lhs_out_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide), dif_pos (show (0 : Fin S256x128.rank) ∈ dot_S256x128_S128x10_S256x10_1_0_0_1_n_n.lhsNonContracting by decide)]
  rfl
theorem lhs_out_1 (i : S256x10.Idx) (q : dot_S256x128_S128x10_S256x10_1_0_0_1_n_n.contr.Idx) :
    (dot_S256x128_S128x10_S256x10_1_0_0_1_n_n.lhsIdx i q 1).val = (q ⟨0, by decide⟩).val :=
  dot_S256x128_S128x10_S256x10_1_0_0_1_n_n.lhsIdx_val_of_single rfl i q
theorem rhs_out_0 (i : S256x10.Idx) (q : dot_S256x128_S128x10_S256x10_1_0_0_1_n_n.contr.Idx) :
    (dot_S256x128_S128x10_S256x10_1_0_0_1_n_n.rhsIdx i q 0).val = (q ⟨0, by decide⟩).val :=
  dot_S256x128_S128x10_S256x10_1_0_0_1_n_n.rhsIdx_val_of_single rfl i q
theorem rhs_out_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide), dif_pos (show (1 : Fin S128x10.rank) ∈ dot_S256x128_S128x10_S256x10_1_0_0_1_n_n.rhsNonContracting by decide)]
  rfl

/-- The hidden row block times W2, into zero: entry (i, j) is the sum over the 128 hidden units. -/
theorem prod2_apply (x : FVec Ideal S256x128 .f32) (w : FVec Ideal S128x10 .f32) (i : Fin 256) (j : Fin 10) :
    matmul dot_S256x128_S128x10_S256x10_1_0_0_1_n_n none x w (constant (F := Ideal) S256x10 .f32 0x00000000#32) (ix2 i j)
      = ∑ u : Fin 128, x (ix2 i u) * w (ix2 u j) := by
  simp only [matmul]
  rw [Ideal.matmul_constant_zero_apply, ← Equiv.sum_comp (contrEquiv1 dot_S256x128_S128x10_S256x10_1_0_0_1_n_n 128 rfl rfl).symm]
  refine Finset.sum_congr rfl fun k _ => ?_
  have hk := contrEquiv1_symm_val dot_S256x128_S128x10_S256x10_1_0_0_1_n_n 128 rfl rfl k
  have el : dot_S256x128_S128x10_S256x10_1_0_0_1_n_n.lhsIdx (ix2 i j) ((contrEquiv1 dot_S256x128_S128x10_S256x10_1_0_0_1_n_n 128 rfl rfl).symm k) = ix2 i k := funext fun a => Fin.ext (by
    match a with
    | ⟨0, _⟩ => exact lhs_out_0 _ _
    | ⟨1, _⟩ => exact (lhs_out_1 _ _).trans hk)
  have er : dot_S256x128_S128x10_S256x10_1_0_0_1_n_n.rhsIdx (ix2 i j) ((contrEquiv1 dot_S256x128_S128x10_S256x10_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-- One accumulation at an index: the entry found plus the blocks' product there. -/
theorem step_apply (a : Vec Ideal S256x128 .f32) (x : Vec Ideal S256x6272 .f32) (w : Vec Ideal S6272x128 .f32) (i : Fin 256) (u : Fin 128) :
    k2_pay2 a x w (ix2 i u) = a (ix2 i u) + ∑ q : Fin 6272, x (ix2 i q) * w (ix2 q u) := by
  unfold k2_pay2
  simp only [shapeCast_self]
  exact congrArg (a (ix2 i u) + ·) (prod1_apply x w i u)

/-- A vector of 128 laid along the rows of a 256 x 128 block. -/
theorem row128_apply (b : Vec Ideal S128 .f32) (i : Fin 256) (u : Fin 128) :
    broadcastTo S256x128 (shapeCast S1x128 b shapeCasts_S128_S1x128) broadcasts_S1x128_S256x128 (ix2 i u) = b (ix1 u) := by
  refine (broadcastTo_apply _ broadcasts_S1x128_S256x128 (ix2 i u) (ix2 (0 : Fin 1) u) (fun a => ?_)).trans ?_
  · match a with
    | ⟨0, _⟩ => show (0 : ℕ) = if (1 : ℕ) = 1 then 0 else i.val; rw [if_pos rfl]
    | ⟨1, _⟩ => show u.val = if (128 : ℕ) = 1 then 0 else u.val; rw [if_neg (by decide)]
  · refine shapeCast_apply b shapeCasts_S128_S1x128 (ix2 (0 : Fin 1) u) (ix1 u) ?_
    rw [Shape.rowMajor_val_two, Shape.rowMajor_val_one]
    show u.val = 0 * 128 + u.val
    omega

/-- A vector of 10 laid along the rows of a 256 x 10 block. -/
theorem row10_apply (b : Vec Ideal S10 .f32) (i : Fin 256) (j : Fin 10) :
    broadcastTo S256x10 (shapeCast S1x10 b shapeCasts_S10_S1x10) broadcasts_S1x10_S256x10 (ix2 i j) = b (ix1 j) := by
  refine (broadcastTo_apply _ broadcasts_S1x10_S256x10 (ix2 i j) (ix2 (0 : Fin 1) j) (fun a => ?_)).trans ?_
  · match a with
    | ⟨0, _⟩ => show (0 : ℕ) = if (1 : ℕ) = 1 then 0 else i.val; rw [if_pos rfl]
    | ⟨1, _⟩ => show j.val = if (10 : ℕ) = 1 then 0 else j.val; rw [if_neg (by decide)]
  · refine shapeCast_apply b shapeCasts_S10_S1x10 (ix2 (0 : Fin 1) j) (ix1 j) ?_
    rw [Shape.rowMajor_val_two, Shape.rowMajor_val_one]
    show j.val = 0 * 10 + j.val
    omega

/-- The output block at an index: relu of the full sum plus b1, times W2, plus b2. -/
theorem head_apply (a : Vec Ideal S256x128 .f32) (b1 : Vec Ideal S128 .f32) (w2 : Vec Ideal S128x10 .f32) (b2 : Vec Ideal S10 .f32)
    (i : Fin 256) (j : Fin 10) :
    k2_pay3 a b1 w2 b2 (ix2 i j) = (∑ u : Fin 128, max (a (ix2 i u) + b1 (ix1 u)) 0 * w2 (ix2 u j)) + b2 (ix1 j) := by
  unfold k2_pay3
  rw [addf_apply, prod2_apply, row10_apply]
  refine congrArg (· + b2 (ix1 j)) (Finset.sum_congr rfl fun u _ => ?_)
  rw [maximumf_apply, addf_apply, row128_apply, broadcast_apply]
  show max (a (ix2 i u) + b1 (ix1 u)) (Ideal.ofBits .f32 0x00000000#32) * w2 (ix2 u j) = _
  rw [Ideal.ofBits_zero_f32]

/-! ## The region's three values at an index -/

/-- The accumulator set to zero holds zero everywhere. -/
theorem accZero_apply (i : Fin 256) (u : Fin 128) : R2.accZero (F := Ideal) (ix2 i u) = 0 := by
  unfold R2.accZero
  rw [View.canon_unit_zero zeros2]
  exact zero_apply i u

/-- One accumulation: the entry found plus the product of the two blocks there. -/
theorem accStep_apply (a : Vec Ideal S256x128 .f32) (x : Vec Ideal S256x6272 .f32) (w : Vec Ideal S6272x128 .f32) (i : Fin 256) (u : Fin 128) :
    R2.accStep a x w (ix2 i u) = a (ix2 i u) + ∑ q : Fin 6272, x (ix2 i q) * w (ix2 q u) := by
  unfold R2.accStep
  rw [View.canon_unit_zero zeros2]
  simp only [View.ld_unit_zero (S := S256x128) zeros2, View.ld_unit_zero (S := S256x6272) zeros2, View.ld_unit_zero (S := S6272x128) zeros2]
  exact step_apply a x w i u

/-- The output block formed from a full sum. -/
theorem epi_apply (a : Vec Ideal S256x128 .f32) (b1 : Vec Ideal S128 .f32) (w2 : Vec Ideal S128x10 .f32) (b2 : Vec Ideal S10 .f32)
    (i : Fin 256) (j : Fin 10) :
    R2.epi a b1 w2 b2 (ix2 i j) = (∑ u : Fin 128, max (a (ix2 i u) + b1 (ix1 u)) 0 * w2 (ix2 u j)) + b2 (ix1 j) := by
  unfold R2.epi
  rw [View.canon_unit_zero zeros2]
  simp only [View.ld_unit_zero (S := S256x128) zeros2, View.ld_unit_zero (S := S128) zeros1, View.ld_unit_zero (S := S128x10) zeros2, View.ld_unit_zero (S := S10) zeros1]
  exact head_apply a b1 w2 b2 i j

/-! ## The blocks a grid point works on, read off the arrays -/

variable (V : (c : Dev nD) → (b : Ref sig .tc) → Buf (Elt Ideal) ((c : Thread nD τ).loc b))

/-- The windows' index maps over the sixteen points: point t is at row block t / 8 and at block t % 8 of the contracted axis;
    b1, W2 and b2 are whole. -/
theorem point_blocks : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val / 8 ∧ win2_5.index t (1 : Fin 2) = 0 :=
  (by decide +kernel : ∀ t : Fin grid2.N, _)

/-- The point's blocks at their literal types. -/
abbrev hblk (c : Dev nD) (t : Fin cfg2.N) : Vec Ideal S256x6272 .f32 := R2.blk V c 0 t
abbrev w1blk (c : Dev nD) (t : Fin cfg2.N) : Vec Ideal S6272x128 .f32 := R2.blk V c 1 t
abbrev b1blk (c : Dev nD) (t : Fin cfg2.N) : Vec Ideal S128 .f32 := R2.blk V c 2 t
abbrev w2blk (c : Dev nD) (t : Fin cfg2.N) : Vec Ideal S128x10 .f32 := R2.blk V c 3 t
abbrev b2blk (c : Dev nD) (t : Fin cfg2.N) : Vec Ideal S10 .f32 := R2.blk V c 4 t

/-- The block of h at point t: rows 256 * (t / 8) onwards, columns 6272 * (t % 8) onwards. -/
theorem hblk_apply (c : Dev nD) (t : Fin cfg2.N) (i : Fin 256) (q : Fin 6272) (r : Fin 512) (s : Fin 50176)
    (hr : r.val = 256 * (t.val / 8) + i.val) (hs : s.val = t.val % 8 * 6272 + q.val) :
    hblk V c t (ix2 i q) = V c main_v66 (ix2 r s) := by
  obtain ⟨e0, e1, -⟩ := point_blocks t
  show V c main_v66 (((cfg2.win 0).blk t).view.emb (ix2 i q)) = V c main_v66 (ix2 r s)
  refine congrArg (V c main_v66) (funext fun a => Fin.ext ?_)
  match a with
  | ⟨0, _⟩ => show win2_0.index t (0 : Fin 2) * 256 + 1 * i.val = r.val; rw [e0, hr]; omega
  | ⟨1, _⟩ => show win2_0.index t (1 : Fin 2) * 6272 + 1 * q.val = s.val; rw [e1, hs]; omega

/-- The block of W1 at point t: rows 6272 * (t % 8) onwards, every column. -/
theorem w1blk_apply (c : Dev nD) (t : Fin cfg2.N) (q : Fin 6272) (u : Fin 128) (s : Fin 50176)
    (hs : s.val = t.val % 8 * 6272 + q.val) :
    w1blk V c t (ix2 q u) = V c main_arg6 (ix2 s u) := by
  obtain ⟨-, -, e2, e3, -⟩ := point_blocks t
  show V c main_arg6 (((cfg2.win 1).blk t).view.emb (ix2 q u)) = V c main_arg6 (ix2 s u)
  refine congrArg (V c main_arg6) (funext fun a => Fin.ext ?_)
  match a with
  | ⟨0, _⟩ => show win2_1.index t (0 : Fin 2) * 6272 + 1 * q.val = s.val; rw [e2, hs]; omega
  | ⟨1, _⟩ => show win2_1.index t (1 : Fin 2) * 128 + 1 * u.val = u.val; rw [e3]; omega

/-- b1, W2 and b2 are read whole at every point. -/
theorem b1blk_apply (c : Dev nD) (t : Fin cfg2.N) (u : Fin 128) : b1blk V c t (ix1 u) = V c main_arg7 (ix1 u) := by
  obtain ⟨-, -, -, -, e4, -⟩ := point_blocks t
  show V c main_arg7 (((cfg2.win 2).blk t).view.emb (ix1 u)) = V c main_arg7 (ix1 u)
  refine congrArg (V c main_arg7) (funext fun a => Fin.ext ?_)
  match a with
  | ⟨0, _⟩ => show win2_2.index t (0 : Fin 1) * 128 + 1 * u.val = u.val; rw [e4]; omega

theorem w2blk_apply (c : Dev nD) (t : Fin cfg2.N) (u : Fin 128) (j : Fin 10) : w2blk V c t (ix2 u j) = V c main_arg8 (ix2 u j) := by
  obtain ⟨-, -, -, -, -, e5, e6, -⟩ := point_blocks t
  show V c main_arg8 (((cfg2.win 3).blk t).view.emb (ix2 u j)) = V c main_arg8 (ix2 u j)
  refine congrArg (V c main_arg8) (funext fun a => Fin.ext ?_)
  match a with
  | ⟨0, _⟩ => show win2_3.index t (0 : Fin 2) * 128 + 1 * u.val = u.val; rw [e5]; omega
  | ⟨1, _⟩ => show win2_3.index t (1 : Fin 2) * 10 + 1 * j.val = j.val; rw [e6]; omega

theorem b2blk_apply (c : Dev nD) (t : Fin cfg2.N) (j : Fin 10) : b2blk V c t (ix1 j) = V c main_arg9 (ix1 j) := by
  obtain ⟨-, -, -, -, -, -, -, e7, -⟩ := point_blocks t
  show V c main_arg9 (((cfg2.win 4).blk t).view.emb (ix1 j)) = V c main_arg9 (ix1 j)
  refine congrArg (V c main_arg9) (funext fun a => Fin.ext ?_)
  match a with
  | ⟨0, _⟩ => show win2_4.index t (0 : Fin 1) * 10 + 1 * j.val = j.val; rw [e7]; omega

/-! ## The accumulator after each point -/

/-- The arrays the region reads, by coordinates. -/
abbrev hArr (c : Dev nD) : Fin 512 → Fin 50176 → EReal := fun r s => V c main_v66 (ix2 r s)
abbrev w1Arr (c : Dev nD) : Fin 50176 → Fin 128 → EReal := fun s u => V c main_arg6 (ix2 s u)
abbrev b1Arr (c : Dev nD) : Fin 128 → EReal := fun u => V c main_arg7 (ix1 u)
abbrev w2Arr (c : Dev nD) : Fin 128 → Fin 10 → EReal := fun u j => V c main_arg8 (ix2 u j)
abbrev b2Arr (c : Dev nD) : Fin 10 → EReal := fun j => V c main_arg9 (ix1 j)

/-- The product of the point's two blocks at (i, u) is block t % 8 of the terms of row 256 * (t / 8) + i's long contraction. -/
theorem block_sum (c : Dev nD) (t : Fin cfg2.N) (i : Fin 256) (u : Fin 128) (r : Fin 512) (k : ℕ)
    (hr : r.val = 256 * (t.val / 8) + i.val) (hk : k = t.val % 8) :
    ∑ q : Fin 6272, hblk V c t (ix2 i q) * w1blk V c t (ix2 q u)
      = ∑ q : Fin 6272, Gcn.term (hArr V c) (w1Arr V c) r u (k * 6272 + q.val) := by
  subst hk
  refine Finset.sum_congr rfl fun q _ => ?_
  have hs : t.val % 8 * 6272 + q.val < 50176 := by have := q.isLt; omega
  unfold Gcn.term
  rw [dif_pos hs, hblk_apply V c t i q r ⟨t.val % 8 * 6272 + q.val, hs⟩ hr rfl,
    w1blk_apply V c t q u ⟨t.val % 8 * 6272 + q.val, hs⟩ rfl]

/-- At block 0 of the contracted axis: zero plus the point's block of terms. -/
theorem acc_reset_apply (c : Dev nD) (t : Fin cfg2.N) (h : t.val % 8 = 0) (i : Fin 256) (u : Fin 128) (r : Fin 512)
    (hr : r.val = 256 * (t.val / 8) + i.val) :
    R2.accAt V c t.val t.isLt (ix2 i u) = Gcn.accS 6272 (hArr V c) (w1Arr V c) r u 0 := by
  refine (congrFun (R2.accAt_reset V c t h) (ix2 i u)).trans ?_
  refine (accStep_apply R2.accZero (hblk V c t) (w1blk V c t) i u).trans ?_
  rw [accZero_apply, block_sum V c t i u r 0 hr h.symm]
  rfl

/-- At a later block: what the point before left plus the point's block of terms. -/
theorem acc_step_apply (c : Dev nD) (t : Fin cfg2.N) (h : t.val % 8 ≠ 0) (i : Fin 256) (u : Fin 128) (r : Fin 512) (k : ℕ)
    (hr : r.val = 256 * (t.val / 8) + i.val) (hk : k + 1 = t.val % 8)
    (ih : R2.accAt V c (t.val - 1) (Nat.lt_of_le_of_lt (Nat.sub_le _ _) t.isLt) (ix2 i u) = Gcn.accS 6272 (hArr V c) (w1Arr V c) r u k) :
    R2.accAt V c t.val t.isLt (ix2 i u) = Gcn.accS 6272 (hArr V c) (w1Arr V c) r u (k + 1) := by
  refine (congrFun (R2.accAt_step V c t h) (ix2 i u)).trans ?_
  refine (accStep_apply (R2.accAt V c (t.val - 1) (Nat.lt_of_le_of_lt (Nat.sub_le _ _) t.isLt)) (hblk V c t) (w1blk V c t) i u).trans ?_
  rw [ih, block_sum V c t i u r (k + 1) hr hk]
  rfl

/-- By induction on the point: the accumulator after point n holds, for row 256 * (n / 8) + i, the blocks 0 to n % 8. -/
theorem acc_aux (c : Dev nD) : ∀ (n : ℕ) (hn : n < cfg2.N) (i : Fin 256) (u : Fin 128) (r : Fin 512) (k : ℕ),
    r.val = 256 * (n / 8) + i.val → k = n % 8 →
    R2.accAt V c n hn (ix2 i u) = Gcn.accS 6272 (hArr V c) (w1Arr V c) r u k
  | 0, hn, i, u, r, k, hr, hk => by
    subst hk
    exact acc_reset_apply V c ⟨0, hn⟩ rfl i u r hr
  | n + 1, hn, i, u, r, k, hr, hk => by
    by_cases h : (n + 1) % 8 = 0
    · obtain rfl : k = 0 := hk.trans h
      exact acc_reset_apply V c ⟨n + 1, hn⟩ h i u r hr
    · obtain ⟨k', rfl⟩ : ∃ k', k = k' + 1 := ⟨k - 1, by omega⟩
      refine acc_step_apply V c ⟨n + 1, hn⟩ h i u r k' hr hk ?_
      exact acc_aux c n (Nat.lt_of_succ_lt hn) i u r k' (by omega) (by omega)

theorem acc_apply (c : Dev nD) (t : Fin cfg2.N) (i : Fin 256) (u : Fin 128) : Cert.KernelIdeal.R2.accAt V c t.val t.isLt (ix2 i u) = Gcn.accS 6272 (fun r s => V c main_v66 (ix2 r s)) (fun s u => V c main_arg6 (ix2 s u)) ⟨256 * (t.val / 8) + i.val, by have := t.isLt; have h : cfg2.N = 16 := N_2; omega⟩ u (t.val % 8) :=
  acc_aux V c t.val t.isLt i u _ _ rfl rfl

/-! ## The output block and the output array -/

/-- The head over whole arrays, index by index: entry (r, j) of relu (acc + b1) · W2 + b2, acc the eight blocks of the
    long contraction accumulated from zero. -/
def fcArr (h : S512x50176.Idx → EReal) (w1 : S50176x128.Idx → EReal) (b1 : S128.Idx → EReal) (w2 : S128x10.Idx → EReal)
    (b2 : S10.Idx → EReal) (i : S512x10.Idx) : EReal :=
  Gcn.fcK (fun r u => Gcn.accS 6272 (fun r s => h (ix2 r s)) (fun s u => w1 (ix2 s u)) r u 7) (fun u => b1 (ix1 u))
    (fun u j => w2 (ix2 u j)) (fun j => b2 (ix1 j)) (i 0) (i 1)

/-- The same at an index given by its two coordinates. -/
theorem fcArr_apply (h : S512x50176.Idx → EReal) (w1 : S50176x128.Idx → EReal) (b1 : S128.Idx → EReal) (w2 : S128x10.Idx → EReal)
    (b2 : S10.Idx → EReal) (y : S512x10.Idx) (r : Fin 512) (j : Fin 10) (h0 : (y 0).val = r.val) (h1 : (y 1).val = j.val) :
    fcArr h w1 b1 w2 b2 y
      = Gcn.fcK (fun r u => Gcn.accS 6272 (fun r s => h (ix2 r s)) (fun s u => w1 (ix2 s u)) r u 7) (fun u => b1 (ix1 u))
          (fun u j => w2 (ix2 u j)) (fun j => b2 (ix1 j)) r j := by
  obtain rfl : r = ⟨(y 0).val, idx2_lt0 y⟩ := Fin.ext h0.symm
  obtain rfl : j = ⟨(y 1).val, idx2_lt1 y⟩ := Fin.ext h1.symm
  rfl

/-- At a point of block 7 the output block's entry (i, j) is the head's entry (256 * (t / 8) + i, j): the accumulator holds the
    eight blocks, and b1, W2, b2 are read whole. -/
theorem out_point (c : Dev nD) (t : Fin cfg2.N) (h7 : t.val % 8 = 7) (i : Fin 256) (j : Fin 10) (r : Fin 512)
    (hr : r.val = 256 * (t.val / 8) + i.val) :
    R2.outAt V c t (ix2 i j)
      = Gcn.fcK (fun r u => Gcn.accS 6272 (hArr V c) (w1Arr V c) r u 7) (b1Arr V c) (w2Arr V c) (b2Arr V c) r j := by
  unfold R2.outAt
  refine (epi_apply (R2.accAt V c t.val t.isLt) (b1blk V c t) (w2blk V c t) (b2blk V c t) i j).trans ?_
  unfold Gcn.fcK
  rw [b2blk_apply]
  refine congrArg (· + V c main_arg9 (ix1 j)) (Finset.sum_congr rfl fun u _ => ?_)
  rw [b1blk_apply, w2blk_apply, acc_aux V c t.val t.isLt i u r 7 hr h7.symm]

/-- What a point of block 7 writes back is its block of the head over the whole arrays. -/
theorem last_block_writes_head (c : Dev nD) (t : Fin cfg2.N) (hf : (cfg2.win 5).flush t = true) :
    (R2.dat V c).flushed 5 t
      = ((cfg2.win 5).blk t).view.read (Elt Ideal)
          (fcArr (V c main_v66) (V c main_arg6) (V c main_arg7) (V c main_arg8) (V c main_arg9)) := by
  have h7 : t.val % 8 = 7 := (flush2_5 t).mp hf
  obtain ⟨-, -, -, -, -, -, -, -, e8, e9⟩ := point_blocks t
  show (cfg2.win 5).cut (grid2.coords t) ((R2.dat V c).after 5 t) = _
  rw [R2.after_5]
  funext y
  obtain ⟨i, j, rfl⟩ : ∃ (i : Fin 256) (j : Fin 10), y = ix2 i j := ⟨y 0, y 1, eq_ix2 y⟩
  show R2.outAt V c t (ix2 i j)
    = fcArr (V c main_v66) (V c main_arg6) (V c main_arg7) (V c main_arg8) (V c main_arg9) (((cfg2.win 5).blk t).view.emb (ix2 i j))
  have hN : cfg2.N = 16 := N_2
  have hr : 256 * (t.val / 8) + i.val < 512 := by have := t.isLt; have := i.isLt; omega
  refine (out_point V c t h7 i j ⟨256 * (t.val / 8) + i.val, hr⟩ rfl).trans
    (fcArr_apply (V c main_v66) (V c main_arg6) (V c main_arg7) (V c main_arg8) (V c main_arg9) _ _ _ ?_ ?_).symm
  · show win2_5.index t (0 : Fin 2) * 256 + 1 * i.val = 256 * (t.val / 8) + i.val
    rw [e8]; omega
  · show win2_5.index t (1 : Fin 2) * 10 + 1 * j.val = j.val
    rw [e9]; omega

/-- An index of the output array is in point t's block iff each coordinate is in the block's range. -/
theorem mem_out_block (t : Fin cfg2.N) (y : S512x10.Idx) :
    y ∈ ((cfg2.win 5).blk t).view.set
      ↔ ∀ a : Fin 2, win2_5.index t a * S256x10.size a ≤ (y a).val ∧ (y a).val < win2_5.index t a * S256x10.size a + S256x10.size a := by
  show y ∈ ((View.whole main_v67).slice (win2_5.rect t)).set ↔ _
  rw [View.set_slice_whole, Rect.mem_set_unit]
  exact Iff.rfl

/-- Row r of the output lies in the block written back at point 8 * (r / 256) + 7. -/
theorem out_rows_covered (y : S512x10.Idx) : ∃ t : Fin cfg2.N, (cfg2.win 5).flush t = true ∧ y ∈ ((cfg2.win 5).blk t).view.set := by
  have hN : cfg2.N = 16 := N_2
  have h0 : (y 0).val < 512 := idx2_lt0 y
  have h1 : (y 1).val < 10 := idx2_lt1 y
  obtain ⟨t, ht⟩ : ∃ t : Fin cfg2.N, t.val = 8 * ((y 0).val / 256) + 7 := ⟨⟨8 * ((y 0).val / 256) + 7, by omega⟩, rfl⟩
  obtain ⟨-, -, -, -, -, -, -, -, e8, e9⟩ := point_blocks t
  refine ⟨t, (flush2_5 t).mpr (by omega), ?_⟩
  rw [mem_out_block]
  intro a
  match a with
  | ⟨0, _⟩ =>
    show win2_5.index t (0 : Fin 2) * 256 ≤ (y 0).val ∧ (y 0).val < win2_5.index t (0 : Fin 2) * 256 + 256
    rw [e8]; omega
  | ⟨1, _⟩ =>
    show win2_5.index t (1 : Fin 2) * 10 ≤ (y 1).val ∧ (y 1).val < win2_5.index t (1 : Fin 2) * 10 + 10
    rw [e9]; omega

/-- The output array after the region: the head over the whole arrays as the region finds them. -/
theorem out_arr (c : Dev nD) :
    (R2.dat V c).arrAt 5 cfg2.N = fcArr (V c main_v66) (V c main_arg6) (V c main_arg7) (V c main_arg8) (V c main_arg9) :=
  (R2.dat V c).arrAt_eq_of_cover 5 (fcArr (V c main_v66) (V c main_arg6) (V c main_arg7) (V c main_arg8) (V c main_arg9))
    (fun t hf => last_block_writes_head V c t hf) (fun y => out_rows_covered y)

theorem R2_out (c : Dev nD) (r : Fin 512) (j : Fin 10) : (Cert.KernelIdeal.R2.dat V c).arrAt 5 cfg2.N (ix2 r j) = Gcn.fcK (fun r u => Gcn.accS 6272 (fun r s => V c main_v66 (ix2 r s)) (fun s u => V c main_arg6 (ix2 s u)) r u 7) (fun u => V c main_arg7 (ix1 u)) (fun u j => V c main_arg8 (ix2 u j)) (fun j => V c main_arg9 (ix1 j)) r j :=
  (congrFun (out_arr V c) (ix2 r j)).trans
    (fcArr_apply (V c main_v66) (V c main_arg6) (V c main_arg7) (V c main_arg8) (V c main_arg9) (ix2 r j) r j rfl rfl)

/-- The arrays the region only reads are after it as it found them. -/
theorem R2_in (c : Dev nD) (w : Fin cfg2.W) (hw : w ≠ 5) : (Cert.KernelIdeal.R2.dat V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((R2.dat V c).arrAt_in w hin cfg2.N).trans (R2.A_eq V c w)

end Cert.KernelIdeal.Val2

end
-- ==== Proof.KIValue.lean ====
/-
  The kernel program's result, by coordinates: read at an index, the array the program returns is Gcn.outK of what the
  argument arrays held at launch.

  The program is six stretches. The first normalises the graph (source and destination words, each edge's coefficient,
  each node's own share) and aggregates the input features; region 0 projects the aggregate and applies the bias and
  relu: together the first graph-convolution layer in the aggregate-then-project order. The third stretch aggregates
  the first layer's output with the same graph data, region 1 projects it: the second layer. The fifth lays each
  graph's 784 nodes by 64 features side by side, 512 rows of 50176; region 2 is the fully connected head, its long
  contraction accumulated in eight blocks of 6272. Reading the boundary contents back from the last to the first, each
  array is a function of the arrays before it, and the composition is outK of the launch contents. A region changes
  only its own output array and a host stretch only what it writes, so every argument is at its launch contents
  wherever it is read.

  What each host stretch writes and what each region leaves in its output array are proved in their own modules. The
  chain is first proved over the host stretches' and region 2's equations as hypotheses (value_of), which fixes exactly
  what it uses of them, and then closed with the proved equations (value).
-/
import proofs.«400340_j61014305407058_4_alg».proof.Proof.KIRun
import proofs.«400340_j61014305407058_4_alg».proof.Proof.KIHost
import proofs.«400340_j61014305407058_4_alg».proof.Proof.KIVal01
import proofs.«400340_j61014305407058_4_alg».proof.Proof.KIVal2
import proofs.«400340_j61014305407058_4_alg».proof.Proof.SpecTop
import Idealize.ShloMosaic.Lib.ValueIdx

set_option maxRecDepth 16384

noncomputable section

namespace Cert.KernelIdeal.Value

open Cert.KernelIdeal Cert.KernelIdeal.Gen Cert.KernelIdeal.Run
open Idealize.ShloMosaic Idealize.ShloMosaic.TcCoe Idealize.ShloMosaic.ValueIdx

/-! ## Two congruences of the specification -/

/-- The aggregate depends on its five arguments only through their values. -/
theorem aggK_congr {E N K : ℕ} {ρ ρ' : Fin E → Option (Fin N)} {γ γ' : Fin E → Fin N} {cf cf' : Fin E → EReal}
    {d d' : Fin N → EReal} {f f' : Fin N → Fin K → EReal} (hρ : ∀ e, ρ e = ρ' e) (hγ : ∀ e, γ e = γ' e)
    (hc : ∀ e, cf e = cf' e) (hd : ∀ p, d p = d' p) (hf : ∀ p k, f p k = f' p k) (p : Fin N) (k : Fin K) :
    Gcn.aggK ρ γ cf d f p k = Gcn.aggK ρ' γ' cf' d' f' p k := by
  obtain rfl : ρ = ρ' := funext hρ
  obtain rfl : γ = γ' := funext hγ
  obtain rfl : cf = cf' := funext hc
  obtain rfl : d = d' := funext hd
  obtain rfl : f = f' := funext fun p => funext (hf p)
  rfl

/-- Projection, bias and relu of an array that is the aggregate of feat is the layer of feat, aggregate first. -/
theorem layer_of_agg {E K M : ℕ} (x1 : IVec ⟨2, ![2, E]⟩ 32) (feat a : Fin Gcn.NN → Fin K → EReal)
    (w : Fin K → Fin M → EReal) (b : Fin M → EReal) (ha : ∀ p k, a p k = Gcn.aggG x1 feat p k) (p : Fin Gcn.NN) (q : Fin M) :
    max ((∑ k : Fin K, a p k * w k q) + b q) 0 = Gcn.layerKG x1 feat w b p q := by
  unfold Gcn.layerKG Gcn.layerK
  simp only [ha]
  rfl

/-! ## The launch contents by coordinates -/

variable (m : (ℓ : Loc nD τ sig) → Buf (Elt Ideal) ℓ) (ρ : Dev nD → PrngReg)

abbrev X0 (c : Dev nD) : Fin Gcn.NN → Fin 1 → EReal := fun p k => m ((c : Thread nD τ).loc main_arg0) (ix2 p k)
abbrev X1 (c : Dev nD) : IVec ⟨2, ![2, 3211264]⟩ 32 := m ((c : Thread nD τ).loc main_arg1)
abbrev X2 (c : Dev nD) : Fin 1 → Fin 32 → EReal := fun k q => m ((c : Thread nD τ).loc main_arg2) (ix2 k q)
abbrev X3 (c : Dev nD) : Fin 32 → EReal := fun q => m ((c : Thread nD τ).loc main_arg3) (ix1 q)
abbrev X4 (c : Dev nD) : Fin 32 → Fin 64 → EReal := fun k q => m ((c : Thread nD τ).loc main_arg4) (ix2 k q)
abbrev X5 (c : Dev nD) : Fin 64 → EReal := fun q => m ((c : Thread nD τ).loc main_arg5) (ix1 q)
abbrev X6 (c : Dev nD) : Fin 50176 → Fin 128 → EReal := fun s u => m ((c : Thread nD τ).loc main_arg6) (ix2 s u)
abbrev X7 (c : Dev nD) : Fin 128 → EReal := fun u => m ((c : Thread nD τ).loc main_arg7) (ix1 u)
abbrev X8 (c : Dev nD) : Fin 128 → Fin 10 → EReal := fun u j => m ((c : Thread nD τ).loc main_arg8) (ix2 u j)
abbrev X9 (c : Dev nD) : Fin 10 → EReal := fun j => m ((c : Thread nD τ).loc main_arg9) (ix1 j)

/-- The two layers' outputs of the launch contents. -/
abbrev H1 (c : Dev nD) : Fin Gcn.NN → Fin 32 → EReal := Gcn.h1K (X0 m c) (X1 m c) (X2 m c) (X3 m c)
abbrev H2 (c : Dev nD) : Fin Gcn.NN → Fin 64 → EReal := Gcn.h2K (X0 m c) (X1 m c) (X2 m c) (X3 m c) (X4 m c) (X5 m c)

/-! ## Every argument is at its launch contents where it is read -/

theorem V1_arg2 (c : Dev nD) : V1 m ρ c main_arg2 = m ((c : Thread nD τ).loc main_arg2) :=
  (W1_of m ρ c main_arg2 (by decide)).trans rfl
theorem V1_arg3 (c : Dev nD) : V1 m ρ c main_arg3 = m ((c : Thread nD τ).loc main_arg3) :=
  (W1_of m ρ c main_arg3 (by decide)).trans rfl
theorem V3_arg4 (c : Dev nD) : V3 m ρ c main_arg4 = m ((c : Thread nD τ).loc main_arg4) :=
  (W3_of m ρ c main_arg4 (by decide)).trans <| (W2_of_ne m ρ c main_arg4 (by decide)).trans <|
    (W1_of m ρ c main_arg4 (by decide)).trans rfl
theorem V3_arg5 (c : Dev nD) : V3 m ρ c main_arg5 = m ((c : Thread nD τ).loc main_arg5) :=
  (W3_of m ρ c main_arg5 (by decide)).trans <| (W2_of_ne m ρ c main_arg5 (by decide)).trans <|
    (W1_of m ρ c main_arg5 (by decide)).trans rfl
theorem V5_arg6 (c : Dev nD) : V5 m ρ c main_arg6 = m ((c : Thread nD τ).loc main_arg6) :=
  W5_main_arg m ρ c main_arg6 (by decide) (by decide) (by decide) (by decide) (by decide)
theorem V5_arg7 (c : Dev nD) : V5 m ρ c main_arg7 = m ((c : Thread nD τ).loc main_arg7) :=
  W5_main_arg m ρ c main_arg7 (by decide) (by decide) (by decide) (by decide) (by decide)
theorem V5_arg8 (c : Dev nD) : V5 m ρ c main_arg8 = m ((c : Thread nD τ).loc main_arg8) :=
  W5_main_arg m ρ c main_arg8 (by decide) (by decide) (by decide) (by decide) (by decide)
theorem V5_arg9 (c : Dev nD) : V5 m ρ c main_arg9 = m ((c : Thread nD τ).loc main_arg9) :=
  W5_main_arg m ρ c main_arg9 (by decide) (by decide) (by decide) (by decide) (by decide)

/-- Region 0 writes only its own output: what the first stretch wrote about the graph is still there after it. -/
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v30 (c : Dev nD) : W2 m ρ c (Proc.devRef .tc main_v30) = W1 m ρ c (Proc.devRef .tc main_v30) := W2_of_ne m ρ c main_v30 (by decide)
theorem W2_v31 (c : Dev nD) : W2 m ρ c (Proc.devRef .tc main_v31) = W1 m ρ c (Proc.devRef .tc main_v31) := W2_of_ne m ρ c main_v31 (by decide)

section FromParts

/-! ## What the other stretches contribute, as hypotheses

  The host stretches' values at a valuation W of the buffers, and region 2's output array at entry contents V. -/

variable
  (host0_src : ∀ (W : Valuation τ sig (Elt Ideal)) (e : Fin 3211264),
    StableHlo.after hostOps0 W (Proc.devRef .tc main_v1) (ix1 e) = Gcn.srcW (W (Proc.devRef .tc main_arg1)) e)
  (host0_dst : ∀ (W : Valuation τ sig (Elt Ideal)) (e : Fin 3211264),
    StableHlo.after hostOps0 W (Proc.devRef .tc main_v3) (ix1 e) = Gcn.dstW (W (Proc.devRef .tc main_arg1)) e)
  (host0_coef : ∀ (W : Valuation τ sig (Elt Ideal)) (e : Fin 3211264),
    StableHlo.after hostOps0 W (Proc.devRef .tc main_v30) (ix1 e) = Gcn.coefG (W (Proc.devRef .tc main_arg1)) e)
  (host0_d2 : ∀ (W : Valuation τ sig (Elt Ideal)) (p : Fin 401408),
    StableHlo.after hostOps0 W (Proc.devRef .tc main_v31) (ix1 p) = Gcn.d2G (W (Proc.devRef .tc main_arg1)) p)
  (host0_agg : ∀ (W : Valuation τ sig (Elt Ideal)) (p : Fin 401408) (k : Fin 1),
    StableHlo.after hostOps0 W (Proc.devRef .tc main_v46) (ix2 p k)
      = Gcn.aggG (W (Proc.devRef .tc main_arg1)) (fun p k => W (Proc.devRef .tc main_arg0) (ix2 p k)) p k)
  (host1_agg : ∀ (W : Valuation τ sig (Elt Ideal)) (p : Fin 401408) (k : Fin 32),
    StableHlo.after hostOps1 W (Proc.devRef .tc main_v64) (ix2 p k)
      = Gcn.aggK (fun e => RowOps.rowOf 401408 (W (Proc.devRef .tc main_v3) (ix1 e)))
          (fun e => RowOps.clampRow 401408 Gcn.NN_pos (Gcn.normW 401408 (W (Proc.devRef .tc main_v1) (ix1 e))))
          (fun e => W (Proc.devRef .tc main_v30) (ix1 e)) (fun p => W (Proc.devRef .tc main_v31) (ix1 p))
          (fun p k => W (Proc.devRef .tc main_v47) (ix2 p k)) p k)
  (host2_flat : ∀ (W : Valuation τ sig (Elt Ideal)) (r : Fin 512) (s : Fin 50176),
    StableHlo.after hostOps2 W (Proc.devRef .tc main_v66) (ix2 r s)
      = W (Proc.devRef .tc main_v65)
          (ix2 ⟨r.val * 784 + s.val / 64, by have := r.isLt; have := s.isLt; omega⟩ ⟨s.val % 64, Nat.mod_lt _ (by decide)⟩))
  (hR2 : ∀ (V : (c : Dev nD) → (b : Ref sig .tc) → Buf (Elt Ideal) ((c : Thread nD τ).loc b)) (c : Dev nD),
    (R2.dat V c).arrAt 5 cfg2.N
      = (fun (h : S512x50176.Idx → EReal) (w1 : S50176x128.Idx → EReal) (b1 : S128.Idx → EReal)
            (w2 : S128x10.Idx → EReal) (b2 : S10.Idx → EReal) (i : S512x10.Idx) =>
          Gcn.fcK (fun r u => Gcn.accS 6272 (fun r s => h (ix2 r s)) (fun s u => w1 (ix2 s u)) r u 7)
            (fun u => b1 (ix1 u)) (fun u j => w2 (ix2 u j)) (fun j => b2 (ix1 j)) (i 0) (i 1))
          (V c main_v66) (V c main_arg6) (V c main_arg7) (V c main_arg8) (V c main_arg9))

include host0_src host0_dst host0_coef host0_d2 host0_agg host1_agg host2_flat hR2

/-! ## The graph data after region 0 -/

theorem rho_at (c : Dev nD) (e : Fin 3211264) :
    RowOps.rowOf 401408 (W2 m ρ c (Proc.devRef .tc main_v3) (ix1 e)) = Gcn.rhoRaw Gcn.NN (X1 m c) e := by
  rw [W2_v3]
  exact congrArg (RowOps.rowOf 401408) (host0_dst (W0 m ρ c) e)

theorem gam_at (c : Dev nD) (e : Fin 3211264) :
    RowOps.clampRow 401408 Gcn.NN_pos (Gcn.normW 401408 (W2 m ρ c (Proc.devRef .tc main_v1) (ix1 e)))
      = Gcn.gamS Gcn.NN Gcn.NN_pos (X1 m c) e := by
  rw [W2_v1]
  exact congrArg (fun v => RowOps.clampRow 401408 Gcn.NN_pos (Gcn.normW 401408 v)) (host0_src (W0 m ρ c) e)

theorem coef_at (c : Dev nD) (e : Fin 3211264) :
    W2 m ρ c (Proc.devRef .tc main_v30) (ix1 e) = Gcn.coefG (X1 m c) e := by
  rw [W2_v30]
  exact host0_coef (W0 m ρ c) e

theorem d2_at (c : Dev nD) (p : Fin 401408) :
    W2 m ρ c (Proc.devRef .tc main_v31) (ix1 p) = Gcn.d2G (X1 m c) p := by
  rw [W2_v31]
  exact host0_d2 (W0 m ρ c) p

/-! ## The first layer -/

theorem h1_at (c : Dev nD) (p : Fin 401408) (q : Fin 32) :
    W2 m ρ c (Proc.devRef .tc main_v47) (ix2 p q) = H1 m c p q := by
  have e := congrFun ((W2_arr m ρ c 3).trans (Val0.out_arr (V1 m ρ) c)) (ix2 p q)
  refine e.trans ?_
  rw [V1_arg2, V1_arg3]
  exact layer_of_agg (X1 m c) (X0 m c) (fun p k => V1 m ρ c main_v46 (ix2 p k)) (X2 m c) (X3 m c)
    (fun p k => host0_agg (W0 m ρ c) p k) p q

/-! ## The second layer -/

theorem agg2_at (c : Dev nD) (p : Fin 401408) (k : Fin 32) :
    V3 m ρ c main_v64 (ix2 p k) = Gcn.aggG (X1 m c) (H1 m c) p k :=
  (host1_agg (W2 m ρ c) p k).trans
    (aggK_congr (ρ' := Gcn.rhoRaw Gcn.NN (X1 m c)) (γ' := Gcn.gamS Gcn.NN Gcn.NN_pos (X1 m c))
      (cf' := Gcn.coefG (X1 m c)) (d' := Gcn.d2G (X1 m c)) (f' := H1 m c)
      (rho_at m ρ host0_src host0_dst host0_coef host0_d2 host0_agg host1_agg host2_flat hR2 c)
      (gam_at m ρ host0_src host0_dst host0_coef host0_d2 host0_agg host1_agg host2_flat hR2 c)
      (coef_at m ρ host0_src host0_dst host0_coef host0_d2 host0_agg host1_agg host2_flat hR2 c)
      (d2_at m ρ host0_src host0_dst host0_coef host0_d2 host0_agg host1_agg host2_flat hR2 c)
      (h1_at m ρ host0_src host0_dst host0_coef host0_d2 host0_agg host1_agg host2_flat hR2 c) p k)

theorem h2_at (c : Dev nD) (p : Fin 401408) (q : Fin 64) :
    W4 m ρ c (Proc.devRef .tc main_v65) (ix2 p q) = H2 m c p q := by
  have e := congrFun ((W4_arr m ρ c 3).trans (Val1.out_arr (V3 m ρ) c)) (ix2 p q)
  refine e.trans ?_
  rw [V3_arg4, V3_arg5]
  exact layer_of_agg (X1 m c) (H1 m c) (fun p k => V3 m ρ c main_v64 (ix2 p k)) (X4 m c) (X5 m c)
    (fun p k => agg2_at m ρ host0_src host0_dst host0_coef host0_d2 host0_agg host1_agg host2_flat hR2 c p k) p q

/-! ## The reshape and the head -/

theorem flat_at (c : Dev nD) (r : Fin 512) (s : Fin 50176) :
    V5 m ρ c main_v66 (ix2 r s) = Gcn.flat (H2 m c) r s :=
  (host2_flat (W4 m ρ c) r s).trans
    (h2_at m ρ host0_src host0_dst host0_coef host0_d2 host0_agg host1_agg host2_flat hR2 c _ _)

/-- The returned array at (r, j) is outK of the launch contents. -/
theorem value_of (c : Dev nD) (r : Fin 512) (j : Fin 10) :
    W6 m ρ c (Proc.devRef .tc main_v67) (ix2 r j)
      = Gcn.outK (X0 m c) (X1 m c) (X2 m c) (X3 m c) (X4 m c) (X5 m c) (X6 m c) (X7 m c) (X8 m c) (X9 m c) r j := by
  have e := congrFun ((W6_result m ρ c).trans (hR2 (V5 m ρ) c)) (ix2 r j)
  refine e.trans ?_
  rw [V5_arg6, V5_arg7, V5_arg8, V5_arg9]
  have h66 : (fun (r : Fin 512) (s : Fin 50176) => V5 m ρ c main_v66 (ix2 r s)) = Gcn.flat (H2 m c) :=
    funext fun r => funext fun s =>
      flat_at m ρ host0_src host0_dst host0_coef host0_d2 host0_agg host1_agg host2_flat hR2 c r s
  show Gcn.fcK (fun r u => Gcn.accS 6272 (fun r s => V5 m ρ c main_v66 (ix2 r s)) (X6 m c) r u 7)
      (X7 m c) (X8 m c) (X9 m c) r j = _
  rw [h66]
  rfl

end FromParts

/-! ## The value -/

/-- The returned array, read at (r, j), is outK of what the ten argument arrays held at launch. -/
theorem value (c : Dev nD) (r : Fin 512) (j : Fin 10) :
    W6 m ρ c (Proc.devRef .tc main_v67) (ix2 r j)
      = Gcn.outK (fun p k => m ((c : Thread nD τ).loc main_arg0) (ix2 p k)) (m ((c : Thread nD τ).loc main_arg1))
          (fun k q => m ((c : Thread nD τ).loc main_arg2) (ix2 k q)) (fun q => m ((c : Thread nD τ).loc main_arg3) (ix1 q))
          (fun k q => m ((c : Thread nD τ).loc main_arg4) (ix2 k q)) (fun q => m ((c : Thread nD τ).loc main_arg5) (ix1 q))
          (fun s u => m ((c : Thread nD τ).loc main_arg6) (ix2 s u)) (fun u => m ((c : Thread nD τ).loc main_arg7) (ix1 u))
          (fun u j => m ((c : Thread nD τ).loc main_arg8) (ix2 u j)) (fun j => m ((c : Thread nD τ).loc main_arg9) (ix1 j)) r j :=
  value_of m ρ Host.host0_src Host.host0_dst Host.host0_coef Host.host0_d2 Host.host0_agg Host.host1_agg Host.host2_flat
    (fun V c => Val2.out_arr V c) c r j

end Cert.KernelIdeal.Value

end
-- ==== Proof.RefRead.lean ====
/-
  THE REFERENCE PROGRAM'S RESULT READ AT AN INDEX, as the coordinate-wise mathematics of the specification.

  The edge list is a 2 x 3211264 array of 32-bit words: row 0 the sources, row 1 the destinations. Every index column the
  program builds is one of these rows, either wrapped around the table of 401408 nodes (a negative word gets 401408
  added: compare with zero, add, select) or taken as it is. A gather reads the wrapped word signed and clamped into the
  table; an accumulating scatter adds an update to the row the word names and drops it when the word names none.
  So: the degree of a node is one (the operand of ones) plus one per edge whose wrapped destination is the node; the
  normalisation is its reciprocal square root; an edge's coefficient is the normalisation at its source times the
  normalisation at its destination; a node's own share is the normalisation squared. A layer projects the features,
  gathers the projected rows at the sources, scales each by its edge's coefficient, sums them into the destination rows
  (from zero), adds the node's own projected row scaled by its own share, adds the bias, and clips below at zero. The
  second layer recomputes degrees, coefficients and shares from the same edge list, so they are the same functions. The
  head reshapes 401408 x 64 to 512 x 50176 row-major (50176 = 784 * 64), contracts with the first dense matrix, adds a
  bias, clips at zero, contracts with the second dense matrix and adds the last bias.
  Every intermediate array is read at a symbolic index (p, q), e or (r, j), never at a numeral.
-/
import proofs.«400340_j61014305407058_4_alg».proof.Proof.Gen.ReferenceIdeal.Run
import proofs.«400340_j61014305407058_4_alg».proof.Proof.Gen.ReferenceIdeal.Read
import proofs.«400340_j61014305407058_4_alg».proof.Proof.SpecTop
import Idealize.ShloMosaic.Lib.ValueIdx
import Idealize.ShloMosaic.Lib.Pipeline.Value
import Idealize.ShloMosaic.PureOps.Ideal.Laws

noncomputable section

namespace Cert.ReferenceIdeal.RefSpec

open Cert.ReferenceIdeal Cert.ReferenceIdeal.Read Idealize.ShloMosaic Idealize.ShloMosaic.ValueIdx

/-- The wrap-around of a possibly negative index word, as the programs spell it: compare with zero, add the height, select. -/
theorem wrap_word (v : BitVec 32) :
    Scalar.select (IntOp.cmpi .slt v 0#32) (IntOp.addi v 401408#32) v = Gcn.normW 401408 v := by
  unfold Scalar.select IntOp.cmpi IntOp.addi Gcn.normW
  cases h : v.slt 0#32 <;> simp

/-- Row 0 of the edge list, flattened: the source words. -/
theorem src_read (x1 : (⟨S2x3211264, .i32⟩ : BufTy).Contents (Elt Ideal)) (e : Fin 3211264) :
    val_main_v1 (F := Ideal) x1 (ix1 e) = Gcn.srcW x1 e := by
  have h1 : idx_main_v1 (ix1 e) = ix2 (0 : Fin 1) e :=
    funext fun a => Fin.ext (by match a with | ⟨0, _⟩ => rfl | ⟨1, _⟩ => exact Nat.mod_eq_of_lt e.isLt)
  have h0 : idx_main_v0 (ix2 (0 : Fin 1) e) = ix2 (0 : Fin 2) e :=
    funext fun a => Fin.ext (by match a with | ⟨0, _⟩ => rfl | ⟨1, _⟩ => rfl)
  rw [val_main_v1_apply, h1, val_main_v0_apply, h0]
  rfl

/-- Row 1 of the edge list, flattened: the destination words. -/
theorem dst_read (x1 : (⟨S2x3211264, .i32⟩ : BufTy).Contents (Elt Ideal)) (e : Fin 3211264) :
    val_main_v3 (F := Ideal) x1 (ix1 e) = Gcn.dstW x1 e := by
  have h1 : idx_main_v3 (ix1 e) = ix2 (0 : Fin 1) e :=
    funext fun a => Fin.ext (by match a with | ⟨0, _⟩ => rfl | ⟨1, _⟩ => exact Nat.mod_eq_of_lt e.isLt)
  have h0 : idx_main_v2 (ix2 (0 : Fin 1) e) = ix2 (1 : Fin 2) e :=
    funext fun a => Fin.ext (by match a with | ⟨0, _⟩ => rfl | ⟨1, _⟩ => rfl)
  rw [val_main_v3_apply, h1, val_main_v2_apply, h0]
  rfl

/-- The word 0x3F800000 read as a single-precision number is one. -/
theorem one_word : Ideal.ofBits .f32 0x3F800000#32 = 1 := by
  simp [Ideal.ofBits, Ideal.ieee]
  rw [← EReal.coe_mul, ← EReal.coe_one]
  congr 1
  norm_num

/-- At the ideal instance the host's accumulating scatter is the sum of the updates landing on each element. -/
theorem scatterAdd_ideal {s si su : Shape} {φ : FTy} {w : Nat} (d : ScatterDims s si su) (x : FVec Ideal s φ) (idx : IVec si w)
    (upd : FVec Ideal su φ) : Host.scatterAdd d x idx upd = Ideal.hostScatterAdd d x idx upd := rfl

/-! ## The index columns: each is a row of the edge list, wrapped around the table or as it is -/

/-- The wrapped destination words feeding the first layer's degree count. -/
theorem wdst_v11 (x1 : (⟨S2x3211264, .i32⟩ : BufTy).Contents (Elt Ideal)) (e : Fin 3211264) :
    val_main_v11 (F := Ideal) x1 (ix2 e (0 : Fin 1)) = Gcn.normW 401408 (Gcn.dstW x1 e) := by
  have h : idx_main_v11 (ix2 e (0 : Fin 1)) = ix1 e := funext fun a => Fin.ext (by match a with | ⟨0, _⟩ => rfl)
  rw [val_main_v11_apply, h, val_main_v10_apply, val_main_v7_apply, val_main_v9_apply, val_main_v6_apply,
    val_main_c_apply, val_main_v8_apply, val_main_c_0_apply, dst_read]
  exact wrap_word _

/-- The wrapped source words at which the first layer reads the normalisation. -/
theorem wsrc_v20 (x1 : (⟨S2x3211264, .i32⟩ : BufTy).Contents (Elt Ideal)) (e : Fin 3211264) :
    val_main_v20 (F := Ideal) x1 (ix2 e (0 : Fin 1)) = Gcn.normW 401408 (Gcn.srcW x1 e) := by
  have h : idx_main_v20 (ix2 e (0 : Fin 1)) = ix1 e := funext fun a => Fin.ext (by match a with | ⟨0, _⟩ => rfl)
  rw [val_main_v20_apply, h, val_main_v19_apply, val_main_v16_apply, val_main_v18_apply, val_main_v15_apply,
    val_main_c_2_apply, val_main_v17_apply, val_main_c_3_apply, src_read]
  exact wrap_word _

/-- The wrapped destination words at which the first layer reads the normalisation. -/
theorem wdst_v27 (x1 : (⟨S2x3211264, .i32⟩ : BufTy).Contents (Elt Ideal)) (e : Fin 3211264) :
    val_main_v27 (F := Ideal) x1 (ix2 e (0 : Fin 1)) = Gcn.normW 401408 (Gcn.dstW x1 e) := by
  have h : idx_main_v27 (ix2 e (0 : Fin 1)) = ix1 e := funext fun a => Fin.ext (by match a with | ⟨0, _⟩ => rfl)
  rw [val_main_v27_apply, h, val_main_v26_apply, val_main_v23_apply, val_main_v25_apply, val_main_v22_apply,
    val_main_c_4_apply, val_main_v24_apply, val_main_c_5_apply, dst_read]
  exact wrap_word _

/-- The wrapped source words at which the first layer gathers the projected features. -/
theorem wsrc_v35 (x1 : (⟨S2x3211264, .i32⟩ : BufTy).Contents (Elt Ideal)) (e : Fin 3211264) :
    val_main_v35 (F := Ideal) x1 (ix2 e (0 : Fin 1)) = Gcn.normW 401408 (Gcn.srcW x1 e) := by
  have h : idx_main_v35 (ix2 e (0 : Fin 1)) = ix1 e := funext fun a => Fin.ext (by match a with | ⟨0, _⟩ => rfl)
  rw [val_main_v35_apply, h, val_main_v34_apply, val_main_v31_apply, val_main_v33_apply, val_main_v30_apply,
    val_main_c_6_apply, val_main_v32_apply, val_main_c_7_apply, src_read]
  exact wrap_word _

/-- The destination words as they are, to which the first layer's segment sum sends the messages. -/
theorem raw_v41 (x1 : (⟨S2x3211264, .i32⟩ : BufTy).Contents (Elt Ideal)) (e : Fin 3211264) :
    val_main_v41 (F := Ideal) x1 (ix2 e (0 : Fin 1)) = Gcn.dstW x1 e := by
  have h : idx_main_v41 (ix2 e (0 : Fin 1)) = ix1 e := funext fun a => Fin.ext (by match a with | ⟨0, _⟩ => rfl)
  rw [val_main_v41_apply, h, dst_read]

/-- The wrapped destination words feeding the second layer's degree count. -/
theorem wdst_v59 (x1 : (⟨S2x3211264, .i32⟩ : BufTy).Contents (Elt Ideal)) (e : Fin 3211264) :
    val_main_v59 (F := Ideal) x1 (ix2 e (0 : Fin 1)) = Gcn.normW 401408 (Gcn.dstW x1 e) := by
  have h : idx_main_v59 (ix2 e (0 : Fin 1)) = ix1 e := funext fun a => Fin.ext (by match a with | ⟨0, _⟩ => rfl)
  rw [val_main_v59_apply, h, val_main_v58_apply, val_main_v55_apply, val_main_v57_apply, val_main_v54_apply,
    val_main_c_10_apply, val_main_v56_apply, val_main_c_11_apply, dst_read]
  exact wrap_word _

/-- The wrapped source words at which the second layer reads the normalisation. -/
theorem wsrc_v68 (x1 : (⟨S2x3211264, .i32⟩ : BufTy).Contents (Elt Ideal)) (e : Fin 3211264) :
    val_main_v68 (F := Ideal) x1 (ix2 e (0 : Fin 1)) = Gcn.normW 401408 (Gcn.srcW x1 e) := by
  have h : idx_main_v68 (ix2 e (0 : Fin 1)) = ix1 e := funext fun a => Fin.ext (by match a with | ⟨0, _⟩ => rfl)
  rw [val_main_v68_apply, h, val_main_v67_apply, val_main_v64_apply, val_main_v66_apply, val_main_v63_apply,
    val_main_c_13_apply, val_main_v65_apply, val_main_c_14_apply, src_read]
  exact wrap_word _

/-- The wrapped destination words at which the second layer reads the normalisation. -/
theorem wdst_v75 (x1 : (⟨S2x3211264, .i32⟩ : BufTy).Contents (Elt Ideal)) (e : Fin 3211264) :
    val_main_v75 (F := Ideal) x1 (ix2 e (0 : Fin 1)) = Gcn.normW 401408 (Gcn.dstW x1 e) := by
  have h : idx_main_v75 (ix2 e (0 : Fin 1)) = ix1 e := funext fun a => Fin.ext (by match a with | ⟨0, _⟩ => rfl)
  rw [val_main_v75_apply, h, val_main_v74_apply, val_main_v71_apply, val_main_v73_apply, val_main_v70_apply,
    val_main_c_15_apply, val_main_v72_apply, val_main_c_16_apply, dst_read]
  exact wrap_word _

/-- The wrapped source words at which the second layer gathers the projected features. -/
theorem wsrc_v83 (x1 : (⟨S2x3211264, .i32⟩ : BufTy).Contents (Elt Ideal)) (e : Fin 3211264) :
    val_main_v83 (F := Ideal) x1 (ix2 e (0 : Fin 1)) = Gcn.normW 401408 (Gcn.srcW x1 e) := by
  have h : idx_main_v83 (ix2 e (0 : Fin 1)) = ix1 e := funext fun a => Fin.ext (by match a with | ⟨0, _⟩ => rfl)
  rw [val_main_v83_apply, h, val_main_v82_apply, val_main_v79_apply, val_main_v81_apply, val_main_v78_apply,
    val_main_c_17_apply, val_main_v80_apply, val_main_c_18_apply, src_read]
  exact wrap_word _

/-- The destination words as they are, to which the second layer's segment sum sends the messages. -/
theorem raw_v89 (x1 : (⟨S2x3211264, .i32⟩ : BufTy).Contents (Elt Ideal)) (e : Fin 3211264) :
    val_main_v89 (F := Ideal) x1 (ix2 e (0 : Fin 1)) = Gcn.dstW x1 e := by
  have h : idx_main_v89 (ix2 e (0 : Fin 1)) = ix1 e := funext fun a => Fin.ext (by match a with | ⟨0, _⟩ => rfl)
  rw [val_main_v89_apply, h, dst_read]

/-! ## Degrees, normalisation, edge coefficients and own shares -/

/-- The first layer's degree: one for the self loop plus one per edge whose wrapped destination is the node. -/
theorem ref_deg (x1 : (⟨S2x3211264, .i32⟩ : BufTy).Contents (Elt Ideal)) (p : Fin 401408) :
    val_main_v13 (F := Ideal) x1 (ix1 p) = Gcn.degR (Gcn.rhoN Gcn.NN x1) p := by
  unfold val_main_v13
  rw [scatterAdd_ideal, RowOps.scatterAdd_rows1_apply _ rfl rfl rfl rfl]
  simp only [wdst_v11, val_main_v5_apply, val_main_cst_apply, val_main_v12_apply, val_main_cst_1_apply, Ideal.ofBits_def,
    one_word]
  unfold Gcn.degR Gcn.nodesOf Gcn.rhoN
  rfl

/-- The second layer counts the same degree again. -/
theorem ref_deg_2 (x1 : (⟨S2x3211264, .i32⟩ : BufTy).Contents (Elt Ideal)) (p : Fin 401408) :
    val_main_v61 (F := Ideal) x1 (ix1 p) = Gcn.degR (Gcn.rhoN Gcn.NN x1) p := by
  unfold val_main_v61
  rw [scatterAdd_ideal, RowOps.scatterAdd_rows1_apply _ rfl rfl rfl rfl]
  simp only [wdst_v59, val_main_v53_apply, val_main_cst_9_apply, val_main_v60_apply, val_main_cst_12_apply, Ideal.ofBits_def,
    one_word]
  unfold Gcn.degR Gcn.nodesOf Gcn.rhoN
  rfl

/-- The reciprocal square root of the degree, first layer. -/
theorem ref_dinv (x1 : (⟨S2x3211264, .i32⟩ : BufTy).Contents (Elt Ideal)) (p : Fin 401408) :
    val_main_v14 (F := Ideal) x1 (ix1 p) = Gcn.dinv (Gcn.rhoN Gcn.NN x1) p := by
  rw [val_main_v14_apply, ref_deg, Ideal.hostUnary_rsqrt_def]
  rfl

/-- The reciprocal square root of the degree, second layer. -/
theorem ref_dinv_2 (x1 : (⟨S2x3211264, .i32⟩ : BufTy).Contents (Elt Ideal)) (p : Fin 401408) :
    val_main_v62 (F := Ideal) x1 (ix1 p) = Gcn.dinv (Gcn.rhoN Gcn.NN x1) p := by
  rw [val_main_v62_apply, ref_deg_2, Ideal.hostUnary_rsqrt_def]
  rfl

/-- An edge's coefficient: the normalisation gathered at its wrapped, clamped source times the same at its destination. -/
theorem ref_coef (x1 : (⟨S2x3211264, .i32⟩ : BufTy).Contents (Elt Ideal)) (e : Fin 3211264) :
    val_main_v29 (F := Ideal) x1 (ix1 e) = Gcn.coefG x1 e := by
  rw [val_main_v29_apply, Ideal.mulf_def]
  unfold val_main_v21 val_main_v28
  rw [RowOps.gather_rows1_apply Gcn.NN_pos _ rfl rfl rfl rfl rfl rfl rfl,
    RowOps.gather_rows1_apply Gcn.NN_pos _ rfl rfl rfl rfl rfl rfl rfl, wsrc_v20, wdst_v27, ref_dinv, ref_dinv]
  rfl

/-- The second layer's edge coefficients are the same. -/
theorem ref_coef_2 (x1 : (⟨S2x3211264, .i32⟩ : BufTy).Contents (Elt Ideal)) (e : Fin 3211264) :
    val_main_v77 (F := Ideal) x1 (ix1 e) = Gcn.coefG x1 e := by
  rw [val_main_v77_apply, Ideal.mulf_def]
  unfold val_main_v69 val_main_v76
  rw [RowOps.gather_rows1_apply Gcn.NN_pos _ rfl rfl rfl rfl rfl rfl rfl,
    RowOps.gather_rows1_apply Gcn.NN_pos _ rfl rfl rfl rfl rfl rfl rfl, wsrc_v68, wdst_v75, ref_dinv_2, ref_dinv_2]
  rfl

/-- A node's own share: the normalisation squared. -/
theorem ref_d2 (x1 : (⟨S2x3211264, .i32⟩ : BufTy).Contents (Elt Ideal)) (p : Fin 401408) :
    val_main_v43 (F := Ideal) x1 (ix1 p) = Gcn.d2G x1 p := by
  rw [val_main_v43_apply, Ideal.mulf_def, ref_dinv]
  rfl

/-- The second layer's own shares are the same. -/
theorem ref_d2_2 (x1 : (⟨S2x3211264, .i32⟩ : BufTy).Contents (Elt Ideal)) (p : Fin 401408) :
    val_main_v91 (F := Ideal) x1 (ix1 p) = Gcn.d2G x1 p := by
  rw [val_main_v91_apply, Ideal.mulf_def, ref_dinv_2]
  rfl

/-! ## The first layer -/

/-- The projected features: node p's one input feature times the first weight row. -/
theorem proj1 (x0 : (⟨S401408x1, .f32⟩ : BufTy).Contents (Elt Ideal)) (x2 : (⟨S1x32, .f32⟩ : BufTy).Contents (Elt Ideal))
    (p : Fin 401408) (q : Fin 32) :
    val_main_v4 (F := Ideal) x0 x2 (ix2 p q)
      = Gcn.proj (fun (p : Fin 401408) (k : Fin 1) => x0 (ix2 p k)) (fun (k : Fin 1) (q : Fin 32) => x2 (ix2 k q)) p q := by
  have hl : ∀ k : Fin 1, lidx_main_v4 (ix2 p q) k = ix2 p k := fun k =>
    funext fun a => Fin.ext (by match a with | ⟨0, _⟩ => rfl | ⟨1, _⟩ => rfl)
  have hr : ∀ k : Fin 1, ridx_main_v4 (ix2 p q) k = ix2 k q := fun k =>
    funext fun a => Fin.ext (by match a with | ⟨0, _⟩ => rfl | ⟨1, _⟩ => rfl)
  rw [val_main_v4_apply]
  simp only [hl, hr]
  rfl

/-- The projected features gathered at an edge's wrapped, clamped source. -/
theorem gath1 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (e : Fin 3211264) (q : Fin 32) :
    val_main_v36 (F := Ideal) x0 x1 x2 (ix2 e q)
      = Gcn.proj (fun (p : Fin 401408) (k : Fin 1) => x0 (ix2 p k)) (fun (k : Fin 1) (q : Fin 32) => x2 (ix2 k q))
          (Gcn.gamS Gcn.NN Gcn.NN_pos x1 e) q := by
  unfold val_main_v36
  rw [RowOps.gather_rows_apply Gcn.NN_pos _ rfl rfl rfl rfl rfl rfl rfl, wsrc_v35, proj1]
  rfl

/-- An edge's message: the gathered projected features scaled by the edge's coefficient. -/
theorem msg1 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (e : Fin 3211264) (q : Fin 32) :
    val_main_v39 (F := Ideal) x0 x1 x2 (ix2 e q)
      = Gcn.proj (fun (p : Fin 401408) (k : Fin 1) => x0 (ix2 p k)) (fun (k : Fin 1) (q : Fin 32) => x2 (ix2 k q))
          (Gcn.gamS Gcn.NN Gcn.NN_pos x1 e) q * Gcn.coefG x1 e := by
  have h38 : idx_main_v38 (ix2 e q) = ix2 e (0 : Fin 1) :=
    funext fun a => Fin.ext (by match a with | ⟨0, _⟩ => rfl | ⟨1, _⟩ => rfl)
  have h37 : idx_main_v37 (ix2 e (0 : Fin 1)) = ix1 e := funext fun a => Fin.ext (by match a with | ⟨0, _⟩ => rfl)
  rw [val_main_v39_apply, Ideal.mulf_def, gath1, val_main_v38_apply, h38, val_main_v37_apply, h37, ref_coef]

/-- The segment sum: the messages of the edges whose destination word, as it is, names the node. -/
theorem seg1 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (p : Fin 401408) (q : Fin 32) :
    val_main_v42 (F := Ideal) x0 x1 x2 (ix2 p q)
      = ∑ e ∈ Gcn.nodesOf (Gcn.rhoRaw Gcn.NN x1) p,
          Gcn.proj (fun (p : Fin 401408) (k : Fin 1) => x0 (ix2 p k)) (fun (k : Fin 1) (q : Fin 32) => x2 (ix2 k q))
            (Gcn.gamS Gcn.NN Gcn.NN_pos x1 e) q * Gcn.coefG x1 e := by
  unfold val_main_v42
  rw [scatterAdd_ideal, RowOps.scatterAdd_rows_apply _ rfl rfl rfl rfl]
  simp only [raw_v41, msg1, val_main_v40_apply, val_main_cst_8_apply, Ideal.ofBits_def, Ideal.ofBits_zero_f32, zero_add]
  unfold Gcn.nodesOf Gcn.rhoRaw
  rfl

/-- The node's own term: its projected features scaled by its own share. -/
theorem self1 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (p : Fin 401408) (q : Fin 32) :
    val_main_v46 (F := Ideal) x0 x1 x2 (ix2 p q)
      = Gcn.proj (fun (p : Fin 401408) (k : Fin 1) => x0 (ix2 p k)) (fun (k : Fin 1) (q : Fin 32) => x2 (ix2 k q)) p q
          * Gcn.d2G x1 p := by
  have h45 : idx_main_v45 (ix2 p q) = ix2 p (0 : Fin 1) :=
    funext fun a => Fin.ext (by match a with | ⟨0, _⟩ => rfl | ⟨1, _⟩ => rfl)
  have h44 : idx_main_v44 (ix2 p (0 : Fin 1)) = ix1 p := funext fun a => Fin.ext (by match a with | ⟨0, _⟩ => rfl)
  rw [val_main_v46_apply, Ideal.mulf_def, proj1, val_main_v45_apply, h45, val_main_v44_apply, h44, ref_d2]

/-- The bias row laid under every node. -/
theorem bias1 (x3 : (⟨S32, .f32⟩ : BufTy).Contents (Elt Ideal)) (p : Fin 401408) (q : Fin 32) :
    val_main_v49 (F := Ideal) x3 (ix2 p q) = x3 (ix1 q) := by
  have h49 : idx_main_v49 (ix2 p q) = ix2 (0 : Fin 1) q :=
    funext fun a => Fin.ext (by match a with | ⟨0, _⟩ => rfl | ⟨1, _⟩ => rfl)
  have h48 : idx_main_v48 (ix2 (0 : Fin 1) q) = ix1 q := funext fun a => Fin.ext (by match a with | ⟨0, _⟩ => rfl)
  rw [val_main_v49_apply, h49, val_main_v48_apply, h48]

/-- THE FIRST LAYER: segment sum plus own term plus bias, clipped below at zero. -/
theorem ref_h1 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (p : Fin 401408) (q : Fin 32) :
    val_main_v51 (F := Ideal) x0 x1 x2 x3 (ix2 p q)
      = Gcn.h1R (fun p k => x0 (ix2 p k)) x1 (fun k q => x2 (ix2 k q)) (fun q => x3 (ix1 q)) p q := by
  rw [val_main_v51_apply, val_main_v50_apply, val_main_v47_apply, seg1, self1, bias1, val_main_call0_v0_apply,
    val_main_call0_cst_apply]
  simp only [Ideal.maximumf_def, Ideal.addf_def, Ideal.ofBits_def, Ideal.ofBits_zero_f32]
  rfl

/-! ## The second layer: the same stages on the first layer's output, at 64 features -/

/-- The projected features: the first layer's row at node p times a column of the second weight matrix. -/
theorem proj2 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (p : Fin 401408) (q : Fin 64) :
    val_main_v52 (F := Ideal) x0 x1 x2 x3 x4 (ix2 p q)
      = Gcn.proj (Gcn.h1R (fun p k => x0 (ix2 p k)) x1 (fun k q => x2 (ix2 k q)) (fun q => x3 (ix1 q)))
          (fun (k : Fin 32) (q : Fin 64) => x4 (ix2 k q)) p q := by
  have hl : ∀ k : Fin 32, lidx_main_v52 (ix2 p q) k = ix2 p k := fun k =>
    funext fun a => Fin.ext (by match a with | ⟨0, _⟩ => rfl | ⟨1, _⟩ => rfl)
  have hr : ∀ k : Fin 32, ridx_main_v52 (ix2 p q) k = ix2 k q := fun k =>
    funext fun a => Fin.ext (by match a with | ⟨0, _⟩ => rfl | ⟨1, _⟩ => rfl)
  rw [val_main_v52_apply]
  simp only [hl, hr, ref_h1]
  rfl

/-- The projected features gathered at an edge's wrapped, clamped source. -/
theorem gath2 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (e : Fin 3211264) (q : Fin 64) :
    val_main_v84 (F := Ideal) x0 x1 x2 x3 x4 (ix2 e q)
      = Gcn.proj (Gcn.h1R (fun p k => x0 (ix2 p k)) x1 (fun k q => x2 (ix2 k q)) (fun q => x3 (ix1 q)))
          (fun (k : Fin 32) (q : Fin 64) => x4 (ix2 k q)) (Gcn.gamS Gcn.NN Gcn.NN_pos x1 e) q := by
  unfold val_main_v84
  rw [RowOps.gather_rows_apply Gcn.NN_pos _ rfl rfl rfl rfl rfl rfl rfl, wsrc_v83, proj2]
  rfl

/-- An edge's message in the second layer. -/
theorem msg2 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (e : Fin 3211264) (q : Fin 64) :
    val_main_v87 (F := Ideal) x0 x1 x2 x3 x4 (ix2 e q)
      = Gcn.proj (Gcn.h1R (fun p k => x0 (ix2 p k)) x1 (fun k q => x2 (ix2 k q)) (fun q => x3 (ix1 q)))
          (fun (k : Fin 32) (q : Fin 64) => x4 (ix2 k q)) (Gcn.gamS Gcn.NN Gcn.NN_pos x1 e) q * Gcn.coefG x1 e := by
  have h86 : idx_main_v86 (ix2 e q) = ix2 e (0 : Fin 1) :=
    funext fun a => Fin.ext (by match a with | ⟨0, _⟩ => rfl | ⟨1, _⟩ => rfl)
  have h85 : idx_main_v85 (ix2 e (0 : Fin 1)) = ix1 e := funext fun a => Fin.ext (by match a with | ⟨0, _⟩ => rfl)
  rw [val_main_v87_apply, Ideal.mulf_def, gath2, val_main_v86_apply, h86, val_main_v85_apply, h85, ref_coef_2]

/-- The second layer's segment sum. -/
theorem seg2 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (p : Fin 401408) (q : Fin 64) :
    val_main_v90 (F := Ideal) x0 x1 x2 x3 x4 (ix2 p q)
      = ∑ e ∈ Gcn.nodesOf (Gcn.rhoRaw Gcn.NN x1) p,
          Gcn.proj (Gcn.h1R (fun p k => x0 (ix2 p k)) x1 (fun k q => x2 (ix2 k q)) (fun q => x3 (ix1 q)))
            (fun (k : Fin 32) (q : Fin 64) => x4 (ix2 k q)) (Gcn.gamS Gcn.NN Gcn.NN_pos x1 e) q * Gcn.coefG x1 e := by
  unfold val_main_v90
  rw [scatterAdd_ideal, RowOps.scatterAdd_rows_apply _ rfl rfl rfl rfl]
  simp only [raw_v89, msg2, val_main_v88_apply, val_main_cst_19_apply, Ideal.ofBits_def, Ideal.ofBits_zero_f32, zero_add]
  unfold Gcn.nodesOf Gcn.rhoRaw
  rfl

/-- The node's own term in the second layer. -/
theorem self2 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (p : Fin 401408) (q : Fin 64) :
    val_main_v94 (F := Ideal) x0 x1 x2 x3 x4 (ix2 p q)
      = Gcn.proj (Gcn.h1R (fun p k => x0 (ix2 p k)) x1 (fun k q => x2 (ix2 k q)) (fun q => x3 (ix1 q)))
          (fun (k : Fin 32) (q : Fin 64) => x4 (ix2 k q)) p q * Gcn.d2G x1 p := by
  have h93 : idx_main_v93 (ix2 p q) = ix2 p (0 : Fin 1) :=
    funext fun a => Fin.ext (by match a with | ⟨0, _⟩ => rfl | ⟨1, _⟩ => rfl)
  have h92 : idx_main_v92 (ix2 p (0 : Fin 1)) = ix1 p := funext fun a => Fin.ext (by match a with | ⟨0, _⟩ => rfl)
  rw [val_main_v94_apply, Ideal.mulf_def, proj2, val_main_v93_apply, h93, val_main_v92_apply, h92, ref_d2_2]

/-- The second bias row laid under every node. -/
theorem bias2 (x5 : (⟨S64, .f32⟩ : BufTy).Contents (Elt Ideal)) (p : Fin 401408) (q : Fin 64) :
    val_main_v97 (F := Ideal) x5 (ix2 p q) = x5 (ix1 q) := by
  have h97 : idx_main_v97 (ix2 p q) = ix2 (0 : Fin 1) q :=
    funext fun a => Fin.ext (by match a with | ⟨0, _⟩ => rfl | ⟨1, _⟩ => rfl)
  have h96 : idx_main_v96 (ix2 (0 : Fin 1) q) = ix1 q := funext fun a => Fin.ext (by match a with | ⟨0, _⟩ => rfl)
  rw [val_main_v97_apply, h97, val_main_v96_apply, h96]

/-- THE SECOND LAYER. -/
theorem ref_h2 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (p : Fin 401408) (q : Fin 64) :
    val_main_v99 (F := Ideal) x0 x1 x2 x3 x4 x5 (ix2 p q)
      = Gcn.h2R (fun p k => x0 (ix2 p k)) x1 (fun k q => x2 (ix2 k q)) (fun q => x3 (ix1 q))
          (fun k q => x4 (ix2 k q)) (fun q => x5 (ix1 q)) p q := by
  rw [val_main_v99_apply, val_main_v98_apply, val_main_v95_apply, seg2, self2, bias2, val_main_call1_v0_apply,
    val_main_call1_cst_apply]
  simp only [Ideal.maximumf_def, Ideal.addf_def, Ideal.ofBits_def, Ideal.ofBits_zero_f32]
  rfl

/-! ## The fully connected head -/

/-- The reshape to one row per graph: row r, column s is node 784 r + s / 64, feature s mod 64. -/
theorem flat100 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (r : Fin 512) (s : Fin 50176) :
    val_main_v100 (F := Ideal) x0 x1 x2 x3 x4 x5 (ix2 r s)
      = Gcn.flat (Gcn.h2R (fun p k => x0 (ix2 p k)) x1 (fun k q => x2 (ix2 k q)) (fun q => x3 (ix1 q))
          (fun k q => x4 (ix2 k q)) (fun q => x5 (ix1 q))) r s := by
  have h : idx_main_v100 (ix2 r s)
      = ix2 (⟨r.val * 784 + s.val / 64, by have := r.isLt; have := s.isLt; omega⟩ : Fin 401408)
          (⟨s.val % 64, Nat.mod_lt _ (by decide)⟩ : Fin 64) :=
    funext fun a => Fin.ext (by
      match a with
      | ⟨0, _⟩ => show (r.val * 50176 + s.val) / 64 = r.val * 784 + s.val / 64; omega
      | ⟨1, _⟩ => show (r.val * 50176 + s.val) % 64 = s.val % 64; omega)
  rw [val_main_v100_apply, h, ref_h2]
  rfl

/-- The long contraction: a graph's 50176 features against a column of the first dense weight matrix. -/
theorem dot101 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (x6 : (⟨S50176x128, .f32⟩ : BufTy).Contents (Elt Ideal)) (r : Fin 512) (u : Fin 128) :
    val_main_v101 (F := Ideal) x0 x1 x2 x3 x4 x5 x6 (ix2 r u)
      = ∑ s : Fin 50176, Gcn.flat (Gcn.h2R (fun p k => x0 (ix2 p k)) x1 (fun k q => x2 (ix2 k q)) (fun q => x3 (ix1 q))
          (fun k q => x4 (ix2 k q)) (fun q => x5 (ix1 q))) r s * x6 (ix2 s u) := by
  have hl : ∀ k : Fin 50176, lidx_main_v101 (ix2 r u) k = ix2 r k := fun k =>
    funext fun a => Fin.ext (by match a with | ⟨0, _⟩ => rfl | ⟨1, _⟩ => rfl)
  have hr : ∀ k : Fin 50176, ridx_main_v101 (ix2 r u) k = ix2 k u := fun k =>
    funext fun a => Fin.ext (by match a with | ⟨0, _⟩ => rfl | ⟨1, _⟩ => rfl)
  rw [val_main_v101_apply]
  simp only [hl, hr, flat100]

/-- The hidden layer of the head: the long contraction plus its bias, clipped below at zero. -/
theorem hid105 (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (x6 : (⟨S50176x128, .f32⟩ : BufTy).Contents (Elt Ideal)) (x7 : (⟨S128, .f32⟩ : BufTy).Contents (Elt Ideal))
    (r : Fin 512) (u : Fin 128) :
    val_main_v105 (F := Ideal) x0 x1 x2 x3 x4 x5 x6 x7 (ix2 r u)
      = max ((∑ s : Fin 50176, Gcn.flat (Gcn.h2R (fun p k => x0 (ix2 p k)) x1 (fun k q => x2 (ix2 k q)) (fun q => x3 (ix1 q))
          (fun k q => x4 (ix2 k q)) (fun q => x5 (ix1 q))) r s * x6 (ix2 s u)) + x7 (ix1 u)) 0 := by
  have h103 : idx_main_v103 (ix2 r u) = ix2 (0 : Fin 1) u :=
    funext fun a => Fin.ext (by match a with | ⟨0, _⟩ => rfl | ⟨1, _⟩ => rfl)
  have h102 : idx_main_v102 (ix2 (0 : Fin 1) u) = ix1 u := funext fun a => Fin.ext (by match a with | ⟨0, _⟩ => rfl)
  rw [val_main_v105_apply, val_main_v104_apply, dot101, val_main_v103_apply, h103, val_main_v102_apply, h102,
    val_main_call2_v0_apply, val_main_call2_cst_apply]
  simp only [Ideal.maximumf_def, Ideal.addf_def, Ideal.ofBits_def, Ideal.ofBits_zero_f32]

/-- THE NETWORK'S OUTPUT: the hidden layer against the last weight matrix, plus the last bias. -/
theorem ref_out (x0 : (⟨S401408x1, .f32⟩ : BufTy).Contents (Elt Ideal)) (x1 : (⟨S2x3211264, .i32⟩ : BufTy).Contents (Elt Ideal))
    (x2 : (⟨S1x32, .f32⟩ : BufTy).Contents (Elt Ideal)) (x3 : (⟨S32, .f32⟩ : BufTy).Contents (Elt Ideal))
    (x4 : (⟨S32x64, .f32⟩ : BufTy).Contents (Elt Ideal)) (x5 : (⟨S64, .f32⟩ : BufTy).Contents (Elt Ideal))
    (x6 : (⟨S50176x128, .f32⟩ : BufTy).Contents (Elt Ideal)) (x7 : (⟨S128, .f32⟩ : BufTy).Contents (Elt Ideal))
    (x8 : (⟨S128x10, .f32⟩ : BufTy).Contents (Elt Ideal)) (x9 : (⟨S10, .f32⟩ : BufTy).Contents (Elt Ideal))
    (r : Fin 512) (j : Fin 10) :
    val_main_v109 (F := Ideal) x0 x1 x2 x3 x4 x5 x6 x7 x8 x9 (ix2 r j)
      = Gcn.outR (fun p k => x0 (ix2 p k)) x1 (fun k q => x2 (ix2 k q)) (fun q => x3 (ix1 q))
          (fun k q => x4 (ix2 k q)) (fun q => x5 (ix1 q)) (fun s u => x6 (ix2 s u)) (fun u => x7 (ix1 u))
          (fun u j => x8 (ix2 u j)) (fun j => x9 (ix1 j)) r j := by
  have hl : ∀ k : Fin 128, lidx_main_v106 (ix2 r j) k = ix2 r k := fun k =>
    funext fun a => Fin.ext (by match a with | ⟨0, _⟩ => rfl | ⟨1, _⟩ => rfl)
  have hr : ∀ k : Fin 128, ridx_main_v106 (ix2 r j) k = ix2 k j := fun k =>
    funext fun a => Fin.ext (by match a with | ⟨0, _⟩ => rfl | ⟨1, _⟩ => rfl)
  have h108 : idx_main_v108 (ix2 r j) = ix2 (0 : Fin 1) j :=
    funext fun a => Fin.ext (by match a with | ⟨0, _⟩ => rfl | ⟨1, _⟩ => rfl)
  have h107 : idx_main_v107 (ix2 (0 : Fin 1) j) = ix1 j := funext fun a => Fin.ext (by match a with | ⟨0, _⟩ => rfl)
  rw [val_main_v109_apply, Ideal.addf_def, val_main_v106_apply, val_main_v108_apply, h108, val_main_v107_apply, h107]
  simp only [hl, hr, hid105]
  rfl

end Cert.ReferenceIdeal.RefSpec

end
-- ==== Proof.lean ====
/-
  The certificate's proof. Both programs compute a two-layer graph convolution over 401408 nodes followed by a fully
  connected head. The three frames: each program runs to its end, faults nowhere, and leaves its ten arguments as
  launched — for the two kernel programs the run over their six items (three host stretches, three pipelined regions),
  for the reference its run as a line of host operations. The idealization rewrote nothing, so preserves has no
  conjunct. The algebraic conjunct: at the ideal instance the kernel program's result is the network with each layer
  aggregating before it projects and the head's long contraction accumulated in eight blocks; the reference's is the
  network with each layer projecting first and the contraction one sum; for finite inputs — the precondition — the
  two are the same extended reals, because over real numbers a finite sum distributes over a product and a sum may be
  regrouped.
-/
import proofs.«400340_j61014305407058_4_alg».proof.Defs
import proofs.«400340_j61014305407058_4_alg».proof.Proof.Gen.Kernel
import proofs.«400340_j61014305407058_4_alg».proof.Proof.Gen.KernelIdeal
import proofs.«400340_j61014305407058_4_alg».proof.Proof.Gen.ReferenceIdeal
import proofs.«400340_j61014305407058_4_alg».proof.Proof.Gen.Pre_finite_inputs
import proofs.«400340_j61014305407058_4_alg».proof.Proof.Gen.ReferenceIdeal.Run
import proofs.«400340_j61014305407058_4_alg».proof.Proof.Gen.ReferenceIdeal.Read
import proofs.«400340_j61014305407058_4_alg».proof.Proof.KBRun
import proofs.«400340_j61014305407058_4_alg».proof.Proof.KIRun
import proofs.«400340_j61014305407058_4_alg».proof.Proof.Finite
import proofs.«400340_j61014305407058_4_alg».proof.Proof.SpecTop
import proofs.«400340_j61014305407058_4_alg».proof.Proof.KIValue
import proofs.«400340_j61014305407058_4_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Run.frame m ρ
theorem frame_kernelIdeal : Cert.frame_KernelIdeal := fun m ρ _ => Cert.KernelIdeal.Run.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Run.W6 m ρ c (Proc.devRef .tc Cert.KernelIdeal.main_v67), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq]
  obtain ⟨a0, a1, a2, a3, a4, a5, a6, a7, a8, a9⟩ := hagree c
  rw [a0, a1, a2, a3, a4, a5, a6, a7, a8, a9]
  obtain ⟨hr0, hr2, hr3, hr4, hr5⟩ := Cert.Finite.real_of_pre _ _ _ _ _ _ _ _ _ _ (hpre c)
  funext i
  obtain ⟨r, j, rfl⟩ : ∃ (r : Fin 512) (j : Fin 10), i = ix2 r j := ⟨i 0, i 1, eq_ix2 i⟩
  rw [Cert.ReferenceIdeal.RefSpec.ref_out]
  refine Eq.trans ?_ (Cert.KernelIdeal.Value.value m ρ c r j).symm
  exact (Gcn.out_eq _ _ _ _ _ _ _ _ _ _ (fun p k => hr0 (ix2 p k)) (fun k q => hr2 (ix2 k q)) (fun q => hr3 (ix1 q))
    (fun k q => hr4 (ix2 k q)) (fun q => hr5 (ix1 q)) r j).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
